-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S2x128x128 : Shape := ⟨3, ![2, 128, 128]⟩
abbrev S256x1 : Shape := ⟨2, ![256, 1]⟩
abbrev S1 : Shape := ⟨1, ![1]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S2x128x128 : S_.BroadcastsInDim S2x128x128 (![] : Fin 0 → Fin S2x128x128.rank)
  reducesTo_S2x128x128_S_d0_1_2 : S2x128x128.ReducesTo [0, 1, 2] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S64 .f32) (main_arg10 : FVec F S1 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S256x1 .f32) (main_arg7 : FVec F S1 .f32) (main_arg8 : FVec F S128x64 .f32) (main_arg9 : FVec F S64 .f32) (main_arg10 : FVec F S1 .f32) (main_v13 : IVec S_ 1) (main_v16 : IVec S2x128x128 1) : IVec S_ 1 :=
  let main_c_5 : IVec S_ 1 := constantI S_ 1 1#1
  let main_v17 : IVec S_ 1 := (fun x v => Host.reduce IntOp.andi x v reducesTo_S2x128x128_S_d0_1_2 h_S_) main_v16 main_c_5
  let main_v18 : IVec S_ 1 := andi main_v13 main_v17
  let main_v19 : FVec F S256x1 .f32 := Host.absf main_arg6
  let main_cst_6 : FVec F S_ .f32 := constant S_ .f32 0x7F800000#32
  let main_v20 : FVec F S256x1 .f32 := broadcastInDim S256x1 ![] bcast_S_S256x1 main_cst_6
  let main_v21 : IVec S256x1 1 := cmpf .olt main_v19 main_v20
  let main_c_7 : IVec S_ 1 := constantI S_ 1 1#1
  let main_v22 : IVec S_ 1 := (fun x v => Host.reduce IntOp.andi x v reducesTo_S256x1_S_d0_1 h_S_) main_v21 main_c_7
  let main_v23 : IVec S_ 1 := andi main_v18 main_v22
  let main_v24 : FVec F S1 .f32 := Host.absf main_arg7
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S128x64 .f32 := Host.absf main_arg8
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S1600000 32) (main_arg2 : IVec S1600000 32) (main_arg3 : FVec F S1600000 .f32) (main_arg4 : FVec F S128x128 .f32) (main_arg5 : FVec F S2x128x128 .f32) (main_arg6 : FVec F S256x1 .f32) (main_arg7 : FVec F S1 .f32) (main_arg8 : FVec F S128x64 .f32) (main_arg9 : FVec F S64 .f32) (main_arg10 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S2x128x128 .f32 := Host.absf main_arg5
  let main_cst_4 : FVec F S_ .f32 := constant S_ .f32 0x7F800000#32
  let main_v15 : FVec F S2x128x128 .f32 := broadcastInDim S2x128x128 ![] bcast_S_S2x128x128 main_cst_4
  let main_v16 : IVec S2x128x128 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S2x128x128 : Shape := ⟨3, ![2, 128, 128]⟩
abbrev S256x1 : Shape := ⟨2, ![256, 1]⟩
abbrev S1 : Shape := ⟨1, ![1]⟩
abbrev S128x64 : Shape := ⟨2, ![128, 64]⟩
abbrev S64 : Shape := ⟨1, ![64]⟩
abbrev S128x1 : Shape := ⟨2, ![128, 1]⟩
abbrev S128 : Shape := ⟨1, ![128]⟩
abbrev S1600000x1 : Shape := ⟨2, ![1600000, 1]⟩
abbrev S_ : Shape := ⟨0, ![]⟩
abbrev S1600000x128 : Shape := ⟨2, ![1600000, 128]⟩
abbrev S2000x128 : Shape := ⟨2, ![2000, 128]⟩
abbrev S1x128 : Shape := ⟨2, ![1, 128]⟩
abbrev S2000 : Shape := ⟨1, ![2000]⟩
abbrev S2000x1 : Shape := ⟨2, ![2000, 1]⟩
abbrev S1x1 : Shape := ⟨2, ![1, 1]⟩
abbrev S1x128x128 : Shape := ⟨3, ![1, 128, 128]⟩
abbrev S100000x64 : Shape := ⟨2, ![100000, 64]⟩
abbrev S2000x64 : Shape := ⟨2, ![2000, 64]⟩
abbrev S1x64 : Shape := ⟨2, ![1, 64]⟩

abbrev nBuf : Space → Nat
  | .hbm => 72
  | .vmem => 38
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S2x128x128, .f32⟩
  | .hbm, ⟨6, _⟩ => ⟨S256x1, .f32⟩
  | .hbm, ⟨7, _⟩ => ⟨S1, .f32⟩
  | .hbm, ⟨8, _⟩ => ⟨S128x64, .f32⟩
  | .hbm, ⟨9, _⟩ => ⟨S64, .f32⟩
  | .hbm, ⟨10, _⟩ => ⟨S1, .f32⟩
  | .hbm, ⟨11, _⟩ => ⟨S128x1, .f32⟩
  | .hbm, ⟨12, _⟩ => ⟨S128, .f32⟩
  | .hbm, ⟨13, _⟩ => ⟨S128x1, .f32⟩
  | .hbm, ⟨14, _⟩ => ⟨S128, .f32⟩
  | .hbm, ⟨15, _⟩ => ⟨S1600000x1, .f32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x128, .f32⟩
  | .hbm, ⟨25, _⟩ => ⟨S1600000x128, .f32⟩
  | .hbm, ⟨26, _⟩ => ⟨S1600000x128, .f32⟩
  | .hbm, ⟨27, _⟩ => ⟨S_, .f32⟩
  | .hbm, ⟨28, _⟩ => ⟨S100000x128, .f32⟩
  | .hbm, ⟨29, _⟩ => ⟨S1600000x1, .i32⟩
  | .hbm, ⟨30, _⟩ => ⟨S100000x128, .f32⟩
  | .hbm, ⟨31, _⟩ => ⟨S100000x128, .f32⟩
  | .hbm, ⟨32, _⟩ => ⟨S100000x128, .f32⟩
  | .hbm, ⟨33, _⟩ => ⟨S1600000x1, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x128, .f32⟩
  | .hbm, ⟨43, _⟩ => ⟨S1600000x128, .f32⟩
  | .hbm, ⟨44, _⟩ => ⟨S1600000x128, .f32⟩
  | .hbm, ⟨45, _⟩ => ⟨S_, .f32⟩
  | .hbm, ⟨46, _⟩ => ⟨S100000x128, .f32⟩
  | .hbm, ⟨47, _⟩ => ⟨S1600000x1, .i32⟩
  | .hbm, ⟨48, _⟩ => ⟨S100000x128, .f32⟩
  | .hbm, ⟨49, _⟩ => ⟨S1x128x128, .f32⟩
  | .hbm, ⟨50, _⟩ => ⟨S128x128, .f32⟩
  | .hbm, ⟨51, _⟩ => ⟨S100000x128, .f32⟩
  | .hbm, ⟨52, _⟩ => ⟨S100000x128, .f32⟩
  | .hbm, ⟨53, _⟩ => ⟨S1600000x1, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x128, .f32⟩
  | .hbm, ⟨63, _⟩ => ⟨S1600000x128, .f32⟩
  | .hbm, ⟨64, _⟩ => ⟨S1600000x128, .f32⟩
  | .hbm, ⟨65, _⟩ => ⟨S_, .f32⟩
  | .hbm, ⟨66, _⟩ => ⟨S100000x128, .f32⟩
  | .hbm, ⟨67, _⟩ => ⟨S1600000x1, .i32⟩
  | .hbm, ⟨68, _⟩ => ⟨S100000x128, .f32⟩
  | .hbm, ⟨69, _⟩ => ⟨S1x128x128, .f32⟩
  | .hbm, ⟨70, _⟩ => ⟨S128x128, .f32⟩
  | .hbm, ⟨71, _⟩ => ⟨S100000x64, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S128, .f32⟩
  | .local _ .vmem, ⟨10, _⟩ => ⟨S128, .f32⟩
  | .local _ .vmem, ⟨11, _⟩ => ⟨S1, .f32⟩
  | .local _ .vmem, ⟨12, _⟩ => ⟨S1, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S128x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S128, .f32⟩
  | .local _ .vmem, ⟨25, _⟩ => ⟨S128, .f32⟩
  | .local _ .vmem, ⟨26, _⟩ => ⟨S1, .f32⟩
  | .local _ .vmem, ⟨27, _⟩ => ⟨S1, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S128x128, .f32⟩
  | .local _ .vmem, ⟨33, _⟩ => ⟨S1, .f32⟩
  | .local _ .vmem, ⟨34, _⟩ => ⟨S128x64, .f32⟩
  | .local _ .vmem, ⟨35, _⟩ => ⟨S64, .f32⟩
  | .local _ .vmem, ⟨36, _⟩ => ⟨S2000x64, .f32⟩
  | .local _ .vmem, ⟨37, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_1 : Ref sig .tc := ⟨.hbm, 34, rfl⟩
abbrev main_v20 : Ref sig .tc := ⟨.hbm, 35, rfl⟩
abbrev main_v21 : Ref sig .tc := ⟨.hbm, 36, rfl⟩
abbrev main_c_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_4 : Ref sig .tc := ⟨.hbm, 54, rfl⟩
abbrev main_v37 : Ref sig .tc := ⟨.hbm, 55, rfl⟩
abbrev main_v38 : Ref sig .tc := ⟨.hbm, 56, rfl⟩
abbrev main_c_5 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_6 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg6_0 : Ref sig .tc := ⟨.vmem, 28, rfl⟩
abbrev cc3_stg6_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg4_0 : Ref sig .tc := ⟨.vmem, 35, rfl⟩
abbrev cc4_stg5_0 : Ref sig .tc := ⟨.vmem, 36, rfl⟩
abbrev cc4_stg5_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem5_0 : DmaSem sig := 27
abbrev cc3_sem6_0 : DmaSem sig := 28
abbrev cc3_sem6_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem4_0 : DmaSem sig := 35
abbrev cc4_sem5_0 : DmaSem sig := 36
abbrev cc4_sem5_1 : DmaSem sig := 37

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S256x1_S128x1_0_0 : S256x1.Slices ![0, 0] S128x1
  shapeCasts_S128x1_S128 : S128x1.ShapeCasts S128
  slices_S256x1_S128x1_128_0 : S256x1.Slices ![128, 0] S128x1
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S2000x128 : S1x128.Broadcasts S2000x128
  reduces_S2000x128_S2000 : S2000x128.Reduces [1] S2000
  shapeCasts_S2000_S2000x1 : S2000.ShapeCasts S2000x1
  inb_S1_S1_0 : ∀ a, (![0] : Fin 1 → Nat) a + S1.size a ≤ S1.size a
  h_S1 : 0 < S1.numel
  shapeCasts_S1_S1x1 : S1.ShapeCasts S1x1
  broadcasts_S1x1_S2000x1 : S1x1.Broadcasts S2000x1
  broadcasts_S2000x1_S2000x128 : S2000x1.Broadcasts S2000x128
  broadcasts_S1x1_S2000x128 : S1x1.Broadcasts S2000x128
  slices_S2x128x128_S1x128x128_0_0_0 : S2x128x128.Slices ![0, 0, 0] S1x128x128
  shapeCasts_S1x128x128_S128x128 : S1x128x128.ShapeCasts S128x128
  shapeCasts_S128x128_S128x128 : S128x128.ShapeCasts S128x128
  slices_S2x128x128_S1x128x128_1_0_0 : S2x128x128.Slices ![1, 0, 0] S1x128x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  reduces_S2000x64_S2000 : S2000x64.Reduces [1] S2000
  broadcasts_S2000x1_S2000x64 : S2000x1.Broadcasts S2000x64
  inb_S2000x64_S2000x64_0_0 : ∀ a, (![0, 0] : Fin 2 → Nat) a + S2000x64.size a ≤ S2000x64.size a
  h_S2000x64 : 0 < S2000x64.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1.size a ≤ S1.size a
  hwx1_4 : ∀ i : grid1.Coords, EltTy.bits .f32 = 32 ∨ (Rect.block (s := S1) S1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1.size a ≤ S1.size a
  hwx1_5 : ∀ i : grid1.Coords, EltTy.bits .f32 = 32 ∨ (Rect.block (s := S1) S1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S100000x128.size a
  hwx1_6 : ∀ i : grid1.Coords, EltTy.bits .f32 = 32 ∨ (Rect.block (s := S100000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S100000x128.size a
  hwx3_1 : ∀ i : grid3.Coords, EltTy.bits .f32 = 32 ∨ (Rect.block (s := S100000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1.size a ≤ S1.size a
  hwx3_4 : ∀ i : grid3.Coords, EltTy.bits .f32 = 32 ∨ (Rect.block (s := S1) S1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1.size a ≤ S1.size a
  hwx3_5 : ∀ i : grid3.Coords, EltTy.bits .f32 = 32 ∨ (Rect.block (s := S1) S1.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x128.size a ≤ S100000x128.size a
  hwx3_6 : ∀ i : grid3.Coords, EltTy.bits .f32 = 32 ∨ (Rect.block (s := S100000x128) S2000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1.size a ≤ S1.size a
  hwx4_2 : ∀ i : grid4.Coords, EltTy.bits .f32 = 32 ∨ (Rect.block (s := S1) S1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x64.size a ≤ S128x64.size a
  hwx4_3 : ∀ i : grid4.Coords, EltTy.bits .f32 = 32 ∨ (Rect.block (s := S128x64) S128x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64.size a ≤ S64.size a
  hwx4_4 : ∀ i : grid4.Coords, EltTy.bits .f32 = 32 ∨ (Rect.block (s := S64) S64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x64.size a ≤ S100000x64.size a
  hwx4_5 : ∀ i : grid4.Coords, EltTy.bits .f32 = 32 ∨ (Rect.block (s := S100000x64) S2000x64.size (cc4_transform_5 i) (hinb4_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_v16) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v18) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v31) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v34) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v34) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v17) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v1) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v3) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg7) S1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg10) S1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v35) S2000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v48) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v50) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg10) S1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg8) S128x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg9) S64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v51) S2000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S2x128x128 : Shape := ⟨3, ![2, 128, 128]⟩
abbrev S256x1 : Shape := ⟨2, ![256, 1]⟩
abbrev S1 : Shape := ⟨1, ![1]⟩
abbrev S128x64 : Shape := ⟨2, ![128, 64]⟩
abbrev S64 : Shape := ⟨1, ![64]⟩
abbrev S1600000x1 : Shape := ⟨2, ![1600000, 1]⟩
abbrev S_ : Shape := ⟨0, ![]⟩
abbrev S1600000x128 : Shape := ⟨2, ![1600000, 128]⟩
abbrev S100000x256 : Shape := ⟨2, ![100000, 256]⟩
abbrev S100000x1 : Shape := ⟨2, ![100000, 1]⟩
abbrev S1x1 : Shape := ⟨2, ![1, 1]⟩
abbrev S1x128x128 : Shape := ⟨3, ![1, 128, 128]⟩
abbrev S100000x64 : Shape := ⟨2, ![100000, 64]⟩
abbrev S1x64 : Shape := ⟨2, ![1, 64]⟩
abbrev S100000 : Shape := ⟨1, ![100000]⟩

abbrev nBuf : Space → Nat
  | .hbm => 148
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S1600000, .f32⟩
  | 4 => ⟨S128x128, .f32⟩
  | 5 => ⟨S2x128x128, .f32⟩
  | 6 => ⟨S256x1, .f32⟩
  | 7 => ⟨S1, .f32⟩
  | 8 => ⟨S128x64, .f32⟩
  | 9 => ⟨S64, .f32⟩
  | 10 => ⟨S1, .f32⟩
  | 11 => ⟨S1600000x1, .f32⟩
  | 12 => ⟨S_, .i32⟩
  | 13 => ⟨S1600000, .i32⟩
  | 14 => ⟨S1600000, .i1⟩
  | 15 => ⟨S_, .i32⟩
  | 16 => ⟨S1600000, .i32⟩
  | 17 => ⟨S1600000, .i32⟩
  | 18 => ⟨S1600000, .i32⟩
  | 19 => ⟨S1600000x1, .i32⟩
  | 20 => ⟨S1600000x128, .f32⟩
  | 21 => ⟨S1600000x128, .f32⟩
  | 22 => ⟨S1600000x128, .f32⟩
  | 23 => ⟨S_, .f32⟩
  | 24 => ⟨S100000x128, .f32⟩
  | 25 => ⟨S1600000x1, .i32⟩
  | 26 => ⟨S100000x128, .f32⟩
  | 27 => ⟨S100000x128, .f32⟩
  | 28 => ⟨S100000x256, .f32⟩
  | 29 => ⟨S100000x1, .f32⟩
  | 30 => ⟨S1x1, .f32⟩
  | 31 => ⟨S100000x1, .f32⟩
  | 32 => ⟨S100000x1, .f32⟩
  | 33 => ⟨S100000x1, .f32⟩
  | 34 => ⟨S100000x1, .f32⟩
  | 35 => ⟨S_, .f32⟩
  | 36 => ⟨S100000x1, .f32⟩
  | 37 => ⟨S100000x1, .f32⟩
  | 38 => ⟨S_, .f32⟩
  | 39 => ⟨S100000x1, .f32⟩
  | 40 => ⟨S100000x1, .f32⟩
  | 41 => ⟨S_, .f32⟩
  | 42 => ⟨S100000x1, .f32⟩
  | 43 => ⟨S100000x1, .f32⟩
  | 44 => ⟨S100000x128, .f32⟩
  | 45 => ⟨S100000x128, .f32⟩
  | 46 => ⟨S100000x128, .f32⟩
  | 47 => ⟨S100000x128, .f32⟩
  | 48 => ⟨S100000x128, .f32⟩
  | 49 => ⟨S_, .f32⟩
  | 50 => ⟨S100000x128, .f32⟩
  | 51 => ⟨S100000x128, .i1⟩
  | 52 => ⟨S1x1, .f32⟩
  | 53 => ⟨S100000x128, .f32⟩
  | 54 => ⟨S100000x128, .f32⟩
  | 55 => ⟨S100000x128, .f32⟩
  | 56 => ⟨S1600000x1, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000x128, .f32⟩
  | 66 => ⟨S1600000x128, .f32⟩
  | 67 => ⟨S1600000x128, .f32⟩
  | 68 => ⟨S_, .f32⟩
  | 69 => ⟨S100000x128, .f32⟩
  | 70 => ⟨S1600000x1, .i32⟩
  | 71 => ⟨S100000x128, .f32⟩
  | 72 => ⟨S1x128x128, .f32⟩
  | 73 => ⟨S128x128, .f32⟩
  | 74 => ⟨S100000x128, .f32⟩
  | 75 => ⟨S100000x256, .f32⟩
  | 76 => ⟨S100000x1, .f32⟩
  | 77 => ⟨S1x1, .f32⟩
  | 78 => ⟨S100000x1, .f32⟩
  | 79 => ⟨S100000x1, .f32⟩
  | 80 => ⟨S100000x1, .f32⟩
  | 81 => ⟨S100000x1, .f32⟩
  | 82 => ⟨S_, .f32⟩
  | 83 => ⟨S100000x1, .f32⟩
  | 84 => ⟨S100000x1, .f32⟩
  | 85 => ⟨S_, .f32⟩
  | 86 => ⟨S100000x1, .f32⟩
  | 87 => ⟨S100000x1, .f32⟩
  | 88 => ⟨S_, .f32⟩
  | 89 => ⟨S100000x1, .f32⟩
  | 90 => ⟨S100000x1, .f32⟩
  | 91 => ⟨S100000x128, .f32⟩
  | 92 => ⟨S100000x128, .f32⟩
  | 93 => ⟨S100000x128, .f32⟩
  | 94 => ⟨S100000x128, .f32⟩
  | 95 => ⟨S100000x128, .f32⟩
  | 96 => ⟨S_, .f32⟩
  | 97 => ⟨S100000x128, .f32⟩
  | 98 => ⟨S100000x128, .i1⟩
  | 99 => ⟨S1x1, .f32⟩
  | 100 => ⟨S100000x128, .f32⟩
  | 101 => ⟨S100000x128, .f32⟩
  | 102 => ⟨S100000x128, .f32⟩
  | 103 => ⟨S1600000x1, .f32⟩
  | 104 => ⟨S_, .i32⟩
  | 105 => ⟨S1600000, .i32⟩
  | 106 => ⟨S1600000, .i1⟩
  | 107 => ⟨S_, .i32⟩
  | 108 => ⟨S1600000, .i32⟩
  | 109 => ⟨S1600000, .i32⟩
  | 110 => ⟨S1600000, .i32⟩
  | 111 => ⟨S1600000x1, .i32⟩
  | 112 => ⟨S1600000x128, .f32⟩
  | 113 => ⟨S1600000x128, .f32⟩
  | 114 => ⟨S1600000x128, .f32⟩
  | 115 => ⟨S_, .f32⟩
  | 116 => ⟨S100000x128, .f32⟩
  | 117 => ⟨S1600000x1, .i32⟩
  | 118 => ⟨S100000x128, .f32⟩
  | 119 => ⟨S1x128x128, .f32⟩
  | 120 => ⟨S128x128, .f32⟩
  | 121 => ⟨S100000x128, .f32⟩
  | 122 => ⟨S_, .f32⟩
  | 123 => ⟨S100000x128, .f32⟩
  | 124 => ⟨S100000x128, .i1⟩
  | 125 => ⟨S1x1, .f32⟩
  | 126 => ⟨S100000x128, .f32⟩
  | 127 => ⟨S100000x128, .f32⟩
  | _ => ⟨S100000x128, .f32⟩

abbrev hbmTy0_1 (i : Nat) : BufTy := match i % 128 with
  | 0 => ⟨S100000x128, .f32⟩
  | 1 => ⟨S100000x64, .f32⟩
  | 2 => ⟨S1x64, .f32⟩
  | 3 => ⟨S100000x64, .f32⟩
  | 4 => ⟨S100000x64, .f32⟩
  | 5 => ⟨S_, .f32⟩
  | 6 => ⟨S100000, .f32⟩
  | 7 => ⟨S_, .f32⟩
  | 8 => ⟨S100000, .f32⟩
  | 9 => ⟨S100000, .f32⟩
  | 10 => ⟨S100000x1, .f32⟩
  | 11 => ⟨S100000x64, .f32⟩
  | 12 => ⟨S100000x64, .f32⟩
  | 13 => ⟨S100000x64, .f32⟩
  | 14 => ⟨S_, .f32⟩
  | 15 => ⟨S100000, .f32⟩
  | 16 => ⟨S100000x1, .f32⟩
  | 17 => ⟨S100000x1, .f32⟩
  | 18 => ⟨S100000x64, .f32⟩
  | 19 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_1 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_4 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c_5 : Ref sig .tc := ⟨.hbm, 57, rfl⟩
abbrev main_v39 : Ref sig .tc := ⟨.hbm, 58, rfl⟩
abbrev main_v40 : Ref sig .tc := ⟨.hbm, 59, rfl⟩
abbrev main_c_6 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_7 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_8 : Ref sig .tc := ⟨.hbm, 82, rfl⟩
abbrev main_v61 : Ref sig .tc := ⟨.hbm, 83, rfl⟩
abbrev main_v62 : Ref sig .tc := ⟨.hbm, 84, rfl⟩
abbrev main_cst_9 : Ref sig .tc := ⟨.hbm, 85, rfl⟩
abbrev main_v63 : Ref sig .tc := ⟨.hbm, 86, rfl⟩
abbrev main_v64 : Ref sig .tc := ⟨.hbm, 87, rfl⟩
abbrev main_cst_10 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_11 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_c_12 : Ref sig .tc := ⟨.hbm, 104, rfl⟩
abbrev main_v79 : Ref sig .tc := ⟨.hbm, 105, rfl⟩
abbrev main_v80 : Ref sig .tc := ⟨.hbm, 106, rfl⟩
abbrev main_c_13 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_cst_14 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_cst_15 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_call3_cst : Ref sig .tc := ⟨.hbm, 133, rfl⟩
abbrev main_call3_v0 : Ref sig .tc := ⟨.hbm, 134, rfl⟩
abbrev main_call3_cst_0 : Ref sig .tc := ⟨.hbm, 135, rfl⟩
abbrev main_call3_v1 : Ref sig .tc := ⟨.hbm, 136, rfl⟩
abbrev main_call3_v2 : Ref sig .tc := ⟨.hbm, 137, rfl⟩
abbrev main_call3_v3 : Ref sig .tc := ⟨.hbm, 138, rfl⟩
abbrev main_call3_v4 : Ref sig .tc := ⟨.hbm, 139, rfl⟩
abbrev main_call3_v5 : Ref sig .tc := ⟨.hbm, 140, rfl⟩
abbrev main_call3_v6 : Ref sig .tc := ⟨.hbm, 141, rfl⟩
abbrev main_call3_cst_1 : Ref sig .tc := ⟨.hbm, 142, rfl⟩
abbrev main_call3_v7 : Ref sig .tc := ⟨.hbm, 143, rfl⟩
abbrev main_call3_v8 : Ref sig .tc := ⟨.hbm, 144, rfl⟩
abbrev main_call3_v9 : Ref sig .tc := ⟨.hbm, 145, rfl⟩
abbrev main_call3_v10 : Ref sig .tc := ⟨.hbm, 146, rfl⟩
abbrev main_v104 : Ref sig .tc := ⟨.hbm, 147, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  concatenates_S100000x128_S100000x128_S100000x256_d1 : Shape.Concatenates [S100000x128, S100000x128] S100000x256 1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S1x1_S100000x128_0_1 : S1x1.BroadcastsInDim S100000x128 (![0, 1] : Fin 2 → Fin S100000x128.rank)
  slices_S2x128x128_S1x128x128_0_0_0 : S2x128x128.Slices ![0, 0, 0] S1x128x128
  shapeCasts_S1x128x128_S128x128 : S1x128x128.ShapeCasts S128x128
  slices_S2x128x128_S1x128x128_1_0_0 : S2x128x128.Slices ![1, 0, 0] S1x128x128
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x256_S256x1_S100000x1_1_0_0_1_n_n_wf : DotDims.WF S100000x256 S256x1 S100000x1 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x256_S256x1_S100000x1_1_0_0_1_n_n : DotDims S100000x256 S256x1 S100000x1 where
  lhsContracting := [1]
  rhsContracting := [0]
  lhsNonContracting := [0]
  rhsNonContracting := [1]
  lhsBatch := []
  rhsBatch := []
  wf := dot_S100000x256_S256x1_S100000x1_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KI.R0.lean ====
/- The body obligation of region 0 of the program, at any float instance: each window's block at a point read off the
   array as the region finds it; the body's one store as a piece over the whole output block; the body's triple; the
   proof data of the pipeline over the invariant of a body that stages nothing itself; the obligation at every point. -/
import proofs.«133321_j75213467287803_1_alg».proof.Proof.Gen.KernelIdeal.Launch
import proofs.«133321_j75213467287803_1_alg».proof.Proof.Gen.KernelIdeal.Skeleton
import proofs.«133321_j75213467287803_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural recursion goes once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section Regions
-- the core's buffer contents when the region is entered: the parameter the region's half is stated at
variable (V : (c : Dev nD) → (b : Ref sig .tc) → Buf (Elt F) ((c : Thread nD τ).loc b))

/-! # REGION 0: the matrix product of a row block with the whole weight -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: the window is uncut and never idle. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 (the weight, whole, its index constant): the same, though it is fetched at the first point only. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S2000x128 := Rect.unit (s := S2000x128) ![0, 0] S2000x128.size inb_S2000x128_S2000x128_0_0
abbrev r0_1 : Rect S128x128 := Rect.unit (s := S128x128) ![0, 0] S128x128.size inb_S128x128_S128x128_0_0
abbrev r0_2 : Rect S2000x128 := Rect.unit (s := S2000x128) ![0, 0] S2000x128.size inb_S2000x128_S2000x128_0_0

/-! ## What the body leaves in the output window's buffer -/

/-- Window 2's staging buffer after the body, from the input windows' blocks: its one store as a piece. -/
def out0_2 (x0 : Vec F S2000x128 .f32) (x1 : Vec F S128x128 .f32) : Vec F S2000x128 .f32 :=
  View.canon [⟨r0_2, k0_pay1 (View.ld x0 r0_0) (View.ld x1 r0_1)⟩]

/-- The store tiles the buffer, so it covers it. -/
theorem cover0_2 (p0 : Vec F S2000x128 .f32) (y : S2000x128.Idx) :
    ∃ pc ∈ ([⟨r0_2, p0⟩] : List (View.Piece (Elt F) S2000x128 .f32)), y ∈ pc.1.set :=
  View.cover_of_tiled [⟨r0_2, p0⟩] S2000x128.size (by rfl) y

/-! ## The body's triple -/

set_option maxHeartbeats 1000000 in
/-- The kernel body on whole staging memrefs, the inputs' at read contents and the output's at anything, runs to
    the continuation holding the inputs' as they were and the output's at `out0_2` of the inputs'. -/
theorem sound_kernel0 (c : Dev nD) (E : Set ℕ) (i : grid0.Coords) (arg1 : Memref sig .tc .vmem S2000x128 .f32) (harg1 : arg1.IsWhole) (arg2 : Memref sig .tc .vmem S128x128 .f32) (harg2 : arg2.IsWhole) (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the pipeline on core `c`: the arrays as the region finds them; after the body at point `t`
    each input's buffer at its block and the output's at `out0_2` of the input blocks; the invariant of a body
    that stages nothing itself; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's owed waits pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Hand

end
-- ==== Proof.KI.R1.lean ====
/- The body obligation of region 1: at every point of the grid, the gate kernel on the windows' current staging
   buffers — each input's at its block of the region-entry contents, the output's at anything — runs to the same
   buffers with the output's at the one whole-block store's payload of the input blocks. Generic in the float
   instance. -/
import proofs.«133321_j75213467287803_1_alg».proof.Proof.Gen.KernelIdeal.Launch
import proofs.«133321_j75213467287803_1_alg».proof.Proof.Gen.KernelIdeal.Skeleton
import proofs.«133321_j75213467287803_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the index has not moved; the window is
    uncut and never idle. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof
    data whose array is `V`'s and whose body leaves the block in place: unfetched, the index has not moved; the window is
    uncut and never idle. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof
    data whose array is `V`'s and whose body leaves the block in place: unfetched, the index has not moved; the window is
    uncut and never idle. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for any proof
    data whose array is `V`'s and whose body leaves the block in place: unfetched, the index has not moved; the window is
    uncut and never idle. -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for any proof
    data whose array is `V`'s and whose body leaves the block in place: unfetched, the index has not moved; the window is
    uncut and never idle. -/
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for any proof
    data whose array is `V`'s and whose body leaves the block in place: unfetched, the index has not moved; the window is
    uncut and never idle. -/
theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: the whole-block rectangles -/

abbrev r1_0 : Rect S2000x128 := Rect.unit (s := S2000x128) ![0, 0] S2000x128.size inb_S2000x128_S2000x128_0_0
abbrev r1_2 : Rect S128 := Rect.unit (s := S128) ![0] S128.size inb_S128_S128_0
abbrev r1_4 : Rect S1 := Rect.unit (s := S1) ![0] S1.size inb_S1_S1_0

/-! ## What the body leaves in the output window's buffer -/

/-- Window 6's staging buffer after the body, from the input windows' blocks: its one store as a piece. -/
def out1_6 (x0 : Vec F S2000x128 .f32) (x1 : Vec F S2000x128 .f32) (x2 : Vec F S128 .f32) (x3 : Vec F S128 .f32) (x4 : Vec F S1 .f32) (x5 : Vec F S1 .f32) : Vec F S2000x128 .f32 :=
  View.canon [⟨r1_0, k1_pay1 (View.ld x0 r1_0) (View.ld x1 r1_0) (View.ld x2 r1_2) (View.ld x3 r1_2) (View.ld x4 r1_4) (View.ld x5 r1_4)⟩]

/-- The one store is the whole block, so it covers it. -/
theorem cover1_6 (p0 : Vec F S2000x128 .f32) (y : S2000x128.Idx) :
    ∃ pc ∈ ([⟨r1_0, p0⟩] : List (View.Piece (Elt F) S2000x128 .f32)), y ∈ pc.1.set :=
  View.cover_of_tiled [⟨r1_0, p0⟩] S2000x128.size (by rfl) y

/-! ## The body's triple -/

set_option maxHeartbeats 1000000 in
/-- The kernel body on whole staging memrefs, the inputs' at read contents `xW` and the output's at anything, runs to
    the continuation holding the inputs' as they were and the output's at `out1_6` of the inputs'. -/
theorem sound_kernel1 (c : Dev nD) (E : Set ℕ) (i : grid1.Coords) (arg1 : Memref sig .tc .vmem S2000x128 .f32) (harg1 : arg1.IsWhole) (arg2 : Memref sig .tc .vmem S2000x128 .f32) (harg2 : arg2.IsWhole) (arg3 : Memref sig .tc .vmem S128 .f32) (harg3 : arg3.IsWhole) (arg4 : Memref sig .tc .vmem S128 .f32) (harg4 : arg4.IsWhole) (arg5 : Memref sig .tc .vmem S1 .f32) (harg5 : arg5.IsWhole) (arg6 : Memref sig .tc .vmem S1 .f32) (harg6 : arg6.IsWhole) (arg7 : Memref sig .tc .vmem S2000x128 .f32) (harg7 : arg7.IsWhole)
    (x0 : Vec F S2000x128 .f32) (x1 : Vec F S2000x128 .f32) (x2 : Vec F S128 .f32) (x3 : Vec F S128 .f32) (x4 : Vec F S1 .f32) (x5 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__gate_kernel i arg1 harg1 arg2 harg2 arg3 harg3 arg4 harg4 arg5 harg5 arg6 harg6 arg7 harg7) K := by
  simp only [cc1__gate_kernel_eq_skeleton]; unfold cc1__gate_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of pipeline 1 on core `c`: the arrays as the region finds them (`V`); after the body at
    point `t` each input's buffer at its block and the output's at `out1_6` of the input blocks; the invariant the
    scoped rest and the generator register, untouched; nothing owed; the inputs' shares a parameter (two input
    windows may read one array). -/
def dat1 (q : Fin cfg1.W → PosShare TreeShare) (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q := q
  owed _ := 0

/-- The proof data's arrays are the region-entry contents. -/
theorem A_eq1 (q : Fin cfg1.W → PosShare TreeShare) (c : Dev nD) (w : Fin cfg1.W) : (dat1 V q c).A w = V c (Pipeline.arrRef spec1 w) := by
  dsimp only [dat1]

/-- What the body leaves, window by window. -/
theorem after1_0 (q : Fin cfg1.W → PosShare TreeShare) (c : Dev nD) (t : Fin cfg1.N) : (dat1 V q c).after 0 t = iblk1 V c 0 t := by dsimp only [dat1]
theorem after1_1 (q : Fin cfg1.W → PosShare TreeShare) (c : Dev nD) (t : Fin cfg1.N) : (dat1 V q c).after 1 t = iblk1 V c 1 t := by dsimp only [dat1]
theorem after1_2 (q : Fin cfg1.W → PosShare TreeShare) (c : Dev nD) (t : Fin cfg1.N) : (dat1 V q c).after 2 t = iblk1 V c 2 t := by dsimp only [dat1]
theorem after1_3 (q : Fin cfg1.W → PosShare TreeShare) (c : Dev nD) (t : Fin cfg1.N) : (dat1 V q c).after 3 t = iblk1 V c 3 t := by dsimp only [dat1]
theorem after1_4 (q : Fin cfg1.W → PosShare TreeShare) (c : Dev nD) (t : Fin cfg1.N) : (dat1 V q c).after 4 t = iblk1 V c 4 t := by dsimp only [dat1]
theorem after1_5 (q : Fin cfg1.W → PosShare TreeShare) (c : Dev nD) (t : Fin cfg1.N) : (dat1 V q c).after 5 t = iblk1 V c 5 t := by dsimp only [dat1]
theorem after1_6 (q : Fin cfg1.W → PosShare TreeShare) (c : Dev nD) (t : Fin cfg1.N) : (dat1 V q c).after 6 t = out1_6 (iblk1 V c 0 t) (iblk1 V c 1 t) (iblk1 V c 2 t) (iblk1 V c 3 t) (iblk1 V c 4 t) (iblk1 V c 5 t) := by dsimp only [dat1]

/-- Each input's current staging buffer holds its block at every point, fetched there or not. -/
theorem before1_0 (q : Fin cfg1.W → PosShare TreeShare) (c : Dev nD) (t : Fin cfg1.N) (d) : (dat1 V q c).before 0 t d = iblk1 V c 0 t :=
  before1_0_of V (dat1 V q c) (A_eq1 V q c 0) (after1_0 V q c) t d
theorem before1_1 (q : Fin cfg1.W → PosShare TreeShare) (c : Dev nD) (t : Fin cfg1.N) (d) : (dat1 V q c).before 1 t d = iblk1 V c 1 t :=
  before1_1_of V (dat1 V q c) (A_eq1 V q c 1) (after1_1 V q c) t d
theorem before1_2 (q : Fin cfg1.W → PosShare TreeShare) (c : Dev nD) (t : Fin cfg1.N) (d) : (dat1 V q c).before 2 t d = iblk1 V c 2 t :=
  before1_2_of V (dat1 V q c) (A_eq1 V q c 2) (after1_2 V q c) t d
theorem before1_3 (q : Fin cfg1.W → PosShare TreeShare) (c : Dev nD) (t : Fin cfg1.N) (d) : (dat1 V q c).before 3 t d = iblk1 V c 3 t :=
  before1_3_of V (dat1 V q c) (A_eq1 V q c 3) (after1_3 V q c) t d
theorem before1_4 (q : Fin cfg1.W → PosShare TreeShare) (c : Dev nD) (t : Fin cfg1.N) (d) : (dat1 V q c).before 4 t d = iblk1 V c 4 t :=
  before1_4_of V (dat1 V q c) (A_eq1 V q c 4) (after1_4 V q c) t d
theorem before1_5 (q : Fin cfg1.W → PosShare TreeShare) (c : Dev nD) (t : Fin cfg1.N) (d) : (dat1 V q c).before 5 t d = iblk1 V c 5 t :=
  before1_5_of V (dat1 V q c) (A_eq1 V q c 5) (after1_5 V q c) t d

/-! ## The body obligation, at a generic point -/

/-- What the body is called with at point `t`, the windows one by one, -/
def bodyPre1 (q : Fin cfg1.W → PosShare TreeShare) (c : Dev nD) (t : Fin cfg1.N) : sProp 𝕄 :=
  iprop((dat1 V q c).Φ t.castSucc ∗ (dat1 V q c).owesAt () t.castSucc
    ∗ (∃ d, owns (c : Thread nD τ) (st1_0 t) fullShare ((dat1 V q c).before 0 t d))
    ∗ (∃ d, owns (c : Thread nD τ) (st1_1 t) fullShare ((dat1 V q c).before 1 t d))
    ∗ (∃ d, owns (c : Thread nD τ) (st1_2 t) fullShare ((dat1 V q c).before 2 t d))
    ∗ (∃ d, owns (c : Thread nD τ) (st1_3 t) fullShare ((dat1 V q c).before 3 t d))
    ∗ (∃ d, owns (c : Thread nD τ) (st1_4 t) fullShare ((dat1 V q c).before 4 t d))
    ∗ (∃ d, owns (c : Thread nD τ) (st1_5 t) fullShare ((dat1 V q c).before 5 t d))
    ∗ (∃ d, owns (c : Thread nD τ) (st1_6 t) fullShare ((dat1 V q c).before 6 t d)))

/-- and what it returns. -/
def bodyPost1 (q : Fin cfg1.W → PosShare TreeShare) (c : Dev nD) (t : Fin cfg1.N) : sProp 𝕄 :=
  iprop((dat1 V q c).Φ t.succ ∗ (dat1 V q c).owesAt () t.succ
    ∗ owns (c : Thread nD τ) (st1_0 t) fullShare ((dat1 V q c).after 0 t)
    ∗ owns (c : Thread nD τ) (st1_1 t) fullShare ((dat1 V q c).after 1 t)
    ∗ owns (c : Thread nD τ) (st1_2 t) fullShare ((dat1 V q c).after 2 t)
    ∗ owns (c : Thread nD τ) (st1_3 t) fullShare ((dat1 V q c).after 3 t)
    ∗ owns (c : Thread nD τ) (st1_4 t) fullShare ((dat1 V q c).after 4 t)
    ∗ owns (c : Thread nD τ) (st1_5 t) fullShare ((dat1 V q c).after 5 t)
    ∗ owns (c : Thread nD τ) (st1_6 t) fullShare ((dat1 V q c).after 6 t))

/-- The body at any point: the inputs' memrefs hold their blocks, so the kernel's triple applies; the invariant and
    the core's `owes` pass through unread. -/
theorem sound_body1 (q : Fin cfg1.W → PosShare TreeShare) (c : Dev nD) (t : Fin cfg1.N) :
    bodyPre1 V q c t ⊢ wp frame (wpE (defs₀ (F := F)) Variants.none c none) Set.univ (bodyAt1 t) (fun _ => bodyPost1 V q c t) := by
  unfold bodyPre1 bodyPost1 bodyAt1
  simp only [before1_0, before1_1, before1_2, before1_3, before1_4, before1_5]
  rw [show (dat1 V q c).Φ t.succ = (dat1 V q c).Φ t.castSucc from rfl,
    show (dat1 V q c).owesAt () t.succ = (dat1 V q c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (q : Fin cfg1.W → PosShare TreeShare) (c : Dev nD) : BodyObligation (dat1 (F := F) V q c) (defs₀ (F := F)) Variants.none () Set.univ := fun t => by
  rw [bigSep_W1, bigSep_W1]
  exact sound_body1 V q c t

end Regions

end Cert.KernelIdeal.Hand

end
-- ==== Proof.KI.R2.lean ====
/- The body obligation of region 2 of the program, at any float instance: each window's block at a point read off the
   array as the region finds it; the body's one store as a piece over the whole output block; the body's triple; the
   proof data of the pipeline over the invariant of a body that stages nothing itself; the obligation at every point. -/
import proofs.«133321_j75213467287803_1_alg».proof.Proof.Gen.KernelIdeal.Launch
import proofs.«133321_j75213467287803_1_alg».proof.Proof.Gen.KernelIdeal.Skeleton
import proofs.«133321_j75213467287803_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural recursion goes once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section Regions
-- the core's buffer contents when the region is entered: the parameter the region's half is stated at
variable (V : (c : Dev nD) → (b : Ref sig .tc) → Buf (Elt F) ((c : Thread nD τ).loc b))

/-! # REGION 2: the matrix product of a row block with the whole weight -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place: the window is uncut and never idle. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1 (the weight, whole, its index constant): the same, though it is fetched at the first point only. -/
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S2000x128 := Rect.unit (s := S2000x128) ![0, 0] S2000x128.size inb_S2000x128_S2000x128_0_0
abbrev r2_1 : Rect S128x128 := Rect.unit (s := S128x128) ![0, 0] S128x128.size inb_S128x128_S128x128_0_0
abbrev r2_2 : Rect S2000x128 := Rect.unit (s := S2000x128) ![0, 0] S2000x128.size inb_S2000x128_S2000x128_0_0

/-! ## What the body leaves in the output window's buffer -/

/-- Window 2's staging buffer after the body, from the input windows' blocks: its one store as a piece. -/
def out2_2 (x0 : Vec F S2000x128 .f32) (x1 : Vec F S128x128 .f32) : Vec F S2000x128 .f32 :=
  View.canon [⟨r2_2, k2_pay1 (View.ld x0 r2_0) (View.ld x1 r2_1)⟩]

/-- The store tiles the buffer, so it covers it. -/
theorem cover2_2 (p0 : Vec F S2000x128 .f32) (y : S2000x128.Idx) :
    ∃ pc ∈ ([⟨r2_2, p0⟩] : List (View.Piece (Elt F) S2000x128 .f32)), y ∈ pc.1.set :=
  View.cover_of_tiled [⟨r2_2, p0⟩] S2000x128.size (by rfl) y

/-! ## The body's triple -/

set_option maxHeartbeats 1000000 in
/-- The kernel body on whole staging memrefs, the inputs' at read contents and the output's at anything, runs to
    the continuation holding the inputs' as they were and the output's at `out2_2` of the inputs'. -/
theorem sound_kernel2 (c : Dev nD) (E : Set ℕ) (i : grid2.Coords) (arg1 : Memref sig .tc .vmem S2000x128 .f32) (harg1 : arg1.IsWhole) (arg2 : Memref sig .tc .vmem S128x128 .f32) (harg2 : arg2.IsWhole) (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of the pipeline on core `c`: the arrays as the region finds them; after the body at point `t`
    each input's buffer at its block and the output's at `out2_2` of the input blocks; the invariant of a body
    that stages nothing itself; nothing owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and
    the core's owed waits pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Regions

end Cert.KernelIdeal.Hand

end
-- ==== Proof.KI.R3.lean ====
/- The body obligation of region 3: at every point of the grid, the gate kernel on the windows' current staging
   buffers — each input's at its block of the region-entry contents, the output's at anything — runs to the same
   buffers with the output's at the one whole-block store's payload of the input blocks. Generic in the float
   instance. -/
import proofs.«133321_j75213467287803_1_alg».proof.Proof.Gen.KernelIdeal.Launch
import proofs.«133321_j75213467287803_1_alg».proof.Proof.Gen.KernelIdeal.Skeleton
import proofs.«133321_j75213467287803_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s and whose body leaves the block in place: unfetched, the index has not moved; the window is
    uncut and never idle. -/
theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for any proof
    data whose array is `V`'s and whose body leaves the block in place: unfetched, the index has not moved; the window is
    uncut and never idle. -/
theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for any proof
    data whose array is `V`'s and whose body leaves the block in place: unfetched, the index has not moved; the window is
    uncut and never idle. -/
theorem before3_2_of {c : Dev nD} (dat : Dat τ (Elt F) Unit ℕ (Pipeline.UD sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not, for any proof
    data whose array is `V`'s and whose body leaves the block in place: unfetched, the index has not moved; the window is
    uncut and never idle. -/
theorem before3_3_of {c : Dev nD} (dat : Dat τ (Elt F) Unit ℕ (Pipeline.UD sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not, for any proof
    data whose array is `V`'s and whose body leaves the block in place: unfetched, the index has not moved; the window is
    uncut and never idle. -/
theorem before3_4_of {c : Dev nD} (dat : Dat τ (Elt F) Unit ℕ (Pipeline.UD sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- Input window 5's current staging buffer holds its block at every point, fetched there or not, for any proof
    data whose array is `V`'s and whose body leaves the block in place: unfetched, the index has not moved; the window is
    uncut and never idle. -/
theorem before3_5_of {c : Dev nD} (dat : Dat τ (Elt F) Unit ℕ (Pipeline.UD sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: the whole-block rectangles -/

abbrev r3_0 : Rect S2000x128 := Rect.unit (s := S2000x128) ![0, 0] S2000x128.size inb_S2000x128_S2000x128_0_0
abbrev r3_2 : Rect S128 := Rect.unit (s := S128) ![0] S128.size inb_S128_S128_0
abbrev r3_4 : Rect S1 := Rect.unit (s := S1) ![0] S1.size inb_S1_S1_0

/-! ## What the body leaves in the output window's buffer -/

/-- Window 6's staging buffer after the body, from the input windows' blocks: its one store as a piece. -/
def out3_6 (x0 : Vec F S2000x128 .f32) (x1 : Vec F S2000x128 .f32) (x2 : Vec F S128 .f32) (x3 : Vec F S128 .f32) (x4 : Vec F S1 .f32) (x5 : Vec F S1 .f32) : Vec F S2000x128 .f32 :=
  View.canon [⟨r3_0, k3_pay1 (View.ld x0 r3_0) (View.ld x1 r3_0) (View.ld x2 r3_2) (View.ld x3 r3_2) (View.ld x4 r3_4) (View.ld x5 r3_4)⟩]

/-- The one store is the whole block, so it covers it. -/
theorem cover3_6 (p0 : Vec F S2000x128 .f32) (y : S2000x128.Idx) :
    ∃ pc ∈ ([⟨r3_0, p0⟩] : List (View.Piece (Elt F) S2000x128 .f32)), y ∈ pc.1.set :=
  View.cover_of_tiled [⟨r3_0, p0⟩] S2000x128.size (by rfl) y

/-! ## The body's triple -/

set_option maxHeartbeats 1000000 in
/-- The kernel body on whole staging memrefs, the inputs' at read contents `xW` and the output's at anything, runs to
    the continuation holding the inputs' as they were and the output's at `out3_6` of the inputs'. -/
theorem sound_kernel3 (c : Dev nD) (E : Set ℕ) (i : grid3.Coords) (arg1 : Memref sig .tc .vmem S2000x128 .f32) (harg1 : arg1.IsWhole) (arg2 : Memref sig .tc .vmem S2000x128 .f32) (harg2 : arg2.IsWhole) (arg3 : Memref sig .tc .vmem S128 .f32) (harg3 : arg3.IsWhole) (arg4 : Memref sig .tc .vmem S128 .f32) (harg4 : arg4.IsWhole) (arg5 : Memref sig .tc .vmem S1 .f32) (harg5 : arg5.IsWhole) (arg6 : Memref sig .tc .vmem S1 .f32) (harg6 : arg6.IsWhole) (arg7 : Memref sig .tc .vmem S2000x128 .f32) (harg7 : arg7.IsWhole)
    (x0 : Vec F S2000x128 .f32) (x1 : Vec F S2000x128 .f32) (x2 : Vec F S128 .f32) (x3 : Vec F S128 .f32) (x4 : Vec F S1 .f32) (x5 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out3_6 x0 x1 x2 x3 x4 x5)) -∗ K ⟨⟩))
      ⊢ wp frame (wpE (defs₀ (F := F)) Variants.none c none) E (cc3__gate_kernel i arg1 harg1 arg2 harg2 arg3 harg3 arg4 harg4 arg5 harg5 arg6 harg6 arg7 harg7) K := by
  simp only [cc3__gate_kernel_eq_skeleton]; unfold cc3__gate_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

/-! ## The pipeline's proof data -/

/-- The proof data of pipeline 3 on core `c`: the arrays as the region finds them (`V`); after the body at
    point `t` each input's buffer at its block and the output's at `out3_6` of the input blocks; the invariant the
    scoped rest and the generator register, untouched; nothing owed; the inputs' shares a parameter (two input
    windows may read one array). -/
def dat3 (q : Fin cfg3.W → PosShare TreeShare) (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q := q
  owed _ := 0

/-- The proof data's arrays are the region-entry contents. -/
theorem A_eq3 (q : Fin cfg3.W → PosShare TreeShare) (c : Dev nD) (w : Fin cfg3.W) : (dat3 V q c).A w = V c (Pipeline.arrRef spec3 w) := by
  dsimp only [dat3]

/-- What the body leaves, window by window. -/
theorem after3_0 (q : Fin cfg3.W → PosShare TreeShare) (c : Dev nD) (t : Fin cfg3.N) : (dat3 V q c).after 0 t = iblk3 V c 0 t := by dsimp only [dat3]
theorem after3_1 (q : Fin cfg3.W → PosShare TreeShare) (c : Dev nD) (t : Fin cfg3.N) : (dat3 V q c).after 1 t = iblk3 V c 1 t := by dsimp only [dat3]
theorem after3_2 (q : Fin cfg3.W → PosShare TreeShare) (c : Dev nD) (t : Fin cfg3.N) : (dat3 V q c).after 2 t = iblk3 V c 2 t := by dsimp only [dat3]
theorem after3_3 (q : Fin cfg3.W → PosShare TreeShare) (c : Dev nD) (t : Fin cfg3.N) : (dat3 V q c).after 3 t = iblk3 V c 3 t := by dsimp only [dat3]
theorem after3_4 (q : Fin cfg3.W → PosShare TreeShare) (c : Dev nD) (t : Fin cfg3.N) : (dat3 V q c).after 4 t = iblk3 V c 4 t := by dsimp only [dat3]
theorem after3_5 (q : Fin cfg3.W → PosShare TreeShare) (c : Dev nD) (t : Fin cfg3.N) : (dat3 V q c).after 5 t = iblk3 V c 5 t := by dsimp only [dat3]
theorem after3_6 (q : Fin cfg3.W → PosShare TreeShare) (c : Dev nD) (t : Fin cfg3.N) : (dat3 V q c).after 6 t = out3_6 (iblk3 V c 0 t) (iblk3 V c 1 t) (iblk3 V c 2 t) (iblk3 V c 3 t) (iblk3 V c 4 t) (iblk3 V c 5 t) := by dsimp only [dat3]

/-- Each input's current staging buffer holds its block at every point, fetched there or not. -/
theorem before3_0 (q : Fin cfg3.W → PosShare TreeShare) (c : Dev nD) (t : Fin cfg3.N) (d) : (dat3 V q c).before 0 t d = iblk3 V c 0 t :=
  before3_0_of V (dat3 V q c) (A_eq3 V q c 0) (after3_0 V q c) t d
theorem before3_1 (q : Fin cfg3.W → PosShare TreeShare) (c : Dev nD) (t : Fin cfg3.N) (d) : (dat3 V q c).before 1 t d = iblk3 V c 1 t :=
  before3_1_of V (dat3 V q c) (A_eq3 V q c 1) (after3_1 V q c) t d
theorem before3_2 (q : Fin cfg3.W → PosShare TreeShare) (c : Dev nD) (t : Fin cfg3.N) (d) : (dat3 V q c).before 2 t d = iblk3 V c 2 t :=
  before3_2_of V (dat3 V q c) (A_eq3 V q c 2) (after3_2 V q c) t d
theorem before3_3 (q : Fin cfg3.W → PosShare TreeShare) (c : Dev nD) (t : Fin cfg3.N) (d) : (dat3 V q c).before 3 t d = iblk3 V c 3 t :=
  before3_3_of V (dat3 V q c) (A_eq3 V q c 3) (after3_3 V q c) t d
theorem before3_4 (q : Fin cfg3.W → PosShare TreeShare) (c : Dev nD) (t : Fin cfg3.N) (d) : (dat3 V q c).before 4 t d = iblk3 V c 4 t :=
  before3_4_of V (dat3 V q c) (A_eq3 V q c 4) (after3_4 V q c) t d
theorem before3_5 (q : Fin cfg3.W → PosShare TreeShare) (c : Dev nD) (t : Fin cfg3.N) (d) : (dat3 V q c).before 5 t d = iblk3 V c 5 t :=
  before3_5_of V (dat3 V q c) (A_eq3 V q c 5) (after3_5 V q c) t d

/-! ## The body obligation, at a generic point -/

/-- What the body is called with at point `t`, the windows one by one, -/
def bodyPre3 (q : Fin cfg3.W → PosShare TreeShare) (c : Dev nD) (t : Fin cfg3.N) : sProp 𝕄 :=
  iprop((dat3 V q c).Φ t.castSucc ∗ (dat3 V q c).owesAt () t.castSucc
    ∗ (∃ d, owns (c : Thread nD τ) (st3_0 t) fullShare ((dat3 V q c).before 0 t d))
    ∗ (∃ d, owns (c : Thread nD τ) (st3_1 t) fullShare ((dat3 V q c).before 1 t d))
    ∗ (∃ d, owns (c : Thread nD τ) (st3_2 t) fullShare ((dat3 V q c).before 2 t d))
    ∗ (∃ d, owns (c : Thread nD τ) (st3_3 t) fullShare ((dat3 V q c).before 3 t d))
    ∗ (∃ d, owns (c : Thread nD τ) (st3_4 t) fullShare ((dat3 V q c).before 4 t d))
    ∗ (∃ d, owns (c : Thread nD τ) (st3_5 t) fullShare ((dat3 V q c).before 5 t d))
    ∗ (∃ d, owns (c : Thread nD τ) (st3_6 t) fullShare ((dat3 V q c).before 6 t d)))

/-- and what it returns. -/
def bodyPost3 (q : Fin cfg3.W → PosShare TreeShare) (c : Dev nD) (t : Fin cfg3.N) : sProp 𝕄 :=
  iprop((dat3 V q c).Φ t.succ ∗ (dat3 V q c).owesAt () t.succ
    ∗ owns (c : Thread nD τ) (st3_0 t) fullShare ((dat3 V q c).after 0 t)
    ∗ owns (c : Thread nD τ) (st3_1 t) fullShare ((dat3 V q c).after 1 t)
    ∗ owns (c : Thread nD τ) (st3_2 t) fullShare ((dat3 V q c).after 2 t)
    ∗ owns (c : Thread nD τ) (st3_3 t) fullShare ((dat3 V q c).after 3 t)
    ∗ owns (c : Thread nD τ) (st3_4 t) fullShare ((dat3 V q c).after 4 t)
    ∗ owns (c : Thread nD τ) (st3_5 t) fullShare ((dat3 V q c).after 5 t)
    ∗ owns (c : Thread nD τ) (st3_6 t) fullShare ((dat3 V q c).after 6 t))

/-- The body at any point: the inputs' memrefs hold their blocks, so the kernel's triple applies; the invariant and
    the core's `owes` pass through unread. -/
theorem sound_body3 (q : Fin cfg3.W → PosShare TreeShare) (c : Dev nD) (t : Fin cfg3.N) :
    bodyPre3 V q c t ⊢ wp frame (wpE (defs₀ (F := F)) Variants.none c none) Set.univ (bodyAt3 t) (fun _ => bodyPost3 V q c t) := by
  unfold bodyPre3 bodyPost3 bodyAt3
  simp only [before3_0, before3_1, before3_2, before3_3, before3_4, before3_5]
  rw [show (dat3 V q c).Φ t.succ = (dat3 V q c).Φ t.castSucc from rfl,
    show (dat3 V q c).owesAt () t.succ = (dat3 V q c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ (grid3.coords t) _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation3 (q : Fin cfg3.W → PosShare TreeShare) (c : Dev nD) : BodyObligation (dat3 (F := F) V q c) (defs₀ (F := F)) Variants.none () Set.univ := fun t => by
  rw [bigSep_W3, bigSep_W3]
  exact sound_body3 V q c t

end Regions

end Cert.KernelIdeal.Hand

end
-- ==== Proof.KI.R4.lean ====
/- The body obligation of custom_call 4's pipeline (region 4 of @main), for any float instance: each input
   window's staging buffer holds its block at every grid point, the kernel body
   run on whole staging memrefs leaves the output's buffer at one whole-block store of the payload of the loaded
   blocks, and the pipeline's proof data over the untouched-rest invariant meet the library's body obligation. -/
import proofs.«133321_j75213467287803_1_alg».proof.Proof.Gen.KernelIdeal.Launch
import proofs.«133321_j75213467287803_1_alg».proof.Proof.Gen.KernelIdeal.Skeleton
import proofs.«133321_j75213467287803_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not (when it is not
    fetched its block index has not moved), for any proof data whose array is `V`'s and whose body leaves the block
    in place; the window is uncut and never idle. -/
theorem before4_0_of {c : Dev nD} (dat : Dat τ (Elt F) Unit ℕ (Pipeline.UD sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's current staging buffer holds its block at every point, fetched there or not (when it is not
    fetched its block index has not moved), for any proof data whose array is `V`'s and whose body leaves the block
    in place; the window is uncut and never idle. -/
theorem before4_1_of {c : Dev nD} (dat : Dat τ (Elt F) Unit ℕ (Pipeline.UD sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2's current staging buffer holds its block at every point, fetched there or not (when it is not
    fetched its block index has not moved), for any proof data whose array is `V`'s and whose body leaves the block
    in place; the window is uncut and never idle. -/
theorem before4_2_of {c : Dev nD} (dat : Dat τ (Elt F) Unit ℕ (Pipeline.UD sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- Input window 3's current staging buffer holds its block at every point, fetched there or not (when it is not
    fetched its block index has not moved), for any proof data whose array is `V`'s and whose body leaves the block
    in place; the window is uncut and never idle. -/
theorem before4_3_of {c : Dev nD} (dat : Dat τ (Elt F) Unit ℕ (Pipeline.UD sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
/-- Input window 4's current staging buffer holds its block at every point, fetched there or not (when it is not
    fetched its block index has not moved), for any proof data whose array is `V`'s and whose body leaves the block
    in place; the window is uncut and never idle. -/
theorem before4_4_of {c : Dev nD} (dat : Dat τ (Elt F) Unit ℕ (Pipeline.UD sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each block whole -/

abbrev r4_0 : Rect S2000x128 := Rect.unit (s := S2000x128) ![0, 0] S2000x128.size inb_S2000x128_S2000x128_0_0
abbrev r4_1 : Rect S128x128 := Rect.unit (s := S128x128) ![0, 0] S128x128.size inb_S128x128_S128x128_0_0
abbrev r4_2 : Rect S1 := Rect.unit (s := S1) ![0] S1.size inb_S1_S1_0
abbrev r4_3 : Rect S128x64 := Rect.unit (s := S128x64) ![0, 0] S128x64.size inb_S128x64_S128x64_0_0
abbrev r4_4 : Rect S64 := Rect.unit (s := S64) ![0] S64.size inb_S64_S64_0
abbrev r4_5 : Rect S2000x64 := Rect.unit (s := S2000x64) ![0, 0] S2000x64.size inb_S2000x64_S2000x64_0_0

/-! ## What the body leaves in the output window's buffer -/

/-- Window 5's staging buffer after the body, from the input windows' blocks: its one whole-block store. -/
def out4_5 (x0 : Vec F S2000x128 .f32) (x1 : Vec F S128x128 .f32) (x2 : Vec F S1 .f32) (x3 : Vec F S128x64 .f32) (x4 : Vec F S64 .f32) : Vec F S2000x64 .f32 :=
  View.canon [⟨r4_5, k4_pay1 (View.ld x0 r4_0) (View.ld x1 r4_1) (View.ld x2 r4_2) (View.ld x3 r4_3) (View.ld x4 r4_4)⟩]

/-- The one store tiles the buffer, so it covers it. -/
theorem cover4_5 (p0 : Vec F S2000x64 .f32) (y : S2000x64.Idx) :
    ∃ pc ∈ ([⟨r4_5, p0⟩] : List (View.Piece (Elt F) S2000x64 .f32)), y ∈ pc.1.set :=
  View.cover_of_tiled [⟨r4_5, p0⟩] S2000x64.size (by rfl) y

/-! ## The body's triple -/

set_option maxHeartbeats 1000000 in
/-- The kernel body on whole staging memrefs, the inputs' at read contents `xW` and the output's at anything, runs to
    the continuation holding the inputs' as they were and the output's at `out4_5` of the inputs'. -/
theorem sound_kernel4 (c : Dev nD) (E : Set ℕ) (i : grid4.Coords) (arg1 : Memref sig .tc .vmem S2000x128 .f32) (harg1 : arg1.IsWhole) (arg2 : Memref sig .tc .vmem S128x128 .f32) (harg2 : arg2.IsWhole) (arg3 : Memref sig .tc .vmem S1 .f32) (harg3 : arg3.IsWhole) (arg4 : Memref sig .tc .vmem S128x64 .f32) (harg4 : arg4.IsWhole) (arg5 : Memref sig .tc .vmem S64 .f32) (harg5 : arg5.IsWhole) (arg6 : Memref sig .tc .vmem S2000x64 .f32) (harg6 : arg6.IsWhole)
    (x0 : Vec F S2000x128 .f32) (x1 : Vec F S128x128 .f32) (x2 : Vec F S1 .f32) (x3 : Vec F S128x64 .f32) (x4 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out4_5 x0 x1 x2 x3 x4)) -∗ K ⟨⟩))
      ⊢ wp frame (wpE (defs₀ (F := F)) Variants.none c none) E (cc4__final_kernel i arg1 harg1 arg2 harg2 arg3 harg3 arg4 harg4 arg5 harg5 arg6 harg6) K := by
  simp only [cc4__final_kernel_eq_skeleton]; unfold cc4__final_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-! ## The pipeline's proof data -/

/-- The proof data of pipeline 4 on core `c`: the arrays as the region finds them (`V`); after the body at point `t`
    each input's buffer at its block and the output's at `out4_5` of the input blocks; the invariant is the
    untouched rest (the scoped rest and the generator register); nothing owed; full shares. -/
def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the inputs' memrefs hold their blocks, so the body's triple applies; the invariant and
    the core's owed waits pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ (grid4.coords t) _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation4 (c : Dev nD) : BodyObligation (dat4 (F := F) V c) (defs₀ (F := F)) Variants.none () Set.univ := fun t => by
  rw [bigSep_W4, bigSep_W4]
  exact sound_body4 V c t

end Regions

end Cert.KernelIdeal.Hand

end
-- ==== Proof.KI.Chain.lean ====
/- The contents of the core's unscoped buffers between the program's items: the launch contents, then each stretch of
   host operations applied, then each kernel region's result array at what the region's write-backs leave. -/
import proofs.«133321_j75213467287803_1_alg».proof.Proof.KI.R0
import proofs.«133321_j75213467287803_1_alg».proof.Proof.KI.R1
import proofs.«133321_j75213467287803_1_alg».proof.Proof.KI.R2
import proofs.«133321_j75213467287803_1_alg».proof.Proof.KI.R3
import proofs.«133321_j75213467287803_1_alg».proof.Proof.KI.R4
import proofs.«133321_j75213467287803_1_alg».proof.Proof.Gen.KernelIdeal.Regions

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

/-- The shares of region 1's arrays: its two row-block inputs read ONE array, each at half of it. -/
def q1 : Fin cfg1.W → PosShare TreeShare := fun w => match w with
  | ⟨0, _⟩ => fullShare.left
  | ⟨1, _⟩ => fullShare.right
  | _ => fullShare
/-- Region 3's arrays are distinct: each whole. -/
def q3 : Fin cfg3.W → PosShare TreeShare := fun _ => fullShare

/-- At launch. -/
abbrev W0 (c : Dev nD) : Valuation τ sig (Elt F) := fun b => m (c, b)
/-- After the first stretch of host operations (region 0's entry). -/
abbrev W1 (c : Dev nD) : Valuation τ sig (Elt F) := StableHlo.after hostOps0 (W0 m c)
/-- The same read at the core's references. -/
abbrev U1 : (c : Dev nD) → (b : Ref sig .tc) → Buf (Elt F) ((c : Thread nD τ).loc b) := fun c b => W1 m c b
/-- After region 0: its result array at what its write-backs leave (region 1's entry). -/
def W2 (c : Dev nD) : Valuation τ sig (Elt F) := Function.update (W1 m c) main_v17 ((dat0 (U1 m) c).arrAt 2 cfg0.N)
abbrev U2 : (c : Dev nD) → (b : Ref sig .tc) → Buf (Elt F) ((c : Thread nD τ).loc b) := fun c b => W2 m c b
/-- After region 1. -/
def W3 (c : Dev nD) : Valuation τ sig (Elt F) := Function.update (W2 m c) main_v18 ((dat1 (U2 m) q1 c).arrAt 6 cfg1.N)
/-- After the second stretch of host operations (region 2's entry). -/
def W4 (c : Dev nD) : Valuation τ sig (Elt F) := StableHlo.after hostOps2 (W3 m c)
abbrev U4 : (c : Dev nD) → (b : Ref sig .tc) → Buf (Elt F) ((c : Thread nD τ).loc b) := fun c b => W4 m c b
/-- After region 2 (region 3's entry). -/
def W5 (c : Dev nD) : Valuation τ sig (Elt F) := Function.update (W4 m c) main_v34 ((dat2 (U4 m) c).arrAt 2 cfg2.N)
abbrev U5 : (c : Dev nD) → (b : Ref sig .tc) → Buf (Elt F) ((c : Thread nD τ).loc b) := fun c b => W5 m c b
/-- After region 3. -/
def W6 (c : Dev nD) : Valuation τ sig (Elt F) := Function.update (W5 m c) main_v35 ((dat3 (U5 m) q3 c).arrAt 6 cfg3.N)
/-- After the third stretch of host operations (region 4's entry). -/
def W7 (c : Dev nD) : Valuation τ sig (Elt F) := StableHlo.after hostOps4 (W6 m c)
abbrev U7 : (c : Dev nD) → (b : Ref sig .tc) → Buf (Elt F) ((c : Thread nD τ).loc b) := fun c b => W7 m c b
/-- After region 4: the program's end. -/
def W8 (c : Dev nD) : Valuation τ sig (Elt F) := Function.update (W7 m c) main_v51 ((dat4 (U7 m) c).arrAt 5 cfg4.N)

end Cert.KernelIdeal.Hand

end
-- ==== Proof.KI.Run.lean ====
/- The program's run, at any float instance: the five kernel regions and the three stretches of host operations between
   them as segments over one thread state — every unscoped buffer of the core held at the contents the items before it
   left —, and the launch over them: every weakly fair execution terminates, nothing faulting, with every unscoped buffer at
   the last contents. Region 1 reads ONE array through two input windows: the array is held at half a share for each. -/
import proofs.«133321_j75213467287803_1_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-- The distinct buffers behind region 1's seven windows (two windows read main_v17). -/
theorem img1 : Finset.univ.image (Pipeline.arrRef spec1)
    = ([main_v17, main_v1, main_v3, main_arg7, main_arg10, main_v18] : List (Ref sig .tc)).toFinset := by decide
theorem nodup1 : ([main_v17, main_v1, main_v3, main_arg7, main_arg10, main_v18] : List (Ref sig .tc)).Nodup := by decide

variable {F : FTy → Type} [FloatOps F]

local notation "𝕄" => MT nD τ sig Unit (Elt F) ℕ (Pipeline.UD sig nD τ) ℕ

variable (m : (ℓ : Loc nD τ sig) → Buf (Elt F) ℓ)

/-! ## The contents after each region: the result array replaced, every other buffer kept -/

abbrev U3 : (c : Dev nD) → (b : Ref sig .tc) → Buf (Elt F) ((c : Thread nD τ).loc b) := fun c b => W3 m c b
abbrev U6 : (c : Dev nD) → (b : Ref sig .tc) → Buf (Elt F) ((c : Thread nD τ).loc b) := fun c b => W6 m c b
abbrev U8 : (c : Dev nD) → (b : Ref sig .tc) → Buf (Elt F) ((c : Thread nD τ).loc b) := fun c b => W8 m c b

theorem W2_out (c : Dev nD) : W2 m c main_v17 = (dat0 (U1 m) c).arrAt 2 cfg0.N := by unfold W2; exact Function.update_self _ _ _
theorem W2_of_ne (c : Dev nD) (b : Ref sig .tc) (h : main_v17 ≠ b) : W2 m c b = W1 m c b := by
  unfold W2; exact Function.update_of_ne (StableHlo.devRef_ne_of_ne (Ne.symm h)) _ _

theorem W3_out (c : Dev nD) : W3 m c main_v18 = (dat1 (U2 m) q1 c).arrAt 6 cfg1.N := by unfold W3; exact Function.update_self _ _ _
theorem W3_of_ne (c : Dev nD) (b : Ref sig .tc) (h : main_v18 ≠ b) : W3 m c b = W2 m c b := by
  unfold W3; exact Function.update_of_ne (StableHlo.devRef_ne_of_ne (Ne.symm h)) _ _

theorem W5_out (c : Dev nD) : W5 m c main_v34 = (dat2 (U4 m) c).arrAt 2 cfg2.N := by unfold W5; exact Function.update_self _ _ _
theorem W5_of_ne (c : Dev nD) (b : Ref sig .tc) (h : main_v34 ≠ b) : W5 m c b = W4 m c b := by
  unfold W5; exact Function.update_of_ne (StableHlo.devRef_ne_of_ne (Ne.symm h)) _ _

theorem W6_out (c : Dev nD) : W6 m c main_v35 = (dat3 (U5 m) q3 c).arrAt 6 cfg3.N := by unfold W6; exact Function.update_self _ _ _
theorem W6_of_ne (c : Dev nD) (b : Ref sig .tc) (h : main_v35 ≠ b) : W6 m c b = W5 m c b := by
  unfold W6; exact Function.update_of_ne (StableHlo.devRef_ne_of_ne (Ne.symm h)) _ _

theorem W8_out (c : Dev nD) : W8 m c main_v51 = (dat4 (U7 m) c).arrAt 5 cfg4.N := by unfold W8; exact Function.update_self _ _ _
theorem W8_of_ne (c : Dev nD) (b : Ref sig .tc) (h : main_v51 ≠ b) : W8 m c b = W7 m c b := by
  unfold W8; exact Function.update_of_ne (StableHlo.devRef_ne_of_ne (Ne.symm h)) _ _

/-! ## The proof data family and the thread state -/

/-- Every pipeline's proof data, each at its region's entry contents: a literal match, so that the pinned configuration
    at a numeral reduces to the printed one. -/
def pdats : (p : Fin 5) → (c : Dev nD) → Dat τ (Elt F) Unit ℕ (Pipeline.UD sig nD τ) ℕ (Pipeline.pin (pcfgs (F := F)) adm p) c
  | ⟨0, _⟩ => fun c => dat0 (U1 m) c
  | ⟨1, _⟩ => fun c => dat1 (U2 m) q1 c
  | ⟨2, _⟩ => fun c => dat2 (U4 m) c
  | ⟨3, _⟩ => fun c => dat3 (U5 m) q3 c
  | ⟨4, _⟩ => fun c => dat4 (U7 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A stretch of host operations as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owed waits: every unscoped buffer at the last contents, the generator register at some state. -/
abbrev Tₙ (c : Dev nD) : sProp 𝕄 := iprop(StableHlo.held (c : Thread nD τ) (Pipeline.ucRefs τ sig) (W8 m c) ∗ ∃ r, prngReg c r)

/-! ## Regions 0, 2, 3, 4: distinct arrays -/

theorem hF0 (c : Dev nD) : ∀ w : Fin cfg0.W, (dat0 (U1 m) c).arrAt w cfg0.N = U2 m c (Pipeline.arrRef spec0 w) := by
  intro w
  by_cases hw : (cfg0.win w).isOut = true
  · obtain rfl : w = 2 := (by decide : ∀ w : Fin cfg0.W, (cfg0.win w).isOut = true → w = 2) w hw
    exact (W2_out m c).symm
  · have hne : main_v17 ≠ Pipeline.arrRef spec0 w :=
      (by decide : ∀ w : Fin cfg0.W, ¬ (cfg0.win w).isOut = true → main_v17 ≠ Pipeline.arrRef spec0 w) w hw
    exact ((dat0 (U1 m) c).arrAt_in w (Bool.eq_false_iff.mpr hw) _).trans ((A_eq0 (U1 m) c w).trans (W2_of_ne m c _ hne).symm)
theorem hrest0 (c : Dev nD) : ∀ b, b ∉ Finset.univ.image (Pipeline.arrRef spec0) → U2 m c b = U1 m c b :=
  fun b hb => W2_of_ne m c b fun e => hb (Finset.mem_image.mpr ⟨2, Finset.mem_univ _, e⟩)

-- the pinned configuration equals the printed one by unfolding plain definitions
set_option backward.isDefEq.respectTransparency.types false in
/-- Region 0 over the thread state: entered from every unscoped buffer at the contents before it, left at the contents after
    it. Its arrays are split out of the unscoped buffers and put back at the exit contents; the generator register goes into the
    invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF2 (c : Dev nD) : ∀ w : Fin cfg2.W, (dat2 (U4 m) c).arrAt w cfg2.N = U5 m c (Pipeline.arrRef spec2 w) := by
  intro w
  by_cases hw : (cfg2.win w).isOut = true
  · obtain rfl : w = 2 := (by decide : ∀ w : Fin cfg2.W, (cfg2.win w).isOut = true → w = 2) w hw
    exact (W5_out m c).symm
  · have hne : main_v34 ≠ Pipeline.arrRef spec2 w :=
      (by decide : ∀ w : Fin cfg2.W, ¬ (cfg2.win w).isOut = true → main_v34 ≠ Pipeline.arrRef spec2 w) w hw
    exact ((dat2 (U4 m) c).arrAt_in w (Bool.eq_false_iff.mpr hw) _).trans ((A_eq2 (U4 m) c w).trans (W5_of_ne m c _ hne).symm)
theorem hrest2 (c : Dev nD) : ∀ b, b ∉ Finset.univ.image (Pipeline.arrRef spec2) → U5 m c b = U4 m c b :=
  fun b hb => W5_of_ne m c b fun e => hb (Finset.mem_image.mpr ⟨2, Finset.mem_univ _, e⟩)

-- the pinned configuration equals the printed one by unfolding plain definitions
set_option backward.isDefEq.respectTransparency.types false in
/-- Region 2 over the thread state: entered from every unscoped buffer at the contents before it, left at the contents after
    it. Its arrays are split out of the unscoped buffers and put back at the exit contents; the generator register goes into the
    invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := Pipeline.UD sig nD τ) (Lvl := ℕ) spec2 c (U4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m) ((pdats m 2 c).share_full fun _ => rfl)
      (U4 m c) (U5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF3 (c : Dev nD) : ∀ w : Fin cfg3.W, (dat3 (U5 m) q3 c).arrAt w cfg3.N = U6 m c (Pipeline.arrRef spec3 w) := by
  intro w
  by_cases hw : (cfg3.win w).isOut = true
  · obtain rfl : w = 6 := (by decide : ∀ w : Fin cfg3.W, (cfg3.win w).isOut = true → w = 6) w hw
    exact (W6_out m c).symm
  · have hne : main_v35 ≠ Pipeline.arrRef spec3 w :=
      (by decide : ∀ w : Fin cfg3.W, ¬ (cfg3.win w).isOut = true → main_v35 ≠ Pipeline.arrRef spec3 w) w hw
    exact ((dat3 (U5 m) q3 c).arrAt_in w (Bool.eq_false_iff.mpr hw) _).trans ((A_eq3 (U5 m) q3 c w).trans (W6_of_ne m c _ hne).symm)
theorem hrest3 (c : Dev nD) : ∀ b, b ∉ Finset.univ.image (Pipeline.arrRef spec3) → U6 m c b = U5 m c b :=
  fun b hb => W6_of_ne m c b fun e => hb (Finset.mem_image.mpr ⟨6, Finset.mem_univ _, e⟩)

-- the pinned configuration equals the printed one by unfolding plain definitions
set_option backward.isDefEq.respectTransparency.types false in
/-- Region 3 over the thread state: entered from every unscoped buffer at the contents before it, left at the contents after
    it. Its arrays are split out of the unscoped buffers and put back at the exit contents; the generator register goes into the
    invariant and comes out; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U5 m) q3 c).loose
  hwaits := Pipeline.hwaits_of_owed_zero _ _ _ _ L lv 3 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := Pipeline.UD sig nD τ) (Lvl := ℕ) spec3 c (U5 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := Pipeline.UD sig nD τ) (Lvl := ℕ)
      launch3.win launch3.arr_whole c (pdats m) ((pdats m 3 c).share_full fun _ => rfl)
      (U5 m c) (U6 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF4 (c : Dev nD) : ∀ w : Fin cfg4.W, (dat4 (U7 m) c).arrAt w cfg4.N = U8 m c (Pipeline.arrRef spec4 w) := by
  intro w
  by_cases hw : (cfg4.win w).isOut = true
  · obtain rfl : w = 5 := (by decide : ∀ w : Fin cfg4.W, (cfg4.win w).isOut = true → w = 5) w hw
    exact (W8_out m c).symm
  · have hne : main_v51 ≠ Pipeline.arrRef spec4 w :=
      (by decide : ∀ w : Fin cfg4.W, ¬ (cfg4.win w).isOut = true → main_v51 ≠ Pipeline.arrRef spec4 w) w hw
    exact ((dat4 (U7 m) c).arrAt_in w (Bool.eq_false_iff.mpr hw) _).trans ((A_eq4 (U7 m) c w).trans (W8_of_ne m c _ hne).symm)
theorem hrest4 (c : Dev nD) : ∀ b, b ∉ Finset.univ.image (Pipeline.arrRef spec4) → U8 m c b = U7 m c b :=
  fun b hb => W8_of_ne m c b fun e => hb (Finset.mem_image.mpr ⟨5, Finset.mem_univ _, e⟩)

-- the pinned configuration equals the printed one by unfolding plain definitions
set_option backward.isDefEq.respectTransparency.types false in
/-- Region 4 over the thread state: entered from every unscoped buffer at the contents before it, left at the contents after
    it. Its arrays are split out of the unscoped buffers and put back at the exit contents; the generator register goes into the
    invariant and comes out; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (U7 m) c).loose
  hwaits := Pipeline.hwaits_of_owed_zero _ _ _ _ L lv 4 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec4 c (U7 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (U7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := Pipeline.UD sig nD τ) (Lvl := ℕ)
      launch4.win launch4.arr_whole c (pdats m) ((pdats m 4 c).share_full fun _ => rfl)
      (U7 m c) (U8 m c) ((pdats m 4 c).arrAt · cfg4.N) (hF4 m c) (hrest4 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## Region 1: two input windows on one array -/

/-- The pipeline's arrays at any shares, every array a whole buffer. -/
theorem arrays1_eq (c : Dev nD) (F' : (w : Fin cfg1.W) → Buf (Elt F) ((cfg1.win w).arr.view.loc (c : Thread nD τ))) :
    ((dat1 (U2 m) q1 c).arrays F' : sProp 𝕄)
      = bigSep Finset.univ fun w => (((c : Thread nD τ).loc (Pipeline.arrRef spec1 w)) ↦{(dat1 (U2 m) q1 c).share w} F' w : sProp 𝕄) := by
  unfold Dat.arrays
  exact bigSep_congr fun w _ => by rw [(arr_whole1 w).set_eq_univ]

/-- The distinct buffers behind region 1's seven windows, one by one. -/
theorem arrBufs1_eq (c : Dev nD) (V : (b : Ref sig .tc) → Buf (Elt F) ((c : Thread nD τ).loc b)) :
    (Pipeline.arrBufs (Pipeline.pin (pcfgs (F := F)) adm 1).spec c V : sProp 𝕄)
      = iprop((((c : Thread nD τ).loc main_v17) ↦{fullShare} V main_v17) ∗ (((c : Thread nD τ).loc main_v1) ↦{fullShare} V main_v1)
          ∗ (((c : Thread nD τ).loc main_v3) ↦{fullShare} V main_v3) ∗ (((c : Thread nD τ).loc main_arg7) ↦{fullShare} V main_arg7)
          ∗ (((c : Thread nD τ).loc main_arg10) ↦{fullShare} V main_arg10) ∗ (((c : Thread nD τ).loc main_v18) ↦{fullShare} V main_v18)) := by
  have himg : Finset.univ.image (Pipeline.arrRef (Pipeline.pin (pcfgs (F := F)) adm 1).spec)
      = ([main_v17, main_v1, main_v3, main_arg7, main_arg10, main_v18] : List (Ref sig .tc)).toFinset := img1
  unfold Pipeline.arrBufs
  rw [BI.bigSep_eq_bigSepL_of_eq _ himg nodup1]; rfl

theorem hF1 (c : Dev nD) : ∀ w : Fin cfg1.W, (dat1 (U2 m) q1 c).arrAt w cfg1.N = U3 m c (Pipeline.arrRef spec1 w) := by
  intro w
  by_cases hw : (cfg1.win w).isOut = true
  · obtain rfl : w = 6 := (by decide : ∀ w : Fin cfg1.W, (cfg1.win w).isOut = true → w = 6) w hw
    exact (W3_out m c).symm
  · have hne : main_v18 ≠ Pipeline.arrRef spec1 w :=
      (by decide : ∀ w : Fin cfg1.W, ¬ (cfg1.win w).isOut = true → main_v18 ≠ Pipeline.arrRef spec1 w) w hw
    exact ((dat1 (U2 m) q1 c).arrAt_in w (Bool.eq_false_iff.mpr hw) _).trans ((A_eq1 (U2 m) q1 c w).trans (W3_of_ne m c _ hne).symm)
theorem hrest1 (c : Dev nD) : ∀ b, b ∉ Finset.univ.image (Pipeline.arrRef spec1) → U3 m c b = U2 m c b :=
  fun b hb => W3_of_ne m c b fun e => hb (Finset.mem_image.mpr ⟨6, Finset.mem_univ _, e⟩)

/-- Entering region 1: the shared array's full share splits into the two windows' halves. -/
theorem entry1 (c : Dev nD) :
    (unscopedBufs c (U2 m c) : sProp 𝕄)
      ⊢ iprop((dat1 (U2 m) q1 c).arrays ((dat1 (U2 m) q1 c).arrAt · 0) ∗ Pipeline.unscopedRest spec1 c (U2 m c)) := by
  rw [Pipeline.unscopedBufs_split₀ (Pipeline.pin (pcfgs (F := F)) adm) 1 winFacts₀1.arr_unscoped c (U2 m c), arrays1_eq, arrBufs1_eq,
    show (bigSep Finset.univ fun w => (((c : Thread nD τ).loc (Pipeline.arrRef spec1 w)) ↦{(dat1 (U2 m) q1 c).share w} (dat1 (U2 m) q1 c).arrAt w 0 : sProp 𝕄))
      = bigSep Finset.univ fun w => (((c : Thread nD τ).loc (Pipeline.arrRef spec1 w)) ↦{(dat1 (U2 m) q1 c).share w} U2 m c (Pipeline.arrRef spec1 w) : sProp 𝕄)
      from bigSep_congr fun w _ => by rw [show (dat1 (U2 m) q1 c).arrAt w 0 = U2 m c (Pipeline.arrRef spec1 w) from A_eq1 (U2 m) q1 c w],
    bigSep_W1]
  refine sep_mono ?_ .rfl
  show iprop((((c : Thread nD τ).loc main_v17) ↦{fullShare} U2 m c main_v17 : sProp 𝕄) ∗ (((c : Thread nD τ).loc main_v1) ↦{fullShare} U2 m c main_v1 : sProp 𝕄) ∗ (((c : Thread nD τ).loc main_v3) ↦{fullShare} U2 m c main_v3 : sProp 𝕄) ∗ (((c : Thread nD τ).loc main_arg7) ↦{fullShare} U2 m c main_arg7 : sProp 𝕄) ∗ (((c : Thread nD τ).loc main_arg10) ↦{fullShare} U2 m c main_arg10 : sProp 𝕄) ∗ (((c : Thread nD τ).loc main_v18) ↦{fullShare} U2 m c main_v18 : sProp 𝕄)) ⊢ iprop((((c : Thread nD τ).loc main_v17) ↦{fullShare.left} U2 m c main_v17 : sProp 𝕄) ∗ (((c : Thread nD τ).loc main_v17) ↦{fullShare.right} U2 m c main_v17 : sProp 𝕄) ∗ (((c : Thread nD τ).loc main_v1) ↦{fullShare} U2 m c main_v1 : sProp 𝕄) ∗ (((c : Thread nD τ).loc main_v3) ↦{fullShare} U2 m c main_v3 : sProp 𝕄) ∗ (((c : Thread nD τ).loc main_arg7) ↦{fullShare} U2 m c main_arg7 : sProp 𝕄) ∗ (((c : Thread nD τ).loc main_arg10) ↦{fullShare} U2 m c main_arg10 : sProp 𝕄) ∗ (((c : Thread nD τ).loc main_v18) ↦{fullShare} U2 m c main_v18 : sProp 𝕄))
  iintro ⟨H17, H1, H3, H7, H10, H18⟩
  ihave H := (pointsTo_share (PosShare.mem_left_op_right fullShare)).1 $$ H17
  icases H with ⟨Ha, Hb⟩
  isplitl [Ha]; · iexact Ha
  isplitl [Hb]; · iexact Hb
  isplitl [H1]; · iexact H1
  isplitl [H3]; · iexact H3
  isplitl [H7]; · iexact H7
  isplitl [H10]; · iexact H10
  iexact H18

/-- Leaving region 1: the two halves rejoin; the result array holds what the write-backs left. -/
theorem exit1 (c : Dev nD) :
    iprop((dat1 (U2 m) q1 c).arrays ((dat1 (U2 m) q1 c).arrAt · cfg1.N) ∗ Pipeline.unscopedRest spec1 c (U2 m c))
      ⊢ (unscopedBufs c (U3 m c) : sProp 𝕄) := by
  rw [Pipeline.unscopedBufs_split₀ (Pipeline.pin (pcfgs (F := F)) adm) 1 winFacts₀1.arr_unscoped c (U3 m c), arrays1_eq, arrBufs1_eq,
    show (bigSep Finset.univ fun w => (((c : Thread nD τ).loc (Pipeline.arrRef spec1 w)) ↦{(dat1 (U2 m) q1 c).share w} (dat1 (U2 m) q1 c).arrAt w cfg1.N : sProp 𝕄))
      = bigSep Finset.univ fun w => (((c : Thread nD τ).loc (Pipeline.arrRef spec1 w)) ↦{(dat1 (U2 m) q1 c).share w} U3 m c (Pipeline.arrRef spec1 w) : sProp 𝕄)
      from bigSep_congr fun w _ => by rw [hF1 m c w],
    bigSep_W1]
  refine sep_mono ?_ (Entails.of_eq ?_)
  · show iprop((((c : Thread nD τ).loc main_v17) ↦{fullShare.left} U3 m c main_v17 : sProp 𝕄) ∗ (((c : Thread nD τ).loc main_v17) ↦{fullShare.right} U3 m c main_v17 : sProp 𝕄) ∗ (((c : Thread nD τ).loc main_v1) ↦{fullShare} U3 m c main_v1 : sProp 𝕄) ∗ (((c : Thread nD τ).loc main_v3) ↦{fullShare} U3 m c main_v3 : sProp 𝕄) ∗ (((c : Thread nD τ).loc main_arg7) ↦{fullShare} U3 m c main_arg7 : sProp 𝕄) ∗ (((c : Thread nD τ).loc main_arg10) ↦{fullShare} U3 m c main_arg10 : sProp 𝕄) ∗ (((c : Thread nD τ).loc main_v18) ↦{fullShare} U3 m c main_v18 : sProp 𝕄)) ⊢ iprop((((c : Thread nD τ).loc main_v17) ↦{fullShare} U3 m c main_v17 : sProp 𝕄) ∗ (((c : Thread nD τ).loc main_v1) ↦{fullShare} U3 m c main_v1 : sProp 𝕄) ∗ (((c : Thread nD τ).loc main_v3) ↦{fullShare} U3 m c main_v3 : sProp 𝕄) ∗ (((c : Thread nD τ).loc main_arg7) ↦{fullShare} U3 m c main_arg7 : sProp 𝕄) ∗ (((c : Thread nD τ).loc main_arg10) ↦{fullShare} U3 m c main_arg10 : sProp 𝕄) ∗ (((c : Thread nD τ).loc main_v18) ↦{fullShare} U3 m c main_v18 : sProp 𝕄))
    iintro ⟨Ha, Hb, H1, H3, H7, H10, H18⟩
    isplitl [Ha Hb]
    · iapply (pointsTo_share (PosShare.mem_left_op_right fullShare)).2
      isplitl [Ha]; · iexact Ha
      iexact Hb
    isplitl [H1]; · iexact H1
    isplitl [H3]; · iexact H3
    isplitl [H7]; · iexact H7
    isplitl [H10]; · iexact H10
    iexact H18
  · unfold Pipeline.unscopedRest
    exact bigSep_congr fun b hb => by
      rw [show U3 m c b = U2 m c b from W3_of_ne m c b fun e => (Finset.mem_sdiff.mp hb).2 (Finset.mem_image.mpr ⟨6, Finset.mem_univ _, e⟩)]

set_option backward.isDefEq.respectTransparency.types false in
/-- Region 1 over the thread state, as the others, its arrays split out of the unscoped buffers with the shared array halved. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (U2 m) q1 c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (U2 m c)
  hentry c := by
    rw [Pipeline.ownSems0_none]
    have hsplit := entry1 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 m c
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The program as segments, and the launch -/

variable (ρ : Dev nD → PrngReg)

/-- The program's eight items in order: a host segment per stretch from the contents before it, a region per kernel. -/
abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)),
    .region (reg2 m),
    .region (reg3 m),
    .host (hseg hostOps4 hostOps4_sub hostOps4_fresh (W6 m)),
    .region (reg4 m) ]
/-- The program is the run of the segments. -/
theorem main_run (c : Dev nD) : main (F := F) c = Pipeline.Seg.run (segs m) := (main_chain c).trans (by chain_rfl)

set_option backward.isDefEq.respectTransparency.types false in
/-- THE RUN: from any memory with zero counters, every weakly fair execution of the program terminates, nothing faulting, and
    every final state holds every unscoped buffer of every core at the last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

end Cert.KernelIdeal.Hand

end
-- ==== Proof.KI.Args.lean ====
/- No item of the program writes an argument.

   Between the program's items the core's unscoped buffers hold: the launch contents; then each stretch of host
   operations applied; then each region's result array replaced by what the region's write-backs leave.  A buffer that
   no operation of a stretch writes holds after the stretch what it held before it, and a buffer other than a region's
   result array holds after the region what it held before it.  The eleven arguments are written by no stretch and are
   no region's result array: each holds its launch contents at every stage, and so at the end. -/
import proofs.«133321_j75213467287803_1_alg».proof.Proof.KI.Chain
import Idealize.ShloMosaic.Lib.StableHlo.Run

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (c : Dev nD)

/-! ## What each item leaves unchanged -/

theorem W1_of (r : Ref sig .tc) (h : r ∉ hostOps0_W) : W1 m c r = m ((c : Thread nD τ).loc r) :=
  StableHlo.after_of_writes_sub hostOps0 _ hostOps0_writes h
theorem W2_of (r : Ref sig .tc) (h : r ≠ main_v17) : W2 m c r = W1 m c r := by
  unfold W2; exact Function.update_of_ne (StableHlo.devRef_ne_of_ne h) _ _
theorem W3_of (r : Ref sig .tc) (h : r ≠ main_v18) : W3 m c r = W2 m c r := by
  unfold W3; exact Function.update_of_ne (StableHlo.devRef_ne_of_ne h) _ _
theorem W4_of (r : Ref sig .tc) (h : r ∉ hostOps2_W) : W4 m c r = W3 m c r := by
  unfold W4; exact StableHlo.after_of_writes_sub hostOps2 _ hostOps2_writes h
theorem W5_of (r : Ref sig .tc) (h : r ≠ main_v34) : W5 m c r = W4 m c r := by
  unfold W5; exact Function.update_of_ne (StableHlo.devRef_ne_of_ne h) _ _
theorem W6_of (r : Ref sig .tc) (h : r ≠ main_v35) : W6 m c r = W5 m c r := by
  unfold W6; exact Function.update_of_ne (StableHlo.devRef_ne_of_ne h) _ _
theorem W7_of (r : Ref sig .tc) (h : r ∉ hostOps4_W) : W7 m c r = W6 m c r := by
  unfold W7; exact StableHlo.after_of_writes_sub hostOps4 _ hostOps4_writes h
theorem W8_of (r : Ref sig .tc) (h : r ≠ main_v51) : W8 m c r = W7 m c r := by
  unfold W8; exact Function.update_of_ne (StableHlo.devRef_ne_of_ne h) _ _

/-! ## The arguments at every stage -/

/-- The program's eleven arguments. -/
abbrev argRefs : List (Ref sig .tc) :=
  [main_arg0, main_arg1, main_arg2, main_arg3, main_arg4, main_arg5, main_arg6, main_arg7, main_arg8, main_arg9, main_arg10]

theorem W1_arg (r : Ref sig .tc) (hr : r ∈ argRefs) : W1 m c r = m ((c : Thread nD τ).loc r) :=
  W1_of m c r ((by decide : ∀ r ∈ argRefs, r ∉ hostOps0_W) r hr)
theorem W2_arg (r : Ref sig .tc) (hr : r ∈ argRefs) : W2 m c r = m ((c : Thread nD τ).loc r) :=
  (W2_of m c r ((by decide : ∀ r ∈ argRefs, r ≠ main_v17) r hr)).trans (W1_arg m c r hr)
theorem W3_arg (r : Ref sig .tc) (hr : r ∈ argRefs) : W3 m c r = m ((c : Thread nD τ).loc r) :=
  (W3_of m c r ((by decide : ∀ r ∈ argRefs, r ≠ main_v18) r hr)).trans (W2_arg m c r hr)
theorem W4_arg (r : Ref sig .tc) (hr : r ∈ argRefs) : W4 m c r = m ((c : Thread nD τ).loc r) :=
  (W4_of m c r ((by decide : ∀ r ∈ argRefs, r ∉ hostOps2_W) r hr)).trans (W3_arg m c r hr)
theorem W5_arg (r : Ref sig .tc) (hr : r ∈ argRefs) : W5 m c r = m ((c : Thread nD τ).loc r) :=
  (W5_of m c r ((by decide : ∀ r ∈ argRefs, r ≠ main_v34) r hr)).trans (W4_arg m c r hr)
theorem W6_arg (r : Ref sig .tc) (hr : r ∈ argRefs) : W6 m c r = m ((c : Thread nD τ).loc r) :=
  (W6_of m c r ((by decide : ∀ r ∈ argRefs, r ≠ main_v35) r hr)).trans (W5_arg m c r hr)
theorem W7_arg (r : Ref sig .tc) (hr : r ∈ argRefs) : W7 m c r = m ((c : Thread nD τ).loc r) :=
  (W7_of m c r ((by decide : ∀ r ∈ argRefs, r ∉ hostOps4_W) r hr)).trans (W6_arg m c r hr)
theorem W8_arg (r : Ref sig .tc) (hr : r ∈ argRefs) : W8 m c r = m ((c : Thread nD τ).loc r) :=
  (W8_of m c r ((by decide : ∀ r ∈ argRefs, r ≠ main_v51) r hr)).trans (W7_arg m c r hr)

/-- Every argument ends holding its launch contents. -/
theorem W8_args : W8 m c main_arg0 = m ((c : Thread nD τ).loc main_arg0)
    ∧ W8 m c main_arg1 = m ((c : Thread nD τ).loc main_arg1)
    ∧ W8 m c main_arg2 = m ((c : Thread nD τ).loc main_arg2)
    ∧ W8 m c main_arg3 = m ((c : Thread nD τ).loc main_arg3)
    ∧ W8 m c main_arg4 = m ((c : Thread nD τ).loc main_arg4)
    ∧ W8 m c main_arg5 = m ((c : Thread nD τ).loc main_arg5)
    ∧ W8 m c main_arg6 = m ((c : Thread nD τ).loc main_arg6)
    ∧ W8 m c main_arg7 = m ((c : Thread nD τ).loc main_arg7)
    ∧ W8 m c main_arg8 = m ((c : Thread nD τ).loc main_arg8)
    ∧ W8 m c main_arg9 = m ((c : Thread nD τ).loc main_arg9)
    ∧ W8 m c main_arg10 = m ((c : Thread nD τ).loc main_arg10) :=
  ⟨W8_arg m c main_arg0 (by decide), W8_arg m c main_arg1 (by decide), W8_arg m c main_arg2 (by decide), W8_arg m c main_arg3 (by decide), W8_arg m c main_arg4 (by decide), W8_arg m c main_arg5 (by decide), W8_arg m c main_arg6 (by decide), W8_arg m c main_arg7 (by decide), W8_arg m c main_arg8 (by decide), W8_arg m c main_arg9 (by decide), W8_arg m c main_arg10 (by decide)⟩

end Cert.KernelIdeal.Hand

end
-- ==== Proof.K.R0.lean ====
/- The body obligation of region 0 of the program, at any float instance: each window's block at a point read off the
   array as the region finds it; the body's one store as a piece over the whole output block; the body's triple; the
   proof data of the pipeline over the invariant of a body that stages nothing itself; the obligation at every point. -/
import proofs.«133321_j75213467287803_1_alg».proof.Proof.Gen.Kernel.Launch
import proofs.«133321_j75213467287803_1_alg».proof.Proof.Gen.Kernel.Skeleton
import proofs.«133321_j75213467287803_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural recursion goes once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

section Regions
-- the core's buffer contents when the region is entered: the parameter the region's half is stated at
variable (V : (c : Dev nD) → (b : Ref sig .tc) → Buf (Elt F) ((c : Thread nD τ).loc b))

/-! # REGION 0: the matrix product of a row block with the whole weight -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: the window is uncut and never idle. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 (the weight, whole, its index constant): the same, though it is fetched at the first point only. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S2000x128 := Rect.unit (s := S2000x128) ![0, 0] S2000x128.size inb_S2000x128_S2000x128_0_0
abbrev r0_1 : Rect S128x128 := Rect.unit (s := S128x128) ![0, 0] S128x128.size inb_S128x128_S128x128_0_0
abbrev r0_2 : Rect S2000x128 := Rect.unit (s := S2000x128) ![0, 0] S2000x128.size inb_S2000x128_S2000x128_0_0

/-! ## What the body leaves in the output window's buffer -/

/-- Window 2's staging buffer after the body, from the input windows' blocks: its one store as a piece. -/
def out0_2 (x0 : Vec F S2000x128 .f32) (x1 : Vec F S128x128 .f32) : Vec F S2000x128 .f32 :=
  View.canon [⟨r0_2, k0_pay1 (View.ld x0 r0_0) (View.ld x1 r0_1)⟩]

/-- The store tiles the buffer, so it covers it. -/
theorem cover0_2 (p0 : Vec F S2000x128 .f32) (y : S2000x128.Idx) :
    ∃ pc ∈ ([⟨r0_2, p0⟩] : List (View.Piece (Elt F) S2000x128 .f32)), y ∈ pc.1.set :=
  View.cover_of_tiled [⟨r0_2, p0⟩] S2000x128.size (by rfl) y

/-! ## The body's triple -/

set_option maxHeartbeats 1000000 in
/-- The kernel body on whole staging memrefs, the inputs' at read contents and the output's at anything, runs to
    the continuation holding the inputs' as they were and the output's at `out0_2` of the inputs'. -/
theorem sound_kernel0 (c : Dev nD) (E : Set ℕ) (i : grid0.Coords) (arg1 : Memref sig .tc .vmem S2000x128 .f32) (harg1 : arg1.IsWhole) (arg2 : Memref sig .tc .vmem S128x128 .f32) (harg2 : arg2.IsWhole) (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the pipeline on core `c`: the arrays as the region finds them; after the body at point `t`
    each input's buffer at its block and the output's at `out0_2` of the input blocks; the invariant of a body
    that stages nothing itself; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's owed waits pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Hand

end
-- ==== Proof.K.R1.lean ====
/- The body obligation of region 1: at every point of the grid, the gate kernel on the windows' current staging
   buffers — each input's at its block of the region-entry contents, the output's at anything — runs to the same
   buffers with the output's at the one whole-block store's payload of the input blocks. Generic in the float
   instance. -/
import proofs.«133321_j75213467287803_1_alg».proof.Proof.Gen.Kernel.Launch
import proofs.«133321_j75213467287803_1_alg».proof.Proof.Gen.Kernel.Skeleton
import proofs.«133321_j75213467287803_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the index has not moved; the window is
    uncut and never idle. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof
    data whose array is `V`'s and whose body leaves the block in place: unfetched, the index has not moved; the window is
    uncut and never idle. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof
    data whose array is `V`'s and whose body leaves the block in place: unfetched, the index has not moved; the window is
    uncut and never idle. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for any proof
    data whose array is `V`'s and whose body leaves the block in place: unfetched, the index has not moved; the window is
    uncut and never idle. -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for any proof
    data whose array is `V`'s and whose body leaves the block in place: unfetched, the index has not moved; the window is
    uncut and never idle. -/
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for any proof
    data whose array is `V`'s and whose body leaves the block in place: unfetched, the index has not moved; the window is
    uncut and never idle. -/
theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: the whole-block rectangles -/

abbrev r1_0 : Rect S2000x128 := Rect.unit (s := S2000x128) ![0, 0] S2000x128.size inb_S2000x128_S2000x128_0_0
abbrev r1_2 : Rect S128 := Rect.unit (s := S128) ![0] S128.size inb_S128_S128_0
abbrev r1_4 : Rect S1 := Rect.unit (s := S1) ![0] S1.size inb_S1_S1_0

/-! ## What the body leaves in the output window's buffer -/

/-- Window 6's staging buffer after the body, from the input windows' blocks: its one store as a piece. -/
def out1_6 (x0 : Vec F S2000x128 .f32) (x1 : Vec F S2000x128 .f32) (x2 : Vec F S128 .f32) (x3 : Vec F S128 .f32) (x4 : Vec F S1 .f32) (x5 : Vec F S1 .f32) : Vec F S2000x128 .f32 :=
  View.canon [⟨r1_0, k1_pay1 (View.ld x0 r1_0) (View.ld x1 r1_0) (View.ld x2 r1_2) (View.ld x3 r1_2) (View.ld x4 r1_4) (View.ld x5 r1_4)⟩]

/-- The one store is the whole block, so it covers it. -/
theorem cover1_6 (p0 : Vec F S2000x128 .f32) (y : S2000x128.Idx) :
    ∃ pc ∈ ([⟨r1_0, p0⟩] : List (View.Piece (Elt F) S2000x128 .f32)), y ∈ pc.1.set :=
  View.cover_of_tiled [⟨r1_0, p0⟩] S2000x128.size (by rfl) y

/-! ## The body's triple -/

set_option maxHeartbeats 1000000 in
/-- The kernel body on whole staging memrefs, the inputs' at read contents `xW` and the output's at anything, runs to
    the continuation holding the inputs' as they were and the output's at `out1_6` of the inputs'. -/
theorem sound_kernel1 (c : Dev nD) (E : Set ℕ) (i : grid1.Coords) (arg1 : Memref sig .tc .vmem S2000x128 .f32) (harg1 : arg1.IsWhole) (arg2 : Memref sig .tc .vmem S2000x128 .f32) (harg2 : arg2.IsWhole) (arg3 : Memref sig .tc .vmem S128 .f32) (harg3 : arg3.IsWhole) (arg4 : Memref sig .tc .vmem S128 .f32) (harg4 : arg4.IsWhole) (arg5 : Memref sig .tc .vmem S1 .f32) (harg5 : arg5.IsWhole) (arg6 : Memref sig .tc .vmem S1 .f32) (harg6 : arg6.IsWhole) (arg7 : Memref sig .tc .vmem S2000x128 .f32) (harg7 : arg7.IsWhole)
    (x0 : Vec F S2000x128 .f32) (x1 : Vec F S2000x128 .f32) (x2 : Vec F S128 .f32) (x3 : Vec F S128 .f32) (x4 : Vec F S1 .f32) (x5 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__gate_kernel i arg1 harg1 arg2 harg2 arg3 harg3 arg4 harg4 arg5 harg5 arg6 harg6 arg7 harg7) K := by
  simp only [cc1__gate_kernel_eq_skeleton]; unfold cc1__gate_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of pipeline 1 on core `c`: the arrays as the region finds them (`V`); after the body at
    point `t` each input's buffer at its block and the output's at `out1_6` of the input blocks; the invariant the
    scoped rest and the generator register, untouched; nothing owed; the inputs' shares a parameter (two input
    windows may read one array). -/
def dat1 (q : Fin cfg1.W → PosShare TreeShare) (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q := q
  owed _ := 0

/-- The proof data's arrays are the region-entry contents. -/
theorem A_eq1 (q : Fin cfg1.W → PosShare TreeShare) (c : Dev nD) (w : Fin cfg1.W) : (dat1 V q c).A w = V c (Pipeline.arrRef spec1 w) := by
  dsimp only [dat1]

/-- What the body leaves, window by window. -/
theorem after1_0 (q : Fin cfg1.W → PosShare TreeShare) (c : Dev nD) (t : Fin cfg1.N) : (dat1 V q c).after 0 t = iblk1 V c 0 t := by dsimp only [dat1]
theorem after1_1 (q : Fin cfg1.W → PosShare TreeShare) (c : Dev nD) (t : Fin cfg1.N) : (dat1 V q c).after 1 t = iblk1 V c 1 t := by dsimp only [dat1]
theorem after1_2 (q : Fin cfg1.W → PosShare TreeShare) (c : Dev nD) (t : Fin cfg1.N) : (dat1 V q c).after 2 t = iblk1 V c 2 t := by dsimp only [dat1]
theorem after1_3 (q : Fin cfg1.W → PosShare TreeShare) (c : Dev nD) (t : Fin cfg1.N) : (dat1 V q c).after 3 t = iblk1 V c 3 t := by dsimp only [dat1]
theorem after1_4 (q : Fin cfg1.W → PosShare TreeShare) (c : Dev nD) (t : Fin cfg1.N) : (dat1 V q c).after 4 t = iblk1 V c 4 t := by dsimp only [dat1]
theorem after1_5 (q : Fin cfg1.W → PosShare TreeShare) (c : Dev nD) (t : Fin cfg1.N) : (dat1 V q c).after 5 t = iblk1 V c 5 t := by dsimp only [dat1]
theorem after1_6 (q : Fin cfg1.W → PosShare TreeShare) (c : Dev nD) (t : Fin cfg1.N) : (dat1 V q c).after 6 t = out1_6 (iblk1 V c 0 t) (iblk1 V c 1 t) (iblk1 V c 2 t) (iblk1 V c 3 t) (iblk1 V c 4 t) (iblk1 V c 5 t) := by dsimp only [dat1]

/-- Each input's current staging buffer holds its block at every point, fetched there or not. -/
theorem before1_0 (q : Fin cfg1.W → PosShare TreeShare) (c : Dev nD) (t : Fin cfg1.N) (d) : (dat1 V q c).before 0 t d = iblk1 V c 0 t :=
  before1_0_of V (dat1 V q c) (A_eq1 V q c 0) (after1_0 V q c) t d
theorem before1_1 (q : Fin cfg1.W → PosShare TreeShare) (c : Dev nD) (t : Fin cfg1.N) (d) : (dat1 V q c).before 1 t d = iblk1 V c 1 t :=
  before1_1_of V (dat1 V q c) (A_eq1 V q c 1) (after1_1 V q c) t d
theorem before1_2 (q : Fin cfg1.W → PosShare TreeShare) (c : Dev nD) (t : Fin cfg1.N) (d) : (dat1 V q c).before 2 t d = iblk1 V c 2 t :=
  before1_2_of V (dat1 V q c) (A_eq1 V q c 2) (after1_2 V q c) t d
theorem before1_3 (q : Fin cfg1.W → PosShare TreeShare) (c : Dev nD) (t : Fin cfg1.N) (d) : (dat1 V q c).before 3 t d = iblk1 V c 3 t :=
  before1_3_of V (dat1 V q c) (A_eq1 V q c 3) (after1_3 V q c) t d
theorem before1_4 (q : Fin cfg1.W → PosShare TreeShare) (c : Dev nD) (t : Fin cfg1.N) (d) : (dat1 V q c).before 4 t d = iblk1 V c 4 t :=
  before1_4_of V (dat1 V q c) (A_eq1 V q c 4) (after1_4 V q c) t d
theorem before1_5 (q : Fin cfg1.W → PosShare TreeShare) (c : Dev nD) (t : Fin cfg1.N) (d) : (dat1 V q c).before 5 t d = iblk1 V c 5 t :=
  before1_5_of V (dat1 V q c) (A_eq1 V q c 5) (after1_5 V q c) t d

/-! ## The body obligation, at a generic point -/

/-- What the body is called with at point `t`, the windows one by one, -/
def bodyPre1 (q : Fin cfg1.W → PosShare TreeShare) (c : Dev nD) (t : Fin cfg1.N) : sProp 𝕄 :=
  iprop((dat1 V q c).Φ t.castSucc ∗ (dat1 V q c).owesAt () t.castSucc
    ∗ (∃ d, owns (c : Thread nD τ) (st1_0 t) fullShare ((dat1 V q c).before 0 t d))
    ∗ (∃ d, owns (c : Thread nD τ) (st1_1 t) fullShare ((dat1 V q c).before 1 t d))
    ∗ (∃ d, owns (c : Thread nD τ) (st1_2 t) fullShare ((dat1 V q c).before 2 t d))
    ∗ (∃ d, owns (c : Thread nD τ) (st1_3 t) fullShare ((dat1 V q c).before 3 t d))
    ∗ (∃ d, owns (c : Thread nD τ) (st1_4 t) fullShare ((dat1 V q c).before 4 t d))
    ∗ (∃ d, owns (c : Thread nD τ) (st1_5 t) fullShare ((dat1 V q c).before 5 t d))
    ∗ (∃ d, owns (c : Thread nD τ) (st1_6 t) fullShare ((dat1 V q c).before 6 t d)))

/-- and what it returns. -/
def bodyPost1 (q : Fin cfg1.W → PosShare TreeShare) (c : Dev nD) (t : Fin cfg1.N) : sProp 𝕄 :=
  iprop((dat1 V q c).Φ t.succ ∗ (dat1 V q c).owesAt () t.succ
    ∗ owns (c : Thread nD τ) (st1_0 t) fullShare ((dat1 V q c).after 0 t)
    ∗ owns (c : Thread nD τ) (st1_1 t) fullShare ((dat1 V q c).after 1 t)
    ∗ owns (c : Thread nD τ) (st1_2 t) fullShare ((dat1 V q c).after 2 t)
    ∗ owns (c : Thread nD τ) (st1_3 t) fullShare ((dat1 V q c).after 3 t)
    ∗ owns (c : Thread nD τ) (st1_4 t) fullShare ((dat1 V q c).after 4 t)
    ∗ owns (c : Thread nD τ) (st1_5 t) fullShare ((dat1 V q c).after 5 t)
    ∗ owns (c : Thread nD τ) (st1_6 t) fullShare ((dat1 V q c).after 6 t))

/-- The body at any point: the inputs' memrefs hold their blocks, so the kernel's triple applies; the invariant and
    the core's `owes` pass through unread. -/
theorem sound_body1 (q : Fin cfg1.W → PosShare TreeShare) (c : Dev nD) (t : Fin cfg1.N) :
    bodyPre1 V q c t ⊢ wp frame (wpE (defs₀ (F := F)) Variants.none c none) Set.univ (bodyAt1 t) (fun _ => bodyPost1 V q c t) := by
  unfold bodyPre1 bodyPost1 bodyAt1
  simp only [before1_0, before1_1, before1_2, before1_3, before1_4, before1_5]
  rw [show (dat1 V q c).Φ t.succ = (dat1 V q c).Φ t.castSucc from rfl,
    show (dat1 V q c).owesAt () t.succ = (dat1 V q c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (q : Fin cfg1.W → PosShare TreeShare) (c : Dev nD) : BodyObligation (dat1 (F := F) V q c) (defs₀ (F := F)) Variants.none () Set.univ := fun t => by
  rw [bigSep_W1, bigSep_W1]
  exact sound_body1 V q c t

end Regions

end Cert.Kernel.Hand

end
-- ==== Proof.K.R2.lean ====
/- The body obligation of region 2 of the program, at any float instance: each window's block at a point read off the
   array as the region finds it; the body's one store as a piece over the whole output block; the body's triple; the
   proof data of the pipeline over the invariant of a body that stages nothing itself; the obligation at every point. -/
import proofs.«133321_j75213467287803_1_alg».proof.Proof.Gen.Kernel.Launch
import proofs.«133321_j75213467287803_1_alg».proof.Proof.Gen.Kernel.Skeleton
import proofs.«133321_j75213467287803_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural recursion goes once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

section Regions
-- the core's buffer contents when the region is entered: the parameter the region's half is stated at
variable (V : (c : Dev nD) → (b : Ref sig .tc) → Buf (Elt F) ((c : Thread nD τ).loc b))

/-! # REGION 2: the matrix product of a row block with the whole weight -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place: the window is uncut and never idle. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1 (the weight, whole, its index constant): the same, though it is fetched at the first point only. -/
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S2000x128 := Rect.unit (s := S2000x128) ![0, 0] S2000x128.size inb_S2000x128_S2000x128_0_0
abbrev r2_1 : Rect S128x128 := Rect.unit (s := S128x128) ![0, 0] S128x128.size inb_S128x128_S128x128_0_0
abbrev r2_2 : Rect S2000x128 := Rect.unit (s := S2000x128) ![0, 0] S2000x128.size inb_S2000x128_S2000x128_0_0

/-! ## What the body leaves in the output window's buffer -/

/-- Window 2's staging buffer after the body, from the input windows' blocks: its one store as a piece. -/
def out2_2 (x0 : Vec F S2000x128 .f32) (x1 : Vec F S128x128 .f32) : Vec F S2000x128 .f32 :=
  View.canon [⟨r2_2, k2_pay1 (View.ld x0 r2_0) (View.ld x1 r2_1)⟩]

/-- The store tiles the buffer, so it covers it. -/
theorem cover2_2 (p0 : Vec F S2000x128 .f32) (y : S2000x128.Idx) :
    ∃ pc ∈ ([⟨r2_2, p0⟩] : List (View.Piece (Elt F) S2000x128 .f32)), y ∈ pc.1.set :=
  View.cover_of_tiled [⟨r2_2, p0⟩] S2000x128.size (by rfl) y

/-! ## The body's triple -/

set_option maxHeartbeats 1000000 in
/-- The kernel body on whole staging memrefs, the inputs' at read contents and the output's at anything, runs to
    the continuation holding the inputs' as they were and the output's at `out2_2` of the inputs'. -/
theorem sound_kernel2 (c : Dev nD) (E : Set ℕ) (i : grid2.Coords) (arg1 : Memref sig .tc .vmem S2000x128 .f32) (harg1 : arg1.IsWhole) (arg2 : Memref sig .tc .vmem S128x128 .f32) (harg2 : arg2.IsWhole) (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of the pipeline on core `c`: the arrays as the region finds them; after the body at point `t`
    each input's buffer at its block and the output's at `out2_2` of the input blocks; the invariant of a body
    that stages nothing itself; nothing owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and
    the core's owed waits pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Regions

end Cert.Kernel.Hand

end
-- ==== Proof.K.R3.lean ====
/- The body obligation of region 3: at every point of the grid, the gate kernel on the windows' current staging
   buffers — each input's at its block of the region-entry contents, the output's at anything — runs to the same
   buffers with the output's at the one whole-block store's payload of the input blocks. Generic in the float
   instance. -/
import proofs.«133321_j75213467287803_1_alg».proof.Proof.Gen.Kernel.Launch
import proofs.«133321_j75213467287803_1_alg».proof.Proof.Gen.Kernel.Skeleton
import proofs.«133321_j75213467287803_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s and whose body leaves the block in place: unfetched, the index has not moved; the window is
    uncut and never idle. -/
theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for any proof
    data whose array is `V`'s and whose body leaves the block in place: unfetched, the index has not moved; the window is
    uncut and never idle. -/
theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for any proof
    data whose array is `V`'s and whose body leaves the block in place: unfetched, the index has not moved; the window is
    uncut and never idle. -/
theorem before3_2_of {c : Dev nD} (dat : Dat τ (Elt F) Unit ℕ (Pipeline.UD sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not, for any proof
    data whose array is `V`'s and whose body leaves the block in place: unfetched, the index has not moved; the window is
    uncut and never idle. -/
theorem before3_3_of {c : Dev nD} (dat : Dat τ (Elt F) Unit ℕ (Pipeline.UD sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not, for any proof
    data whose array is `V`'s and whose body leaves the block in place: unfetched, the index has not moved; the window is
    uncut and never idle. -/
theorem before3_4_of {c : Dev nD} (dat : Dat τ (Elt F) Unit ℕ (Pipeline.UD sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- Input window 5's current staging buffer holds its block at every point, fetched there or not, for any proof
    data whose array is `V`'s and whose body leaves the block in place: unfetched, the index has not moved; the window is
    uncut and never idle. -/
theorem before3_5_of {c : Dev nD} (dat : Dat τ (Elt F) Unit ℕ (Pipeline.UD sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: the whole-block rectangles -/

abbrev r3_0 : Rect S2000x128 := Rect.unit (s := S2000x128) ![0, 0] S2000x128.size inb_S2000x128_S2000x128_0_0
abbrev r3_2 : Rect S128 := Rect.unit (s := S128) ![0] S128.size inb_S128_S128_0
abbrev r3_4 : Rect S1 := Rect.unit (s := S1) ![0] S1.size inb_S1_S1_0

/-! ## What the body leaves in the output window's buffer -/

/-- Window 6's staging buffer after the body, from the input windows' blocks: its one store as a piece. -/
def out3_6 (x0 : Vec F S2000x128 .f32) (x1 : Vec F S2000x128 .f32) (x2 : Vec F S128 .f32) (x3 : Vec F S128 .f32) (x4 : Vec F S1 .f32) (x5 : Vec F S1 .f32) : Vec F S2000x128 .f32 :=
  View.canon [⟨r3_0, k3_pay1 (View.ld x0 r3_0) (View.ld x1 r3_0) (View.ld x2 r3_2) (View.ld x3 r3_2) (View.ld x4 r3_4) (View.ld x5 r3_4)⟩]

/-- The one store is the whole block, so it covers it. -/
theorem cover3_6 (p0 : Vec F S2000x128 .f32) (y : S2000x128.Idx) :
    ∃ pc ∈ ([⟨r3_0, p0⟩] : List (View.Piece (Elt F) S2000x128 .f32)), y ∈ pc.1.set :=
  View.cover_of_tiled [⟨r3_0, p0⟩] S2000x128.size (by rfl) y

/-! ## The body's triple -/

set_option maxHeartbeats 1000000 in
/-- The kernel body on whole staging memrefs, the inputs' at read contents `xW` and the output's at anything, runs to
    the continuation holding the inputs' as they were and the output's at `out3_6` of the inputs'. -/
theorem sound_kernel3 (c : Dev nD) (E : Set ℕ) (i : grid3.Coords) (arg1 : Memref sig .tc .vmem S2000x128 .f32) (harg1 : arg1.IsWhole) (arg2 : Memref sig .tc .vmem S2000x128 .f32) (harg2 : arg2.IsWhole) (arg3 : Memref sig .tc .vmem S128 .f32) (harg3 : arg3.IsWhole) (arg4 : Memref sig .tc .vmem S128 .f32) (harg4 : arg4.IsWhole) (arg5 : Memref sig .tc .vmem S1 .f32) (harg5 : arg5.IsWhole) (arg6 : Memref sig .tc .vmem S1 .f32) (harg6 : arg6.IsWhole) (arg7 : Memref sig .tc .vmem S2000x128 .f32) (harg7 : arg7.IsWhole)
    (x0 : Vec F S2000x128 .f32) (x1 : Vec F S2000x128 .f32) (x2 : Vec F S128 .f32) (x3 : Vec F S128 .f32) (x4 : Vec F S1 .f32) (x5 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out3_6 x0 x1 x2 x3 x4 x5)) -∗ K ⟨⟩))
      ⊢ wp frame (wpE (defs₀ (F := F)) Variants.none c none) E (cc3__gate_kernel i arg1 harg1 arg2 harg2 arg3 harg3 arg4 harg4 arg5 harg5 arg6 harg6 arg7 harg7) K := by
  simp only [cc3__gate_kernel_eq_skeleton]; unfold cc3__gate_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

/-! ## The pipeline's proof data -/

/-- The proof data of pipeline 3 on core `c`: the arrays as the region finds them (`V`); after the body at
    point `t` each input's buffer at its block and the output's at `out3_6` of the input blocks; the invariant the
    scoped rest and the generator register, untouched; nothing owed; the inputs' shares a parameter (two input
    windows may read one array). -/
def dat3 (q : Fin cfg3.W → PosShare TreeShare) (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q := q
  owed _ := 0

/-- The proof data's arrays are the region-entry contents. -/
theorem A_eq3 (q : Fin cfg3.W → PosShare TreeShare) (c : Dev nD) (w : Fin cfg3.W) : (dat3 V q c).A w = V c (Pipeline.arrRef spec3 w) := by
  dsimp only [dat3]

/-- What the body leaves, window by window. -/
theorem after3_0 (q : Fin cfg3.W → PosShare TreeShare) (c : Dev nD) (t : Fin cfg3.N) : (dat3 V q c).after 0 t = iblk3 V c 0 t := by dsimp only [dat3]
theorem after3_1 (q : Fin cfg3.W → PosShare TreeShare) (c : Dev nD) (t : Fin cfg3.N) : (dat3 V q c).after 1 t = iblk3 V c 1 t := by dsimp only [dat3]
theorem after3_2 (q : Fin cfg3.W → PosShare TreeShare) (c : Dev nD) (t : Fin cfg3.N) : (dat3 V q c).after 2 t = iblk3 V c 2 t := by dsimp only [dat3]
theorem after3_3 (q : Fin cfg3.W → PosShare TreeShare) (c : Dev nD) (t : Fin cfg3.N) : (dat3 V q c).after 3 t = iblk3 V c 3 t := by dsimp only [dat3]
theorem after3_4 (q : Fin cfg3.W → PosShare TreeShare) (c : Dev nD) (t : Fin cfg3.N) : (dat3 V q c).after 4 t = iblk3 V c 4 t := by dsimp only [dat3]
theorem after3_5 (q : Fin cfg3.W → PosShare TreeShare) (c : Dev nD) (t : Fin cfg3.N) : (dat3 V q c).after 5 t = iblk3 V c 5 t := by dsimp only [dat3]
theorem after3_6 (q : Fin cfg3.W → PosShare TreeShare) (c : Dev nD) (t : Fin cfg3.N) : (dat3 V q c).after 6 t = out3_6 (iblk3 V c 0 t) (iblk3 V c 1 t) (iblk3 V c 2 t) (iblk3 V c 3 t) (iblk3 V c 4 t) (iblk3 V c 5 t) := by dsimp only [dat3]

/-- Each input's current staging buffer holds its block at every point, fetched there or not. -/
theorem before3_0 (q : Fin cfg3.W → PosShare TreeShare) (c : Dev nD) (t : Fin cfg3.N) (d) : (dat3 V q c).before 0 t d = iblk3 V c 0 t :=
  before3_0_of V (dat3 V q c) (A_eq3 V q c 0) (after3_0 V q c) t d
theorem before3_1 (q : Fin cfg3.W → PosShare TreeShare) (c : Dev nD) (t : Fin cfg3.N) (d) : (dat3 V q c).before 1 t d = iblk3 V c 1 t :=
  before3_1_of V (dat3 V q c) (A_eq3 V q c 1) (after3_1 V q c) t d
theorem before3_2 (q : Fin cfg3.W → PosShare TreeShare) (c : Dev nD) (t : Fin cfg3.N) (d) : (dat3 V q c).before 2 t d = iblk3 V c 2 t :=
  before3_2_of V (dat3 V q c) (A_eq3 V q c 2) (after3_2 V q c) t d
theorem before3_3 (q : Fin cfg3.W → PosShare TreeShare) (c : Dev nD) (t : Fin cfg3.N) (d) : (dat3 V q c).before 3 t d = iblk3 V c 3 t :=
  before3_3_of V (dat3 V q c) (A_eq3 V q c 3) (after3_3 V q c) t d
theorem before3_4 (q : Fin cfg3.W → PosShare TreeShare) (c : Dev nD) (t : Fin cfg3.N) (d) : (dat3 V q c).before 4 t d = iblk3 V c 4 t :=
  before3_4_of V (dat3 V q c) (A_eq3 V q c 4) (after3_4 V q c) t d
theorem before3_5 (q : Fin cfg3.W → PosShare TreeShare) (c : Dev nD) (t : Fin cfg3.N) (d) : (dat3 V q c).before 5 t d = iblk3 V c 5 t :=
  before3_5_of V (dat3 V q c) (A_eq3 V q c 5) (after3_5 V q c) t d

/-! ## The body obligation, at a generic point -/

/-- What the body is called with at point `t`, the windows one by one, -/
def bodyPre3 (q : Fin cfg3.W → PosShare TreeShare) (c : Dev nD) (t : Fin cfg3.N) : sProp 𝕄 :=
  iprop((dat3 V q c).Φ t.castSucc ∗ (dat3 V q c).owesAt () t.castSucc
    ∗ (∃ d, owns (c : Thread nD τ) (st3_0 t) fullShare ((dat3 V q c).before 0 t d))
    ∗ (∃ d, owns (c : Thread nD τ) (st3_1 t) fullShare ((dat3 V q c).before 1 t d))
    ∗ (∃ d, owns (c : Thread nD τ) (st3_2 t) fullShare ((dat3 V q c).before 2 t d))
    ∗ (∃ d, owns (c : Thread nD τ) (st3_3 t) fullShare ((dat3 V q c).before 3 t d))
    ∗ (∃ d, owns (c : Thread nD τ) (st3_4 t) fullShare ((dat3 V q c).before 4 t d))
    ∗ (∃ d, owns (c : Thread nD τ) (st3_5 t) fullShare ((dat3 V q c).before 5 t d))
    ∗ (∃ d, owns (c : Thread nD τ) (st3_6 t) fullShare ((dat3 V q c).before 6 t d)))

/-- and what it returns. -/
def bodyPost3 (q : Fin cfg3.W → PosShare TreeShare) (c : Dev nD) (t : Fin cfg3.N) : sProp 𝕄 :=
  iprop((dat3 V q c).Φ t.succ ∗ (dat3 V q c).owesAt () t.succ
    ∗ owns (c : Thread nD τ) (st3_0 t) fullShare ((dat3 V q c).after 0 t)
    ∗ owns (c : Thread nD τ) (st3_1 t) fullShare ((dat3 V q c).after 1 t)
    ∗ owns (c : Thread nD τ) (st3_2 t) fullShare ((dat3 V q c).after 2 t)
    ∗ owns (c : Thread nD τ) (st3_3 t) fullShare ((dat3 V q c).after 3 t)
    ∗ owns (c : Thread nD τ) (st3_4 t) fullShare ((dat3 V q c).after 4 t)
    ∗ owns (c : Thread nD τ) (st3_5 t) fullShare ((dat3 V q c).after 5 t)
    ∗ owns (c : Thread nD τ) (st3_6 t) fullShare ((dat3 V q c).after 6 t))

/-- The body at any point: the inputs' memrefs hold their blocks, so the kernel's triple applies; the invariant and
    the core's `owes` pass through unread. -/
theorem sound_body3 (q : Fin cfg3.W → PosShare TreeShare) (c : Dev nD) (t : Fin cfg3.N) :
    bodyPre3 V q c t ⊢ wp frame (wpE (defs₀ (F := F)) Variants.none c none) Set.univ (bodyAt3 t) (fun _ => bodyPost3 V q c t) := by
  unfold bodyPre3 bodyPost3 bodyAt3
  simp only [before3_0, before3_1, before3_2, before3_3, before3_4, before3_5]
  rw [show (dat3 V q c).Φ t.succ = (dat3 V q c).Φ t.castSucc from rfl,
    show (dat3 V q c).owesAt () t.succ = (dat3 V q c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ (grid3.coords t) _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation3 (q : Fin cfg3.W → PosShare TreeShare) (c : Dev nD) : BodyObligation (dat3 (F := F) V q c) (defs₀ (F := F)) Variants.none () Set.univ := fun t => by
  rw [bigSep_W3, bigSep_W3]
  exact sound_body3 V q c t

end Regions

end Cert.Kernel.Hand

end
-- ==== Proof.K.R4.lean ====
/- The body obligation of custom_call 4's pipeline (region 4 of @main), for any float instance: each input
   window's staging buffer holds its block at every grid point, the kernel body
   run on whole staging memrefs leaves the output's buffer at one whole-block store of the payload of the loaded
   blocks, and the pipeline's proof data over the untouched-rest invariant meet the library's body obligation. -/
import proofs.«133321_j75213467287803_1_alg».proof.Proof.Gen.Kernel.Launch
import proofs.«133321_j75213467287803_1_alg».proof.Proof.Gen.Kernel.Skeleton
import proofs.«133321_j75213467287803_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not (when it is not
    fetched its block index has not moved), for any proof data whose array is `V`'s and whose body leaves the block
    in place; the window is uncut and never idle. -/
theorem before4_0_of {c : Dev nD} (dat : Dat τ (Elt F) Unit ℕ (Pipeline.UD sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's current staging buffer holds its block at every point, fetched there or not (when it is not
    fetched its block index has not moved), for any proof data whose array is `V`'s and whose body leaves the block
    in place; the window is uncut and never idle. -/
theorem before4_1_of {c : Dev nD} (dat : Dat τ (Elt F) Unit ℕ (Pipeline.UD sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2's current staging buffer holds its block at every point, fetched there or not (when it is not
    fetched its block index has not moved), for any proof data whose array is `V`'s and whose body leaves the block
    in place; the window is uncut and never idle. -/
theorem before4_2_of {c : Dev nD} (dat : Dat τ (Elt F) Unit ℕ (Pipeline.UD sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- Input window 3's current staging buffer holds its block at every point, fetched there or not (when it is not
    fetched its block index has not moved), for any proof data whose array is `V`'s and whose body leaves the block
    in place; the window is uncut and never idle. -/
theorem before4_3_of {c : Dev nD} (dat : Dat τ (Elt F) Unit ℕ (Pipeline.UD sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
/-- Input window 4's current staging buffer holds its block at every point, fetched there or not (when it is not
    fetched its block index has not moved), for any proof data whose array is `V`'s and whose body leaves the block
    in place; the window is uncut and never idle. -/
theorem before4_4_of {c : Dev nD} (dat : Dat τ (Elt F) Unit ℕ (Pipeline.UD sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each block whole -/

abbrev r4_0 : Rect S2000x128 := Rect.unit (s := S2000x128) ![0, 0] S2000x128.size inb_S2000x128_S2000x128_0_0
abbrev r4_1 : Rect S128x128 := Rect.unit (s := S128x128) ![0, 0] S128x128.size inb_S128x128_S128x128_0_0
abbrev r4_2 : Rect S1 := Rect.unit (s := S1) ![0] S1.size inb_S1_S1_0
abbrev r4_3 : Rect S128x64 := Rect.unit (s := S128x64) ![0, 0] S128x64.size inb_S128x64_S128x64_0_0
abbrev r4_4 : Rect S64 := Rect.unit (s := S64) ![0] S64.size inb_S64_S64_0
abbrev r4_5 : Rect S2000x64 := Rect.unit (s := S2000x64) ![0, 0] S2000x64.size inb_S2000x64_S2000x64_0_0

/-! ## What the body leaves in the output window's buffer -/

/-- Window 5's staging buffer after the body, from the input windows' blocks: its one whole-block store. -/
def out4_5 (x0 : Vec F S2000x128 .f32) (x1 : Vec F S128x128 .f32) (x2 : Vec F S1 .f32) (x3 : Vec F S128x64 .f32) (x4 : Vec F S64 .f32) : Vec F S2000x64 .f32 :=
  View.canon [⟨r4_5, k4_pay1 (View.ld x0 r4_0) (View.ld x1 r4_1) (View.ld x2 r4_2) (View.ld x3 r4_3) (View.ld x4 r4_4)⟩]

/-- The one store tiles the buffer, so it covers it. -/
theorem cover4_5 (p0 : Vec F S2000x64 .f32) (y : S2000x64.Idx) :
    ∃ pc ∈ ([⟨r4_5, p0⟩] : List (View.Piece (Elt F) S2000x64 .f32)), y ∈ pc.1.set :=
  View.cover_of_tiled [⟨r4_5, p0⟩] S2000x64.size (by rfl) y

/-! ## The body's triple -/

set_option maxHeartbeats 1000000 in
/-- The kernel body on whole staging memrefs, the inputs' at read contents `xW` and the output's at anything, runs to
    the continuation holding the inputs' as they were and the output's at `out4_5` of the inputs'. -/
theorem sound_kernel4 (c : Dev nD) (E : Set ℕ) (i : grid4.Coords) (arg1 : Memref sig .tc .vmem S2000x128 .f32) (harg1 : arg1.IsWhole) (arg2 : Memref sig .tc .vmem S128x128 .f32) (harg2 : arg2.IsWhole) (arg3 : Memref sig .tc .vmem S1 .f32) (harg3 : arg3.IsWhole) (arg4 : Memref sig .tc .vmem S128x64 .f32) (harg4 : arg4.IsWhole) (arg5 : Memref sig .tc .vmem S64 .f32) (harg5 : arg5.IsWhole) (arg6 : Memref sig .tc .vmem S2000x64 .f32) (harg6 : arg6.IsWhole)
    (x0 : Vec F S2000x128 .f32) (x1 : Vec F S128x128 .f32) (x2 : Vec F S1 .f32) (x3 : Vec F S128x64 .f32) (x4 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out4_5 x0 x1 x2 x3 x4)) -∗ K ⟨⟩))
      ⊢ wp frame (wpE (defs₀ (F := F)) Variants.none c none) E (cc4__final_kernel i arg1 harg1 arg2 harg2 arg3 harg3 arg4 harg4 arg5 harg5 arg6 harg6) K := by
  simp only [cc4__final_kernel_eq_skeleton]; unfold cc4__final_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-! ## The pipeline's proof data -/

/-- The proof data of pipeline 4 on core `c`: the arrays as the region finds them (`V`); after the body at point `t`
    each input's buffer at its block and the output's at `out4_5` of the input blocks; the invariant is the
    untouched rest (the scoped rest and the generator register); nothing owed; full shares. -/
def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the inputs' memrefs hold their blocks, so the body's triple applies; the invariant and
    the core's owed waits pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ (grid4.coords t) _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation4 (c : Dev nD) : BodyObligation (dat4 (F := F) V c) (defs₀ (F := F)) Variants.none () Set.univ := fun t => by
  rw [bigSep_W4, bigSep_W4]
  exact sound_body4 V c t

end Regions

end Cert.Kernel.Hand

end
-- ==== Proof.K.Chain.lean ====
/- The contents of the core's unscoped buffers between the program's items: the launch contents, then each stretch of
   host operations applied, then each kernel region's result array at what the region's write-backs leave. -/
import proofs.«133321_j75213467287803_1_alg».proof.Proof.K.R0
import proofs.«133321_j75213467287803_1_alg».proof.Proof.K.R1
import proofs.«133321_j75213467287803_1_alg».proof.Proof.K.R2
import proofs.«133321_j75213467287803_1_alg».proof.Proof.K.R3
import proofs.«133321_j75213467287803_1_alg».proof.Proof.K.R4
import proofs.«133321_j75213467287803_1_alg».proof.Proof.Gen.Kernel.Regions

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ)

/-- The shares of region 1's arrays: its two row-block inputs read ONE array, each at half of it. -/
def q1 : Fin cfg1.W → PosShare TreeShare := fun w => match w with
  | ⟨0, _⟩ => fullShare.left
  | ⟨1, _⟩ => fullShare.right
  | _ => fullShare
/-- Region 3's arrays are distinct: each whole. -/
def q3 : Fin cfg3.W → PosShare TreeShare := fun _ => fullShare

/-- At launch. -/
abbrev W0 (c : Dev nD) : Valuation τ sig (Elt F) := fun b => m (c, b)
/-- After the first stretch of host operations (region 0's entry). -/
abbrev W1 (c : Dev nD) : Valuation τ sig (Elt F) := StableHlo.after hostOps0 (W0 m c)
/-- The same read at the core's references. -/
abbrev U1 : (c : Dev nD) → (b : Ref sig .tc) → Buf (Elt F) ((c : Thread nD τ).loc b) := fun c b => W1 m c b
/-- After region 0: its result array at what its write-backs leave (region 1's entry). -/
def W2 (c : Dev nD) : Valuation τ sig (Elt F) := Function.update (W1 m c) main_v17 ((dat0 (U1 m) c).arrAt 2 cfg0.N)
abbrev U2 : (c : Dev nD) → (b : Ref sig .tc) → Buf (Elt F) ((c : Thread nD τ).loc b) := fun c b => W2 m c b
/-- After region 1. -/
def W3 (c : Dev nD) : Valuation τ sig (Elt F) := Function.update (W2 m c) main_v18 ((dat1 (U2 m) q1 c).arrAt 6 cfg1.N)
/-- After the second stretch of host operations (region 2's entry). -/
def W4 (c : Dev nD) : Valuation τ sig (Elt F) := StableHlo.after hostOps2 (W3 m c)
abbrev U4 : (c : Dev nD) → (b : Ref sig .tc) → Buf (Elt F) ((c : Thread nD τ).loc b) := fun c b => W4 m c b
/-- After region 2 (region 3's entry). -/
def W5 (c : Dev nD) : Valuation τ sig (Elt F) := Function.update (W4 m c) main_v34 ((dat2 (U4 m) c).arrAt 2 cfg2.N)
abbrev U5 : (c : Dev nD) → (b : Ref sig .tc) → Buf (Elt F) ((c : Thread nD τ).loc b) := fun c b => W5 m c b
/-- After region 3. -/
def W6 (c : Dev nD) : Valuation τ sig (Elt F) := Function.update (W5 m c) main_v35 ((dat3 (U5 m) q3 c).arrAt 6 cfg3.N)
/-- After the third stretch of host operations (region 4's entry). -/
def W7 (c : Dev nD) : Valuation τ sig (Elt F) := StableHlo.after hostOps4 (W6 m c)
abbrev U7 : (c : Dev nD) → (b : Ref sig .tc) → Buf (Elt F) ((c : Thread nD τ).loc b) := fun c b => W7 m c b
/-- After region 4: the program's end. -/
def W8 (c : Dev nD) : Valuation τ sig (Elt F) := Function.update (W7 m c) main_v51 ((dat4 (U7 m) c).arrAt 5 cfg4.N)

end Cert.Kernel.Hand

end
-- ==== Proof.K.Run.lean ====
/- The program's run, at any float instance: the five kernel regions and the three stretches of host operations between
   them as segments over one thread state — every unscoped buffer of the core held at the contents the items before it
   left —, and the launch over them: every weakly fair execution terminates, nothing faulting, with every unscoped buffer at
   the last contents. Region 1 reads ONE array through two input windows: the array is held at half a share for each. -/
import proofs.«133321_j75213467287803_1_alg».proof.Proof.K.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

/-- The distinct buffers behind region 1's seven windows (two windows read main_v17). -/
theorem img1 : Finset.univ.image (Pipeline.arrRef spec1)
    = ([main_v17, main_v1, main_v3, main_arg7, main_arg10, main_v18] : List (Ref sig .tc)).toFinset := by decide
theorem nodup1 : ([main_v17, main_v1, main_v3, main_arg7, main_arg10, main_v18] : List (Ref sig .tc)).Nodup := by decide

variable {F : FTy → Type} [FloatOps F]

local notation "𝕄" => MT nD τ sig Unit (Elt F) ℕ (Pipeline.UD sig nD τ) ℕ

variable (m : (ℓ : Loc nD τ sig) → Buf (Elt F) ℓ)

/-! ## The contents after each region: the result array replaced, every other buffer kept -/

abbrev U3 : (c : Dev nD) → (b : Ref sig .tc) → Buf (Elt F) ((c : Thread nD τ).loc b) := fun c b => W3 m c b
abbrev U6 : (c : Dev nD) → (b : Ref sig .tc) → Buf (Elt F) ((c : Thread nD τ).loc b) := fun c b => W6 m c b
abbrev U8 : (c : Dev nD) → (b : Ref sig .tc) → Buf (Elt F) ((c : Thread nD τ).loc b) := fun c b => W8 m c b

theorem W2_out (c : Dev nD) : W2 m c main_v17 = (dat0 (U1 m) c).arrAt 2 cfg0.N := by unfold W2; exact Function.update_self _ _ _
theorem W2_of_ne (c : Dev nD) (b : Ref sig .tc) (h : main_v17 ≠ b) : W2 m c b = W1 m c b := by
  unfold W2; exact Function.update_of_ne (StableHlo.devRef_ne_of_ne (Ne.symm h)) _ _

theorem W3_out (c : Dev nD) : W3 m c main_v18 = (dat1 (U2 m) q1 c).arrAt 6 cfg1.N := by unfold W3; exact Function.update_self _ _ _
theorem W3_of_ne (c : Dev nD) (b : Ref sig .tc) (h : main_v18 ≠ b) : W3 m c b = W2 m c b := by
  unfold W3; exact Function.update_of_ne (StableHlo.devRef_ne_of_ne (Ne.symm h)) _ _

theorem W5_out (c : Dev nD) : W5 m c main_v34 = (dat2 (U4 m) c).arrAt 2 cfg2.N := by unfold W5; exact Function.update_self _ _ _
theorem W5_of_ne (c : Dev nD) (b : Ref sig .tc) (h : main_v34 ≠ b) : W5 m c b = W4 m c b := by
  unfold W5; exact Function.update_of_ne (StableHlo.devRef_ne_of_ne (Ne.symm h)) _ _

theorem W6_out (c : Dev nD) : W6 m c main_v35 = (dat3 (U5 m) q3 c).arrAt 6 cfg3.N := by unfold W6; exact Function.update_self _ _ _
theorem W6_of_ne (c : Dev nD) (b : Ref sig .tc) (h : main_v35 ≠ b) : W6 m c b = W5 m c b := by
  unfold W6; exact Function.update_of_ne (StableHlo.devRef_ne_of_ne (Ne.symm h)) _ _

theorem W8_out (c : Dev nD) : W8 m c main_v51 = (dat4 (U7 m) c).arrAt 5 cfg4.N := by unfold W8; exact Function.update_self _ _ _
theorem W8_of_ne (c : Dev nD) (b : Ref sig .tc) (h : main_v51 ≠ b) : W8 m c b = W7 m c b := by
  unfold W8; exact Function.update_of_ne (StableHlo.devRef_ne_of_ne (Ne.symm h)) _ _

/-! ## The proof data family and the thread state -/

/-- Every pipeline's proof data, each at its region's entry contents: a literal match, so that the pinned configuration
    at a numeral reduces to the printed one. -/
def pdats : (p : Fin 5) → (c : Dev nD) → Dat τ (Elt F) Unit ℕ (Pipeline.UD sig nD τ) ℕ (Pipeline.pin (pcfgs (F := F)) adm p) c
  | ⟨0, _⟩ => fun c => dat0 (U1 m) c
  | ⟨1, _⟩ => fun c => dat1 (U2 m) q1 c
  | ⟨2, _⟩ => fun c => dat2 (U4 m) c
  | ⟨3, _⟩ => fun c => dat3 (U5 m) q3 c
  | ⟨4, _⟩ => fun c => dat4 (U7 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A stretch of host operations as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owed waits: every unscoped buffer at the last contents, the generator register at some state. -/
abbrev Tₙ (c : Dev nD) : sProp 𝕄 := iprop(StableHlo.held (c : Thread nD τ) (Pipeline.ucRefs τ sig) (W8 m c) ∗ ∃ r, prngReg c r)

/-! ## Regions 0, 2, 3, 4: distinct arrays -/

theorem hF0 (c : Dev nD) : ∀ w : Fin cfg0.W, (dat0 (U1 m) c).arrAt w cfg0.N = U2 m c (Pipeline.arrRef spec0 w) := by
  intro w
  by_cases hw : (cfg0.win w).isOut = true
  · obtain rfl : w = 2 := (by decide : ∀ w : Fin cfg0.W, (cfg0.win w).isOut = true → w = 2) w hw
    exact (W2_out m c).symm
  · have hne : main_v17 ≠ Pipeline.arrRef spec0 w :=
      (by decide : ∀ w : Fin cfg0.W, ¬ (cfg0.win w).isOut = true → main_v17 ≠ Pipeline.arrRef spec0 w) w hw
    exact ((dat0 (U1 m) c).arrAt_in w (Bool.eq_false_iff.mpr hw) _).trans ((A_eq0 (U1 m) c w).trans (W2_of_ne m c _ hne).symm)
theorem hrest0 (c : Dev nD) : ∀ b, b ∉ Finset.univ.image (Pipeline.arrRef spec0) → U2 m c b = U1 m c b :=
  fun b hb => W2_of_ne m c b fun e => hb (Finset.mem_image.mpr ⟨2, Finset.mem_univ _, e⟩)

-- the pinned configuration equals the printed one by unfolding plain definitions
set_option backward.isDefEq.respectTransparency.types false in
/-- Region 0 over the thread state: entered from every unscoped buffer at the contents before it, left at the contents after
    it. Its arrays are split out of the unscoped buffers and put back at the exit contents; the generator register goes into the
    invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF2 (c : Dev nD) : ∀ w : Fin cfg2.W, (dat2 (U4 m) c).arrAt w cfg2.N = U5 m c (Pipeline.arrRef spec2 w) := by
  intro w
  by_cases hw : (cfg2.win w).isOut = true
  · obtain rfl : w = 2 := (by decide : ∀ w : Fin cfg2.W, (cfg2.win w).isOut = true → w = 2) w hw
    exact (W5_out m c).symm
  · have hne : main_v34 ≠ Pipeline.arrRef spec2 w :=
      (by decide : ∀ w : Fin cfg2.W, ¬ (cfg2.win w).isOut = true → main_v34 ≠ Pipeline.arrRef spec2 w) w hw
    exact ((dat2 (U4 m) c).arrAt_in w (Bool.eq_false_iff.mpr hw) _).trans ((A_eq2 (U4 m) c w).trans (W5_of_ne m c _ hne).symm)
theorem hrest2 (c : Dev nD) : ∀ b, b ∉ Finset.univ.image (Pipeline.arrRef spec2) → U5 m c b = U4 m c b :=
  fun b hb => W5_of_ne m c b fun e => hb (Finset.mem_image.mpr ⟨2, Finset.mem_univ _, e⟩)

-- the pinned configuration equals the printed one by unfolding plain definitions
set_option backward.isDefEq.respectTransparency.types false in
/-- Region 2 over the thread state: entered from every unscoped buffer at the contents before it, left at the contents after
    it. Its arrays are split out of the unscoped buffers and put back at the exit contents; the generator register goes into the
    invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := Pipeline.UD sig nD τ) (Lvl := ℕ) spec2 c (U4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m) ((pdats m 2 c).share_full fun _ => rfl)
      (U4 m c) (U5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF3 (c : Dev nD) : ∀ w : Fin cfg3.W, (dat3 (U5 m) q3 c).arrAt w cfg3.N = U6 m c (Pipeline.arrRef spec3 w) := by
  intro w
  by_cases hw : (cfg3.win w).isOut = true
  · obtain rfl : w = 6 := (by decide : ∀ w : Fin cfg3.W, (cfg3.win w).isOut = true → w = 6) w hw
    exact (W6_out m c).symm
  · have hne : main_v35 ≠ Pipeline.arrRef spec3 w :=
      (by decide : ∀ w : Fin cfg3.W, ¬ (cfg3.win w).isOut = true → main_v35 ≠ Pipeline.arrRef spec3 w) w hw
    exact ((dat3 (U5 m) q3 c).arrAt_in w (Bool.eq_false_iff.mpr hw) _).trans ((A_eq3 (U5 m) q3 c w).trans (W6_of_ne m c _ hne).symm)
theorem hrest3 (c : Dev nD) : ∀ b, b ∉ Finset.univ.image (Pipeline.arrRef spec3) → U6 m c b = U5 m c b :=
  fun b hb => W6_of_ne m c b fun e => hb (Finset.mem_image.mpr ⟨6, Finset.mem_univ _, e⟩)

-- the pinned configuration equals the printed one by unfolding plain definitions
set_option backward.isDefEq.respectTransparency.types false in
/-- Region 3 over the thread state: entered from every unscoped buffer at the contents before it, left at the contents after
    it. Its arrays are split out of the unscoped buffers and put back at the exit contents; the generator register goes into the
    invariant and comes out; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U5 m) q3 c).loose
  hwaits := Pipeline.hwaits_of_owed_zero _ _ _ _ L lv 3 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := Pipeline.UD sig nD τ) (Lvl := ℕ) spec3 c (U5 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := Pipeline.UD sig nD τ) (Lvl := ℕ)
      launch3.win launch3.arr_whole c (pdats m) ((pdats m 3 c).share_full fun _ => rfl)
      (U5 m c) (U6 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF4 (c : Dev nD) : ∀ w : Fin cfg4.W, (dat4 (U7 m) c).arrAt w cfg4.N = U8 m c (Pipeline.arrRef spec4 w) := by
  intro w
  by_cases hw : (cfg4.win w).isOut = true
  · obtain rfl : w = 5 := (by decide : ∀ w : Fin cfg4.W, (cfg4.win w).isOut = true → w = 5) w hw
    exact (W8_out m c).symm
  · have hne : main_v51 ≠ Pipeline.arrRef spec4 w :=
      (by decide : ∀ w : Fin cfg4.W, ¬ (cfg4.win w).isOut = true → main_v51 ≠ Pipeline.arrRef spec4 w) w hw
    exact ((dat4 (U7 m) c).arrAt_in w (Bool.eq_false_iff.mpr hw) _).trans ((A_eq4 (U7 m) c w).trans (W8_of_ne m c _ hne).symm)
theorem hrest4 (c : Dev nD) : ∀ b, b ∉ Finset.univ.image (Pipeline.arrRef spec4) → U8 m c b = U7 m c b :=
  fun b hb => W8_of_ne m c b fun e => hb (Finset.mem_image.mpr ⟨5, Finset.mem_univ _, e⟩)

-- the pinned configuration equals the printed one by unfolding plain definitions
set_option backward.isDefEq.respectTransparency.types false in
/-- Region 4 over the thread state: entered from every unscoped buffer at the contents before it, left at the contents after
    it. Its arrays are split out of the unscoped buffers and put back at the exit contents; the generator register goes into the
    invariant and comes out; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (U7 m) c).loose
  hwaits := Pipeline.hwaits_of_owed_zero _ _ _ _ L lv 4 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec4 c (U7 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (U7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := Pipeline.UD sig nD τ) (Lvl := ℕ)
      launch4.win launch4.arr_whole c (pdats m) ((pdats m 4 c).share_full fun _ => rfl)
      (U7 m c) (U8 m c) ((pdats m 4 c).arrAt · cfg4.N) (hF4 m c) (hrest4 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## Region 1: two input windows on one array -/

/-- The pipeline's arrays at any shares, every array a whole buffer. -/
theorem arrays1_eq (c : Dev nD) (F' : (w : Fin cfg1.W) → Buf (Elt F) ((cfg1.win w).arr.view.loc (c : Thread nD τ))) :
    ((dat1 (U2 m) q1 c).arrays F' : sProp 𝕄)
      = bigSep Finset.univ fun w => (((c : Thread nD τ).loc (Pipeline.arrRef spec1 w)) ↦{(dat1 (U2 m) q1 c).share w} F' w : sProp 𝕄) := by
  unfold Dat.arrays
  exact bigSep_congr fun w _ => by rw [(arr_whole1 w).set_eq_univ]

/-- The distinct buffers behind region 1's seven windows, one by one. -/
theorem arrBufs1_eq (c : Dev nD) (V : (b : Ref sig .tc) → Buf (Elt F) ((c : Thread nD τ).loc b)) :
    (Pipeline.arrBufs (Pipeline.pin (pcfgs (F := F)) adm 1).spec c V : sProp 𝕄)
      = iprop((((c : Thread nD τ).loc main_v17) ↦{fullShare} V main_v17) ∗ (((c : Thread nD τ).loc main_v1) ↦{fullShare} V main_v1)
          ∗ (((c : Thread nD τ).loc main_v3) ↦{fullShare} V main_v3) ∗ (((c : Thread nD τ).loc main_arg7) ↦{fullShare} V main_arg7)
          ∗ (((c : Thread nD τ).loc main_arg10) ↦{fullShare} V main_arg10) ∗ (((c : Thread nD τ).loc main_v18) ↦{fullShare} V main_v18)) := by
  have himg : Finset.univ.image (Pipeline.arrRef (Pipeline.pin (pcfgs (F := F)) adm 1).spec)
      = ([main_v17, main_v1, main_v3, main_arg7, main_arg10, main_v18] : List (Ref sig .tc)).toFinset := img1
  unfold Pipeline.arrBufs
  rw [BI.bigSep_eq_bigSepL_of_eq _ himg nodup1]; rfl

theorem hF1 (c : Dev nD) : ∀ w : Fin cfg1.W, (dat1 (U2 m) q1 c).arrAt w cfg1.N = U3 m c (Pipeline.arrRef spec1 w) := by
  intro w
  by_cases hw : (cfg1.win w).isOut = true
  · obtain rfl : w = 6 := (by decide : ∀ w : Fin cfg1.W, (cfg1.win w).isOut = true → w = 6) w hw
    exact (W3_out m c).symm
  · have hne : main_v18 ≠ Pipeline.arrRef spec1 w :=
      (by decide : ∀ w : Fin cfg1.W, ¬ (cfg1.win w).isOut = true → main_v18 ≠ Pipeline.arrRef spec1 w) w hw
    exact ((dat1 (U2 m) q1 c).arrAt_in w (Bool.eq_false_iff.mpr hw) _).trans ((A_eq1 (U2 m) q1 c w).trans (W3_of_ne m c _ hne).symm)
theorem hrest1 (c : Dev nD) : ∀ b, b ∉ Finset.univ.image (Pipeline.arrRef spec1) → U3 m c b = U2 m c b :=
  fun b hb => W3_of_ne m c b fun e => hb (Finset.mem_image.mpr ⟨6, Finset.mem_univ _, e⟩)

/-- Entering region 1: the shared array's full share splits into the two windows' halves. -/
theorem entry1 (c : Dev nD) :
    (unscopedBufs c (U2 m c) : sProp 𝕄)
      ⊢ iprop((dat1 (U2 m) q1 c).arrays ((dat1 (U2 m) q1 c).arrAt · 0) ∗ Pipeline.unscopedRest spec1 c (U2 m c)) := by
  rw [Pipeline.unscopedBufs_split₀ (Pipeline.pin (pcfgs (F := F)) adm) 1 winFacts₀1.arr_unscoped c (U2 m c), arrays1_eq, arrBufs1_eq,
    show (bigSep Finset.univ fun w => (((c : Thread nD τ).loc (Pipeline.arrRef spec1 w)) ↦{(dat1 (U2 m) q1 c).share w} (dat1 (U2 m) q1 c).arrAt w 0 : sProp 𝕄))
      = bigSep Finset.univ fun w => (((c : Thread nD τ).loc (Pipeline.arrRef spec1 w)) ↦{(dat1 (U2 m) q1 c).share w} U2 m c (Pipeline.arrRef spec1 w) : sProp 𝕄)
      from bigSep_congr fun w _ => by rw [show (dat1 (U2 m) q1 c).arrAt w 0 = U2 m c (Pipeline.arrRef spec1 w) from A_eq1 (U2 m) q1 c w],
    bigSep_W1]
  refine sep_mono ?_ .rfl
  show iprop((((c : Thread nD τ).loc main_v17) ↦{fullShare} U2 m c main_v17 : sProp 𝕄) ∗ (((c : Thread nD τ).loc main_v1) ↦{fullShare} U2 m c main_v1 : sProp 𝕄) ∗ (((c : Thread nD τ).loc main_v3) ↦{fullShare} U2 m c main_v3 : sProp 𝕄) ∗ (((c : Thread nD τ).loc main_arg7) ↦{fullShare} U2 m c main_arg7 : sProp 𝕄) ∗ (((c : Thread nD τ).loc main_arg10) ↦{fullShare} U2 m c main_arg10 : sProp 𝕄) ∗ (((c : Thread nD τ).loc main_v18) ↦{fullShare} U2 m c main_v18 : sProp 𝕄)) ⊢ iprop((((c : Thread nD τ).loc main_v17) ↦{fullShare.left} U2 m c main_v17 : sProp 𝕄) ∗ (((c : Thread nD τ).loc main_v17) ↦{fullShare.right} U2 m c main_v17 : sProp 𝕄) ∗ (((c : Thread nD τ).loc main_v1) ↦{fullShare} U2 m c main_v1 : sProp 𝕄) ∗ (((c : Thread nD τ).loc main_v3) ↦{fullShare} U2 m c main_v3 : sProp 𝕄) ∗ (((c : Thread nD τ).loc main_arg7) ↦{fullShare} U2 m c main_arg7 : sProp 𝕄) ∗ (((c : Thread nD τ).loc main_arg10) ↦{fullShare} U2 m c main_arg10 : sProp 𝕄) ∗ (((c : Thread nD τ).loc main_v18) ↦{fullShare} U2 m c main_v18 : sProp 𝕄))
  iintro ⟨H17, H1, H3, H7, H10, H18⟩
  ihave H := (pointsTo_share (PosShare.mem_left_op_right fullShare)).1 $$ H17
  icases H with ⟨Ha, Hb⟩
  isplitl [Ha]; · iexact Ha
  isplitl [Hb]; · iexact Hb
  isplitl [H1]; · iexact H1
  isplitl [H3]; · iexact H3
  isplitl [H7]; · iexact H7
  isplitl [H10]; · iexact H10
  iexact H18

/-- Leaving region 1: the two halves rejoin; the result array holds what the write-backs left. -/
theorem exit1 (c : Dev nD) :
    iprop((dat1 (U2 m) q1 c).arrays ((dat1 (U2 m) q1 c).arrAt · cfg1.N) ∗ Pipeline.unscopedRest spec1 c (U2 m c))
      ⊢ (unscopedBufs c (U3 m c) : sProp 𝕄) := by
  rw [Pipeline.unscopedBufs_split₀ (Pipeline.pin (pcfgs (F := F)) adm) 1 winFacts₀1.arr_unscoped c (U3 m c), arrays1_eq, arrBufs1_eq,
    show (bigSep Finset.univ fun w => (((c : Thread nD τ).loc (Pipeline.arrRef spec1 w)) ↦{(dat1 (U2 m) q1 c).share w} (dat1 (U2 m) q1 c).arrAt w cfg1.N : sProp 𝕄))
      = bigSep Finset.univ fun w => (((c : Thread nD τ).loc (Pipeline.arrRef spec1 w)) ↦{(dat1 (U2 m) q1 c).share w} U3 m c (Pipeline.arrRef spec1 w) : sProp 𝕄)
      from bigSep_congr fun w _ => by rw [hF1 m c w],
    bigSep_W1]
  refine sep_mono ?_ (Entails.of_eq ?_)
  · show iprop((((c : Thread nD τ).loc main_v17) ↦{fullShare.left} U3 m c main_v17 : sProp 𝕄) ∗ (((c : Thread nD τ).loc main_v17) ↦{fullShare.right} U3 m c main_v17 : sProp 𝕄) ∗ (((c : Thread nD τ).loc main_v1) ↦{fullShare} U3 m c main_v1 : sProp 𝕄) ∗ (((c : Thread nD τ).loc main_v3) ↦{fullShare} U3 m c main_v3 : sProp 𝕄) ∗ (((c : Thread nD τ).loc main_arg7) ↦{fullShare} U3 m c main_arg7 : sProp 𝕄) ∗ (((c : Thread nD τ).loc main_arg10) ↦{fullShare} U3 m c main_arg10 : sProp 𝕄) ∗ (((c : Thread nD τ).loc main_v18) ↦{fullShare} U3 m c main_v18 : sProp 𝕄)) ⊢ iprop((((c : Thread nD τ).loc main_v17) ↦{fullShare} U3 m c main_v17 : sProp 𝕄) ∗ (((c : Thread nD τ).loc main_v1) ↦{fullShare} U3 m c main_v1 : sProp 𝕄) ∗ (((c : Thread nD τ).loc main_v3) ↦{fullShare} U3 m c main_v3 : sProp 𝕄) ∗ (((c : Thread nD τ).loc main_arg7) ↦{fullShare} U3 m c main_arg7 : sProp 𝕄) ∗ (((c : Thread nD τ).loc main_arg10) ↦{fullShare} U3 m c main_arg10 : sProp 𝕄) ∗ (((c : Thread nD τ).loc main_v18) ↦{fullShare} U3 m c main_v18 : sProp 𝕄))
    iintro ⟨Ha, Hb, H1, H3, H7, H10, H18⟩
    isplitl [Ha Hb]
    · iapply (pointsTo_share (PosShare.mem_left_op_right fullShare)).2
      isplitl [Ha]; · iexact Ha
      iexact Hb
    isplitl [H1]; · iexact H1
    isplitl [H3]; · iexact H3
    isplitl [H7]; · iexact H7
    isplitl [H10]; · iexact H10
    iexact H18
  · unfold Pipeline.unscopedRest
    exact bigSep_congr fun b hb => by
      rw [show U3 m c b = U2 m c b from W3_of_ne m c b fun e => (Finset.mem_sdiff.mp hb).2 (Finset.mem_image.mpr ⟨6, Finset.mem_univ _, e⟩)]

set_option backward.isDefEq.respectTransparency.types false in
/-- Region 1 over the thread state, as the others, its arrays split out of the unscoped buffers with the shared array halved. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (U2 m) q1 c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (U2 m c)
  hentry c := by
    rw [Pipeline.ownSems0_none]
    have hsplit := entry1 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 m c
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The program as segments, and the launch -/

variable (ρ : Dev nD → PrngReg)

/-- The program's eight items in order: a host segment per stretch from the contents before it, a region per kernel. -/
abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)),
    .region (reg2 m),
    .region (reg3 m),
    .host (hseg hostOps4 hostOps4_sub hostOps4_fresh (W6 m)),
    .region (reg4 m) ]
/-- The program is the run of the segments. -/
theorem main_run (c : Dev nD) : main (F := F) c = Pipeline.Seg.run (segs m) := (main_chain c).trans (by chain_rfl)

set_option backward.isDefEq.respectTransparency.types false in
/-- THE RUN: from any memory with zero counters, every weakly fair execution of the program terminates, nothing faulting, and
    every final state holds every unscoped buffer of every core at the last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

end Cert.Kernel.Hand

end
-- ==== Proof.K.Args.lean ====
/- No item of the program writes an argument.

   Between the program's items the core's unscoped buffers hold: the launch contents; then each stretch of host
   operations applied; then each region's result array replaced by what the region's write-backs leave.  A buffer that
   no operation of a stretch writes holds after the stretch what it held before it, and a buffer other than a region's
   result array holds after the region what it held before it.  The eleven arguments are written by no stretch and are
   no region's result array: each holds its launch contents at every stage, and so at the end. -/
import proofs.«133321_j75213467287803_1_alg».proof.Proof.K.Chain
import Idealize.ShloMosaic.Lib.StableHlo.Run

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (c : Dev nD)

/-! ## What each item leaves unchanged -/

theorem W1_of (r : Ref sig .tc) (h : r ∉ hostOps0_W) : W1 m c r = m ((c : Thread nD τ).loc r) :=
  StableHlo.after_of_writes_sub hostOps0 _ hostOps0_writes h
theorem W2_of (r : Ref sig .tc) (h : r ≠ main_v17) : W2 m c r = W1 m c r := by
  unfold W2; exact Function.update_of_ne (StableHlo.devRef_ne_of_ne h) _ _
theorem W3_of (r : Ref sig .tc) (h : r ≠ main_v18) : W3 m c r = W2 m c r := by
  unfold W3; exact Function.update_of_ne (StableHlo.devRef_ne_of_ne h) _ _
theorem W4_of (r : Ref sig .tc) (h : r ∉ hostOps2_W) : W4 m c r = W3 m c r := by
  unfold W4; exact StableHlo.after_of_writes_sub hostOps2 _ hostOps2_writes h
theorem W5_of (r : Ref sig .tc) (h : r ≠ main_v34) : W5 m c r = W4 m c r := by
  unfold W5; exact Function.update_of_ne (StableHlo.devRef_ne_of_ne h) _ _
theorem W6_of (r : Ref sig .tc) (h : r ≠ main_v35) : W6 m c r = W5 m c r := by
  unfold W6; exact Function.update_of_ne (StableHlo.devRef_ne_of_ne h) _ _
theorem W7_of (r : Ref sig .tc) (h : r ∉ hostOps4_W) : W7 m c r = W6 m c r := by
  unfold W7; exact StableHlo.after_of_writes_sub hostOps4 _ hostOps4_writes h
theorem W8_of (r : Ref sig .tc) (h : r ≠ main_v51) : W8 m c r = W7 m c r := by
  unfold W8; exact Function.update_of_ne (StableHlo.devRef_ne_of_ne h) _ _

/-! ## The arguments at every stage -/

/-- The program's eleven arguments. -/
abbrev argRefs : List (Ref sig .tc) :=
  [main_arg0, main_arg1, main_arg2, main_arg3, main_arg4, main_arg5, main_arg6, main_arg7, main_arg8, main_arg9, main_arg10]

theorem W1_arg (r : Ref sig .tc) (hr : r ∈ argRefs) : W1 m c r = m ((c : Thread nD τ).loc r) :=
  W1_of m c r ((by decide : ∀ r ∈ argRefs, r ∉ hostOps0_W) r hr)
theorem W2_arg (r : Ref sig .tc) (hr : r ∈ argRefs) : W2 m c r = m ((c : Thread nD τ).loc r) :=
  (W2_of m c r ((by decide : ∀ r ∈ argRefs, r ≠ main_v17) r hr)).trans (W1_arg m c r hr)
theorem W3_arg (r : Ref sig .tc) (hr : r ∈ argRefs) : W3 m c r = m ((c : Thread nD τ).loc r) :=
  (W3_of m c r ((by decide : ∀ r ∈ argRefs, r ≠ main_v18) r hr)).trans (W2_arg m c r hr)
theorem W4_arg (r : Ref sig .tc) (hr : r ∈ argRefs) : W4 m c r = m ((c : Thread nD τ).loc r) :=
  (W4_of m c r ((by decide : ∀ r ∈ argRefs, r ∉ hostOps2_W) r hr)).trans (W3_arg m c r hr)
theorem W5_arg (r : Ref sig .tc) (hr : r ∈ argRefs) : W5 m c r = m ((c : Thread nD τ).loc r) :=
  (W5_of m c r ((by decide : ∀ r ∈ argRefs, r ≠ main_v34) r hr)).trans (W4_arg m c r hr)
theorem W6_arg (r : Ref sig .tc) (hr : r ∈ argRefs) : W6 m c r = m ((c : Thread nD τ).loc r) :=
  (W6_of m c r ((by decide : ∀ r ∈ argRefs, r ≠ main_v35) r hr)).trans (W5_arg m c r hr)
theorem W7_arg (r : Ref sig .tc) (hr : r ∈ argRefs) : W7 m c r = m ((c : Thread nD τ).loc r) :=
  (W7_of m c r ((by decide : ∀ r ∈ argRefs, r ∉ hostOps4_W) r hr)).trans (W6_arg m c r hr)
theorem W8_arg (r : Ref sig .tc) (hr : r ∈ argRefs) : W8 m c r = m ((c : Thread nD τ).loc r) :=
  (W8_of m c r ((by decide : ∀ r ∈ argRefs, r ≠ main_v51) r hr)).trans (W7_arg m c r hr)

/-- Every argument ends holding its launch contents. -/
theorem W8_args : W8 m c main_arg0 = m ((c : Thread nD τ).loc main_arg0)
    ∧ W8 m c main_arg1 = m ((c : Thread nD τ).loc main_arg1)
    ∧ W8 m c main_arg2 = m ((c : Thread nD τ).loc main_arg2)
    ∧ W8 m c main_arg3 = m ((c : Thread nD τ).loc main_arg3)
    ∧ W8 m c main_arg4 = m ((c : Thread nD τ).loc main_arg4)
    ∧ W8 m c main_arg5 = m ((c : Thread nD τ).loc main_arg5)
    ∧ W8 m c main_arg6 = m ((c : Thread nD τ).loc main_arg6)
    ∧ W8 m c main_arg7 = m ((c : Thread nD τ).loc main_arg7)
    ∧ W8 m c main_arg8 = m ((c : Thread nD τ).loc main_arg8)
    ∧ W8 m c main_arg9 = m ((c : Thread nD τ).loc main_arg9)
    ∧ W8 m c main_arg10 = m ((c : Thread nD τ).loc main_arg10) :=
  ⟨W8_arg m c main_arg0 (by decide), W8_arg m c main_arg1 (by decide), W8_arg m c main_arg2 (by decide), W8_arg m c main_arg3 (by decide), W8_arg m c main_arg4 (by decide), W8_arg m c main_arg5 (by decide), W8_arg m c main_arg6 (by decide), W8_arg m c main_arg7 (by decide), W8_arg m c main_arg8 (by decide), W8_arg m c main_arg9 (by decide), W8_arg m c main_arg10 (by decide)⟩

end Cert.Kernel.Hand

end
-- ==== Proof.Val.RefOps.lean ====
/- The reference's host operations grouped into the network's layers: the sparse aggregation (gather, scale, scatter-add),
   the dense projection, the attention gate with its leaky rectifier, and the output layer with its log-softmax — each a
   composition of exactly the operations the reference program applies, over any float instance. -/
import proofs.«133321_j75213467287803_1_alg».proof.ReferenceIdeal
import Idealize.ShloMosaic.PureOps.Ideal

noncomputable section

namespace Cert.Val

open Cert.ReferenceIdeal Cert.ReferenceIdeal.Facts₀ Cert.ReferenceIdeal.Facts Idealize.ShloMosaic

variable {F : FTy → Type} [FloatOps F] [Cert.ReferenceIdeal.Facts]

/-- An array of the given shape and element type. -/
abbrev Arr (F : FTy → Type) (S : Shape) (e : EltTy) : Type := (⟨S, e⟩ : BufTy).Contents (Elt F)

/-- Row `p` of tile `t`, the 100000 rows being cut into 50 tiles of 2000 consecutive rows. -/
def row (t : Fin 50) (p : Fin 2000) : Fin 100000 := ⟨2000 * t.val + p.val, by have := t.isLt; have := p.isLt; omega⟩

/-- The gather's start indices: a negative column index is moved up by the number of nodes, then laid out as a column. -/
def gidx (ec : Arr F S1600000 .i32) : Arr F S1600000x1 .i32 :=
  broadcastInDim S1600000x1 ![0] bcast_S1600000_S1600000x1_0
    (select (cmpi .slt ec (broadcastInDim S1600000 ![] bcast_S_S1600000 (constantI S_ 32 0#32)))
      (addi ec (broadcastInDim S1600000 ![] bcast_S_S1600000 (constantI S_ 32 100000#32))) ec)

/-- The sparse aggregation: every edge's source row, scaled by the edge's value, added into the edge's target row. -/
def spmm (er ec : Arr F S1600000 .i32) (ev : Arr F S1600000 .f32) (h : Arr F S100000x128 .f32) : Arr F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 er)
    (mulf (broadcastInDim S1600000x128 ![0, 1] bcast_S1600000x1_S1600000x128_0_1 (broadcastInDim S1600000x1 ![0] bcast_S1600000_S1600000x1_0 ev))
      (Host.gather gather_S100000x128_S1600000x1_S1600000x128_1_0_n_n_0_1_1128 h (gidx ec)))

/-- The dense projection of every row by a 128 x 128 weight. -/
def mm (a : Arr F S100000x128 .f32) (w : Arr F S128x128 .f32) : Arr F S100000x128 .f32 :=
  Host.dotGeneral dot_S100000x128_S128x128_S100000x128_1_0_0_1_n_n none a w

/-- The column of ones. -/
def ones : Arr F S100000x1 .f32 := broadcastInDim S100000x1 ![] bcast_S_S100000x1 (constant S_ .f32 0x3F800000#32)

/-- The attention logit of every row: the row of `x` beside the row of `xin`, against the attention weights, plus the bias. -/
def logit (x xin : Arr F S100000x128 .f32) (aw : Arr F S256x1 .f32) (b : Arr F S1 .f32) : Arr F S100000x1 .f32 :=
  addf (Host.dotGeneral dot_S100000x256_S256x1_S100000x1_1_0_0_1_n_n none
      (concatenate S100000x256 1 [⟨S100000x128, x⟩, ⟨S100000x128, xin⟩] concatenates_S100000x128_S100000x128_S100000x256_d1) aw)
    (broadcastInDim S100000x1 ![0, 1] bcast_S1x1_S100000x1_0_1 (broadcastInDim S1x1 ![1] bcast_S1_S1x1_1 b))

/-- The gate: the logistic function of the logit, spelt as one over one plus the exponential of the negated logit. -/
def alpha (x xin : Arr F S100000x128 .f32) (aw : Arr F S256x1 .f32) (b : Arr F S1 .f32) : Arr F S100000x1 .f32 :=
  Host.divf (ones (F := F)) (addf (ones (F := F)) (Host.exp (Host.negf (logit x xin aw b))))

/-- The convex blend of `x` and `xin` by the gate. -/
def blend (x xin : Arr F S100000x128 .f32) (aw : Arr F S256x1 .f32) (b : Arr F S1 .f32) : Arr F S100000x128 .f32 :=
  addf (mulf (broadcastInDim S100000x128 ![0, 1] bcast_S100000x1_S100000x128_0_1 (subf (ones (F := F)) (alpha x xin aw b))) x)
    (mulf (broadcastInDim S100000x128 ![0, 1] bcast_S100000x1_S100000x128_0_1 (alpha x xin aw b)) xin)

/-- The leaky rectifier with one learnt slope: `v` where it is at least zero, the slope times `v` elsewhere. -/
def prelu (v : Arr F S100000x128 .f32) (pw : Arr F S1 .f32) : Arr F S100000x128 .f32 :=
  select (cmpf .oge v (broadcastInDim S100000x128 ![] bcast_S_S100000x128 (constant S_ .f32 0x00000000#32))) v
    (mulf (broadcastInDim S100000x128 ![0, 1] bcast_S1x1_S100000x128_0_1 (broadcastInDim S1x1 ![1] bcast_S1_S1x1_1 pw)) v)

/-- One gated layer: blend, then rectify. -/
def gate (x xin : Arr F S100000x128 .f32) (aw : Arr F S256x1 .f32) (b pw : Arr F S1 .f32) : Arr F S100000x128 .f32 :=
  prelu (blend x xin aw b) pw

/-- The two hop weights, cut out of their stack. -/
def wh0 (W : Arr F S2x128x128 .f32) : Arr F S128x128 .f32 :=
  shapeCast _ (extractStridedSlice S1x128x128 ![0, 0, 0] W slices_S2x128x128_S1x128x128_0_0_0) shapeCasts_S1x128x128_S128x128
def wh1 (W : Arr F S2x128x128 .f32) : Arr F S128x128 .f32 :=
  shapeCast _ (extractStridedSlice S1x128x128 ![1, 0, 0] W slices_S2x128x128_S1x128x128_1_0_0) shapeCasts_S1x128x128_S128x128

/-- The class scores: the rectified features against the output weights, plus the output bias. -/
def scores (y : Arr F S100000x128 .f32) (pw : Arr F S1 .f32) (ow : Arr F S128x64 .f32) (ob : Arr F S64 .f32) : Arr F S100000x64 .f32 :=
  addf (Host.dotGeneral dot_S100000x128_S128x64_S100000x64_1_0_0_1_n_n none (prelu y pw) ow)
    (broadcastInDim S100000x64 ![0, 1] bcast_S1x64_S100000x64_0_1 (broadcastInDim S1x64 ![1] bcast_S64_S1x64_1 ob))

/-- Every row's largest score (against minus infinity). -/
def rowmax (z : Arr F S100000x64 .f32) : Arr F S100000 .f32 :=
  maximumf (broadcastInDim S100000 ![] bcast_S_S100000 (constant S_ .f32 0xFF800000#32))
    (Host.reduce FloatOps.maximumf z (constant S_ .f32 0xFF800000#32) reducesTo_S100000x64_S100000_d1 h_S_)

/-- The scores shifted by their row's largest. -/
def shifted (z : Arr F S100000x64 .f32) : Arr F S100000x64 .f32 :=
  subf z (broadcastInDim S100000x64 ![0, 1] bcast_S100000x1_S100000x64_0_1 (broadcastInDim S100000x1 ![0] bcast_S100000_S100000x1_0 (rowmax z)))

/-- The log-softmax of every row. -/
def lsm (z : Arr F S100000x64 .f32) : Arr F S100000x64 .f32 :=
  subf (shifted z) (broadcastInDim S100000x64 ![0, 1] bcast_S100000x1_S100000x64_0_1
    (Host.log (broadcastInDim S100000x1 ![0] bcast_S100000_S100000x1_0
      (Host.reduceAdd (Host.exp (shifted z)) (constant S_ .f32 0x00000000#32) reducesTo_S100000x64_S100000_d1 h_S_))))

/-- The output layer on the last aggregated features. -/
def final (msg : Arr F S100000x128 .f32) (w : Arr F S128x128 .f32) (pw : Arr F S1 .f32) (ow : Arr F S128x64 .f32) (ob : Arr F S64 .f32) : Arr F S100000x64 .f32 :=
  lsm (scores (mm msg w) pw ow ob)

/-- The whole network, layer by layer. -/
def net (x : Arr F S100000x128 .f32) (er ec : Arr F S1600000 .i32) (ev : Arr F S1600000 .f32) (W0 : Arr F S128x128 .f32) (W : Arr F S2x128x128 .f32)
    (aw : Arr F S256x1 .f32) (b : Arr F S1 .f32) (ow : Arr F S128x64 .f32) (ob : Arr F S64 .f32) (pw : Arr F S1 .f32) : Arr F S100000x64 .f32 :=
  final (spmm er ec ev (gate (mm (spmm er ec ev (gate (mm (spmm er ec ev x) W0) (mm (spmm er ec ev x) W0) aw b pw)) (wh0 W)) (mm (spmm er ec ev x) W0) aw b pw))
    (wh1 W) pw ow ob

end Cert.Val

end
-- ==== Proof.Val.Host.lean ====
/- What the host operations between the kernel's regions leave in the buffers the regions read.

   The program alternates stretches of whole-array host operations with kernel regions.  Each stretch, started from any
   contents V of the buffers, leaves in its result buffers exactly the reference's own layer functions of what V held:
   the sparse aggregation (gather the source rows, scale by the edge values, add into the target rows) of a feature
   array, and a hop weight cut out of the stack of weights.  A buffer no operation of a stretch writes, and no region
   may change, holds what it held before: so every argument holds its launch contents at every stage, and an
   intermediate array written once is read unchanged by the later regions.  The two halves of the attention weight
   column are a slice of 128 rows followed by dropping the unit axis: entry k of the first half is row k of the column,
   entry k of the second half is row 128 + k. -/
import proofs.«133321_j75213467287803_1_alg».proof.Proof.KI.Args
import proofs.«133321_j75213467287803_1_alg».proof.Proof.Val.RefOps
import Idealize.ShloMosaic.Lib.StableHlo.Run
import Idealize.ShloMosaic.Lib.ValueIdx
import Idealize.ShloMosaic.Lib.ValueLayout
import Idealize.ShloMosaic.Lib.Pipeline.Value

noncomputable section

namespace Cert.Val

open Idealize.ShloMosaic Idealize.ShloMosaic.TcCoe Idealize.ShloMosaic.ValueIdx Idealize.SL.Sem
open Cert.KernelIdeal Cert.KernelIdeal.Gen Cert.KernelIdeal.Hand

variable {F : FTy → Type} [FloatOps F] [Cert.KernelIdeal.Facts] [Cert.ReferenceIdeal.Facts]

/-! ## A column with its unit axis dropped -/

/-- An `[a, 1]` array cast to `[a]` reads, at `i`, the operand at `(i, 0)`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- Rows `o … o + 127` of a 256-row column, as a vector: entry `k` is row `o + k`. -/
theorem half_column_apply {α : Type} (o : Nat) (X : (⟨2, ![256, 1]⟩ : Shape).Idx → α)
    (h : (⟨2, ![256, 1]⟩ : Shape).Slices ![o, 0] ⟨2, ![128, 1]⟩)
    (hc : (⟨2, ![128, 1]⟩ : Shape).ShapeCasts ⟨1, ![128]⟩) (k : Fin 128) (k' : Fin 256) (hk : k'.val = o + k.val) :
    shapeCast ⟨1, ![128]⟩ (extractStridedSlice ⟨2, ![128, 1]⟩ ![o, 0] X h) hc (ix1 k) = X (ix2 k' (0 : Fin 1)) :=
  (shapeCast_a1_a_apply _ hc k).trans (slice2_axis0_apply o X h k (0 : Fin 1) k' hk)

/-! ## Each stretch of host operations, from any contents -/

section Stretch

variable (V : Valuation τ sig (Elt F))

/-- The first stretch leaves the aggregation of the input features. -/
theorem after0_v16 : StableHlo.after hostOps0 V (Proc.devRef .tc main_v16)
    = spmm (V main_arg1) (V main_arg2) (V main_arg3) (V main_arg0) := by
  after_results_simp; rfl

/-- The first stretch leaves the first half of the attention weight column. -/
theorem after0_v1 : StableHlo.after hostOps0 V (Proc.devRef .tc main_v1)
    = shapeCast S128 (extractStridedSlice S128x1 ![0, 0] (V main_arg6) slices_S256x1_S128x1_0_0) shapeCasts_S128x1_S128 := by
  after_results; rfl

/-- The first stretch leaves the second half of the attention weight column. -/
theorem after0_v3 : StableHlo.after hostOps0 V (Proc.devRef .tc main_v3)
    = shapeCast S128 (extractStridedSlice S128x1 ![128, 0] (V main_arg6) slices_S256x1_S128x1_128_0) shapeCasts_S128x1_S128 := by
  after_results; rfl

/-- The second stretch leaves the aggregation of the first gated layer. -/
theorem after2_v31 : StableHlo.after hostOps2 V (Proc.devRef .tc main_v31)
    = spmm (V main_arg1) (V main_arg2) (V main_arg3) (V main_v18) := by
  after_results_simp; rfl

/-- The second stretch leaves the first hop weight. -/
theorem after2_v33 : StableHlo.after hostOps2 V (Proc.devRef .tc main_v33) = wh0 (V main_arg5) := by
  after_results; rfl

/-- The third stretch leaves the aggregation of the second gated layer. -/
theorem after4_v48 : StableHlo.after hostOps4 V (Proc.devRef .tc main_v48)
    = spmm (V main_arg1) (V main_arg2) (V main_arg3) (V main_v35) := by
  after_results_simp; rfl

/-- The third stretch leaves the second hop weight. -/
theorem after4_v50 : StableHlo.after hostOps4 V (Proc.devRef .tc main_v50) = wh1 (V main_arg5) := by
  after_results; rfl

end Stretch

variable (m : (ℓ : Loc nD τ sig) → Buf (Elt F) ℓ) (c : Dev nD)

/-! ## The first stretch, and what regions 0 to 3 read of it -/

theorem W1_v16 : W1 m c main_v16 = spmm (m ((c : Thread nD τ).loc main_arg1)) (m ((c : Thread nD τ).loc main_arg2)) (m ((c : Thread nD τ).loc main_arg3)) (m ((c : Thread nD τ).loc main_arg0)) :=
  after0_v16 (W0 m c)

theorem W1_v1 (k : Fin 128) :
    W1 m c main_v1 (ix1 k) = m ((c : Thread nD τ).loc main_arg6) (ix2 (⟨k.val, by omega⟩ : Fin 256) (0 : Fin 1)) :=
  (congrFun (after0_v1 (W0 m c)) (ix1 k)).trans
    (half_column_apply 0 (m ((c : Thread nD τ).loc main_arg6)) slices_S256x1_S128x1_0_0 shapeCasts_S128x1_S128 k ⟨k.val, by omega⟩ (Nat.zero_add _).symm)

theorem W1_v3 (k : Fin 128) :
    W1 m c main_v3 (ix1 k) = m ((c : Thread nD τ).loc main_arg6) (ix2 (⟨128 + k.val, by omega⟩ : Fin 256) (0 : Fin 1)) :=
  (congrFun (after0_v3 (W0 m c)) (ix1 k)).trans
    (half_column_apply 128 (m ((c : Thread nD τ).loc main_arg6)) slices_S256x1_S128x1_128_0 shapeCasts_S128x1_S128 k ⟨128 + k.val, by omega⟩ rfl)

theorem W2_v1 : W2 m c main_v1 = W1 m c main_v1 := W2_of m c main_v1 (by decide)
theorem W2_v3 : W2 m c main_v3 = W1 m c main_v3 := W2_of m c main_v3 (by decide)
theorem W2_v17 : W2 m c main_v17 = (dat0 (U1 m) c).arrAt 2 cfg0.N := by
  unfold W2; exact Function.update_self _ _ _

theorem W5_v1 : W5 m c main_v1 = W1 m c main_v1 :=
  (W5_of m c main_v1 (by decide)).trans <| (W4_of m c main_v1 (by decide)).trans <| (W3_of m c main_v1 (by decide)).trans (W2_v1 m c)
theorem W5_v3 : W5 m c main_v3 = W1 m c main_v3 :=
  (W5_of m c main_v3 (by decide)).trans <| (W4_of m c main_v3 (by decide)).trans <| (W3_of m c main_v3 (by decide)).trans (W2_v3 m c)
theorem W5_v17 : W5 m c main_v17 = W2 m c main_v17 :=
  (W5_of m c main_v17 (by decide)).trans <| (W4_of m c main_v17 (by decide)).trans (W3_of m c main_v17 (by decide))
theorem W5_v34 : W5 m c main_v34 = (dat2 (U4 m) c).arrAt 2 cfg2.N := by
  unfold W5; exact Function.update_self _ _ _

/-! ## The second stretch -/

theorem W3_v18 : W3 m c main_v18 = (dat1 (U2 m) q1 c).arrAt 6 cfg1.N := by
  unfold W3; exact Function.update_self _ _ _

theorem W4_v31 : W4 m c main_v31 = spmm (m ((c : Thread nD τ).loc main_arg1)) (m ((c : Thread nD τ).loc main_arg2)) (m ((c : Thread nD τ).loc main_arg3)) (W3 m c main_v18) := by
  unfold W4
  refine (after2_v31 (W3 m c)).trans ?_
  rw [W3_arg m c main_arg1 (by decide), W3_arg m c main_arg2 (by decide), W3_arg m c main_arg3 (by decide)]

theorem W4_v33 : W4 m c main_v33 = wh0 (m ((c : Thread nD τ).loc main_arg5)) := by
  unfold W4
  refine (after2_v33 (W3 m c)).trans ?_
  rw [W3_arg m c main_arg5 (by decide)]

/-! ## The third stretch, and the end -/

theorem W6_v35 : W6 m c main_v35 = (dat3 (U5 m) q3 c).arrAt 6 cfg3.N := by
  unfold W6; exact Function.update_self _ _ _

theorem W7_v48 : W7 m c main_v48 = spmm (m ((c : Thread nD τ).loc main_arg1)) (m ((c : Thread nD τ).loc main_arg2)) (m ((c : Thread nD τ).loc main_arg3)) (W6 m c main_v35) := by
  unfold W7
  refine (after4_v48 (W6 m c)).trans ?_
  rw [W6_arg m c main_arg1 (by decide), W6_arg m c main_arg2 (by decide), W6_arg m c main_arg3 (by decide)]

theorem W7_v50 : W7 m c main_v50 = wh1 (m ((c : Thread nD τ).loc main_arg5)) := by
  unfold W7
  refine (after4_v50 (W6 m c)).trans ?_
  rw [W6_arg m c main_arg5 (by decide)]

theorem W8_v51 : W8 m c main_v51 = (dat4 (U7 m) c).arrAt 5 cfg4.N := by
  unfold W8; exact Function.update_self _ _ _

end Cert.Val

end
-- ==== Proof.Val.A0.lean ====
/- The result array of each matrix-product region after all its points, as one whole-array function of the arrays the
   region was entered with: every point writes back the rows of its tile of the projection of the operand by the weight,
   and the tiles cover the rows. -/
import proofs.«133321_j75213467287803_1_alg».proof.Proof.KI.R0
import proofs.«133321_j75213467287803_1_alg».proof.Proof.KI.R2
import proofs.«133321_j75213467287803_1_alg».proof.Proof.Val.RefOps
import Idealize.ShloMosaic.Lib.Pipeline.Value
import Idealize.ShloMosaic.Lib.ValueIdx

noncomputable section

namespace Cert.Val

open Idealize.ShloMosaic Idealize.ShloMosaic.ValueIdx Cert.KernelIdeal Cert.KernelIdeal.Gen Cert.KernelIdeal.Hand
open Idealize.ShloMosaic.TcCoe Idealize.SL.Sem
open Idealize.ShloMosaic.Pipeline (Dat)

theorem mm_hz2 : (![0, 0] : Fin 2 → Nat) = fun _ => 0 := funext fun a => by fin_cases a <;> rfl

/-- The printed index maps of region 0, decided over the grid: the operand's and the result's block index is the point's
    number on the rows and zero on the columns; the weight's is zero. -/
theorem mm_idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The printed index maps of region 2, decided over the grid: the same. -/
theorem mm_idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable [Cert.KernelIdeal.Facts] [Cert.ReferenceIdeal.Facts]
variable (V : (c : Dev nD) → (b : Ref sig .tc) → Buf (Elt Ideal) ((c : Thread nD τ).loc b))

/-! # Region 0 -/

/-- What point `t` of region 0 writes back is block `t` of the projection of the operand by the weight, given the tile's
    payload read at an entry. -/
theorem flushed0_eq (c : Dev nD)
    (htile : ∀ (a : Arr Ideal Cert.ReferenceIdeal.S100000x128 .f32) (w : Arr Ideal Cert.ReferenceIdeal.S128x128 .f32) (t : Fin 50) (x0 : Vec Ideal S2000x128 .f32),
          (∀ (p : Fin 2000) (k : Fin 128), x0 (ix2 p k) = a (ix2 (row t p) k)) → ∀ (p : Fin 2000) (q : Fin 128), k0_pay1 (F := Ideal) x0 w (ix2 p q) = mm a w (ix2 (row t p) q))
    (t : Fin cfg0.N) :
    (dat0 (F := Ideal) V c).flushed 2 t = ((cfg0.win 2).blk t).view.read (Elt Ideal) (mm (V c main_v16) (V c main_arg4)) := by
  show (cfg0.win 2).cut (grid0.coords t) ((dat0 V c).after 2 t) = _
  rw [after0_2]
  unfold out0_2
  rw [View.canon_unit_zero mm_hz2]
  simp only [View.ld_unit_zero (S := S2000x128) mm_hz2, View.ld_unit_zero (S := S128x128) mm_hz2]
  obtain ⟨e00, e01, e10, e11, e20, e21⟩ := mm_idx0 t
  have hN : t.val < 50 := lt_of_lt_of_eq t.isLt N_0
  have h0 : ∀ (p : Fin 2000) (k : Fin 128), (iblk0 V c 0 t : Vec Ideal S2000x128 .f32) (ix2 p k) = (V c main_v16 : S100000x128.Idx → Elt Ideal .f32) (ix2 (row ⟨t.val, hN⟩ p) k) := by
    intro p k
    unfold iblk0
    rw [View.read_apply]
    show V c main_v16 _ = V c main_v16 _
    congr 1
    funext a; apply Fin.ext
    match a with
    | ⟨0, _⟩ => show win0_0.index t (0 : Fin 2) * 2000 + 1 * p.val = 2000 * t.val + p.val; rw [e00]; omega
    | ⟨1, _⟩ => show win0_0.index t (1 : Fin 2) * 128 + 1 * k.val = k.val; rw [e01]; omega
  have h1 : (iblk0 V c 1 t : Vec Ideal S128x128 .f32) = (V c main_arg4 : S128x128.Idx → Elt Ideal .f32) := by
    funext y
    unfold iblk0
    rw [View.read_apply]
    show V c main_arg4 _ = V c main_arg4 y
    congr 1
    funext a; apply Fin.ext
    match a with
    | ⟨0, _⟩ => show win0_1.index t (0 : Fin 2) * 128 + 1 * (y 0).val = (y 0).val; rw [e10]; omega
    | ⟨1, _⟩ => show win0_1.index t (1 : Fin 2) * 128 + 1 * (y 1).val = (y 1).val; rw [e11]; omega
  refine funext fun (j : S2000x128.Idx) => ?_
  show k0_pay1 (F := Ideal) (iblk0 V c 0 t) (iblk0 V c 1 t) j = mm (V c main_v16) (V c main_arg4) (((cfg0.win 2).blk t).view.emb j)
  rw [h1]
  have hj : (j : S2000x128.Idx) = ix2 (j 0) (j 1) := eq_ix2 j
  have he : ((cfg0.win 2).blk t).view.emb j = (ix2 (row ⟨t.val, hN⟩ (j 0)) (j 1) : S100000x128.Idx) := by
    funext a; apply Fin.ext
    match a with
    | ⟨0, _⟩ => show win0_2.index t (0 : Fin 2) * 2000 + 1 * (j 0).val = 2000 * t.val + (j 0).val; rw [e20]; omega
    | ⟨1, _⟩ => show win0_2.index t (1 : Fin 2) * 128 + 1 * (j 1).val = (j 1).val; rw [e21]; omega
  rw [he]
  exact (congrArg (k0_pay1 (F := Ideal) (iblk0 V c 0 t) (V c main_arg4)) hj).trans
    (htile (V c main_v16) (V c main_arg4) ⟨t.val, hN⟩ (iblk0 V c 0 t) h0 (j 0) (j 1))

/-- An index of the result array is in point `t`'s block iff each coordinate is in the block's range on its axis. -/
theorem mem_blk0 (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v17).slice (win0_2.rect t)).set ↔ _
  rw [View.set_slice_whole, Rect.mem_set_unit]
  exact Iff.rfl

/-- Every index of the result array is in the block of the point its row falls in: row `r` is in tile `r / 2000`. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have ht : (i 0).val / 2000 < cfg0.N := by rw [show cfg0.N = 50 from N_0]; omega
  refine ⟨⟨(i 0).val / 2000, ht⟩, flush0_2 _, ?_⟩
  rw [mem_blk0]
  obtain ⟨e00, e01, e10, e11, e20, e21⟩ := mm_idx0 ⟨(i 0).val / 2000, ht⟩
  intro a
  match a with
  | ⟨0, _⟩ =>
    show win0_2.index ⟨(i 0).val / 2000, ht⟩ (0 : Fin 2) * 2000 ≤ (i 0).val ∧ (i 0).val < win0_2.index ⟨(i 0).val / 2000, ht⟩ (0 : Fin 2) * 2000 + 2000
    rw [e20]; show (i 0).val / 2000 * 2000 ≤ (i 0).val ∧ (i 0).val < (i 0).val / 2000 * 2000 + 2000; omega
  | ⟨1, _⟩ =>
    show win0_2.index ⟨(i 0).val / 2000, ht⟩ (1 : Fin 2) * 128 ≤ (i 1).val ∧ (i 1).val < win0_2.index ⟨(i 0).val / 2000, ht⟩ (1 : Fin 2) * 128 + 128
    rw [e21]; omega

/-- The result array of region 0 after all its points: the projection of the operand by the weight, given the tile's
    payload read at an entry. -/
theorem arr0 (c : Dev nD)
    (htile : ∀ (a : Arr Ideal Cert.ReferenceIdeal.S100000x128 .f32) (w : Arr Ideal Cert.ReferenceIdeal.S128x128 .f32) (t : Fin 50) (x0 : Vec Ideal S2000x128 .f32),
          (∀ (p : Fin 2000) (k : Fin 128), x0 (ix2 p k) = a (ix2 (row t p) k)) → ∀ (p : Fin 2000) (q : Fin 128), k0_pay1 (F := Ideal) x0 w (ix2 p q) = mm a w (ix2 (row t p) q)) :
    (dat0 (F := Ideal) V c).arrAt 2 cfg0.N = mm (V c main_v16) (V c main_arg4) :=
  (dat0 (F := Ideal) V c).arrAt_eq_of_cover 2 (mm (V c main_v16) (V c main_arg4)) (fun t _ => flushed0_eq V c htile t) cover0

/-! # Region 2 -/

/-- What point `t` of region 2 writes back is block `t` of the projection of the operand by the weight, given the tile's
    payload read at an entry. -/
theorem flushed2_eq (c : Dev nD)
    (htile : ∀ (a : Arr Ideal Cert.ReferenceIdeal.S100000x128 .f32) (w : Arr Ideal Cert.ReferenceIdeal.S128x128 .f32) (t : Fin 50) (x0 : Vec Ideal S2000x128 .f32),
          (∀ (p : Fin 2000) (k : Fin 128), x0 (ix2 p k) = a (ix2 (row t p) k)) → ∀ (p : Fin 2000) (q : Fin 128), k2_pay1 (F := Ideal) x0 w (ix2 p q) = mm a w (ix2 (row t p) q))
    (t : Fin cfg2.N) :
    (dat2 (F := Ideal) V c).flushed 2 t = ((cfg2.win 2).blk t).view.read (Elt Ideal) (mm (V c main_v31) (V c main_v33)) := by
  show (cfg2.win 2).cut (grid2.coords t) ((dat2 V c).after 2 t) = _
  rw [after2_2]
  unfold out2_2
  rw [View.canon_unit_zero mm_hz2]
  simp only [View.ld_unit_zero (S := S2000x128) mm_hz2, View.ld_unit_zero (S := S128x128) mm_hz2]
  obtain ⟨e00, e01, e10, e11, e20, e21⟩ := mm_idx2 t
  have hN : t.val < 50 := lt_of_lt_of_eq t.isLt N_2
  have h0 : ∀ (p : Fin 2000) (k : Fin 128), (iblk2 V c 0 t : Vec Ideal S2000x128 .f32) (ix2 p k) = (V c main_v31 : S100000x128.Idx → Elt Ideal .f32) (ix2 (row ⟨t.val, hN⟩ p) k) := by
    intro p k
    unfold iblk2
    rw [View.read_apply]
    show V c main_v31 _ = V c main_v31 _
    congr 1
    funext a; apply Fin.ext
    match a with
    | ⟨0, _⟩ => show win2_0.index t (0 : Fin 2) * 2000 + 1 * p.val = 2000 * t.val + p.val; rw [e00]; omega
    | ⟨1, _⟩ => show win2_0.index t (1 : Fin 2) * 128 + 1 * k.val = k.val; rw [e01]; omega
  have h1 : (iblk2 V c 1 t : Vec Ideal S128x128 .f32) = (V c main_v33 : S128x128.Idx → Elt Ideal .f32) := by
    funext y
    unfold iblk2
    rw [View.read_apply]
    show V c main_v33 _ = V c main_v33 y
    congr 1
    funext a; apply Fin.ext
    match a with
    | ⟨0, _⟩ => show win2_1.index t (0 : Fin 2) * 128 + 1 * (y 0).val = (y 0).val; rw [e10]; omega
    | ⟨1, _⟩ => show win2_1.index t (1 : Fin 2) * 128 + 1 * (y 1).val = (y 1).val; rw [e11]; omega
  refine funext fun (j : S2000x128.Idx) => ?_
  show k2_pay1 (F := Ideal) (iblk2 V c 0 t) (iblk2 V c 1 t) j = mm (V c main_v31) (V c main_v33) (((cfg2.win 2).blk t).view.emb j)
  rw [h1]
  have hj : (j : S2000x128.Idx) = ix2 (j 0) (j 1) := eq_ix2 j
  have he : ((cfg2.win 2).blk t).view.emb j = (ix2 (row ⟨t.val, hN⟩ (j 0)) (j 1) : S100000x128.Idx) := by
    funext a; apply Fin.ext
    match a with
    | ⟨0, _⟩ => show win2_2.index t (0 : Fin 2) * 2000 + 1 * (j 0).val = 2000 * t.val + (j 0).val; rw [e20]; omega
    | ⟨1, _⟩ => show win2_2.index t (1 : Fin 2) * 128 + 1 * (j 1).val = (j 1).val; rw [e21]; omega
  rw [he]
  exact (congrArg (k2_pay1 (F := Ideal) (iblk2 V c 0 t) (V c main_v33)) hj).trans
    (htile (V c main_v31) (V c main_v33) ⟨t.val, hN⟩ (iblk2 V c 0 t) h0 (j 0) (j 1))

/-- An index of the result array is in point `t`'s block iff each coordinate is in the block's range on its axis. -/
theorem mem_blk2 (t : Fin cfg2.N) (i : S100000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v34).slice (win2_2.rect t)).set ↔ _
  rw [View.set_slice_whole, Rect.mem_set_unit]
  exact Iff.rfl

/-- Every index of the result array is in the block of the point its row falls in: row `r` is in tile `r / 2000`. -/
theorem cover2 (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have ht : (i 0).val / 2000 < cfg2.N := by rw [show cfg2.N = 50 from N_2]; omega
  refine ⟨⟨(i 0).val / 2000, ht⟩, flush2_2 _, ?_⟩
  rw [mem_blk2]
  obtain ⟨e00, e01, e10, e11, e20, e21⟩ := mm_idx2 ⟨(i 0).val / 2000, ht⟩
  intro a
  match a with
  | ⟨0, _⟩ =>
    show win2_2.index ⟨(i 0).val / 2000, ht⟩ (0 : Fin 2) * 2000 ≤ (i 0).val ∧ (i 0).val < win2_2.index ⟨(i 0).val / 2000, ht⟩ (0 : Fin 2) * 2000 + 2000
    rw [e20]; show (i 0).val / 2000 * 2000 ≤ (i 0).val ∧ (i 0).val < (i 0).val / 2000 * 2000 + 2000; omega
  | ⟨1, _⟩ =>
    show win2_2.index ⟨(i 0).val / 2000, ht⟩ (1 : Fin 2) * 128 ≤ (i 1).val ∧ (i 1).val < win2_2.index ⟨(i 0).val / 2000, ht⟩ (1 : Fin 2) * 128 + 128
    rw [e21]; omega

/-- The result array of region 2 after all its points: the projection of the operand by the weight, given the tile's
    payload read at an entry. -/
theorem arr2 (c : Dev nD)
    (htile : ∀ (a : Arr Ideal Cert.ReferenceIdeal.S100000x128 .f32) (w : Arr Ideal Cert.ReferenceIdeal.S128x128 .f32) (t : Fin 50) (x0 : Vec Ideal S2000x128 .f32),
          (∀ (p : Fin 2000) (k : Fin 128), x0 (ix2 p k) = a (ix2 (row t p) k)) → ∀ (p : Fin 2000) (q : Fin 128), k2_pay1 (F := Ideal) x0 w (ix2 p q) = mm a w (ix2 (row t p) q)) :
    (dat2 (F := Ideal) V c).arrAt 2 cfg2.N = mm (V c main_v31) (V c main_v33) :=
  (dat2 (F := Ideal) V c).arrAt_eq_of_cover 2 (mm (V c main_v31) (V c main_v33)) (fun t _ => flushed2_eq V c htile t) cover2

end Cert.Val

end
-- ==== Proof.Val.A1.lean ====
/- The value of the two gate regions at the exact instance: after all 50 points a region's result array is the gated
   layer — one whole-array function — of the arrays the region was entered with, given that the body's payload at
   entry (p, k) of tile t is that layer at row 2000 t + p. Each point writes back the block of that function, and the
   blocks cover the array. -/
import proofs.«133321_j75213467287803_1_alg».proof.Proof.KI.R1
import proofs.«133321_j75213467287803_1_alg».proof.Proof.KI.R3
import proofs.«133321_j75213467287803_1_alg».proof.Proof.Val.RefOps
import Idealize.ShloMosaic.Lib.Pipeline.Value
import Idealize.ShloMosaic.Lib.ValueIdx

noncomputable section

namespace Cert.Val

open Idealize.ShloMosaic Idealize.ShloMosaic.ValueIdx Cert.KernelIdeal Cert.KernelIdeal.Gen Cert.KernelIdeal.Hand
open Idealize.ShloMosaic.TcCoe Idealize.SL Idealize.SL.RA Idealize.SL.Sem
open Idealize.ShloMosaic.Pipeline (Dat)

theorem gate_hz2 : (![0, 0] : Fin 2 → Nat) = fun _ => 0 := funext fun a => by fin_cases a <;> rfl
theorem gate_hz1 : (![0] : Fin 1 → Nat) = fun _ => 0 := funext fun a => by fin_cases a; rfl

/-- The printed index maps, decided over the grid: the row-blocked windows are at block `t` of the rows and block 0 of the
    columns, the small whole windows at block 0. -/
structure IdxFacts1 (t : Fin cfg1.N) : Prop where
  r00 : win1_0.index t (0 : Fin 2) = t.val
  r01 : win1_0.index t (1 : Fin 2) = 0
  r10 : win1_1.index t (0 : Fin 2) = t.val
  r11 : win1_1.index t (1 : Fin 2) = 0
  s2 : win1_2.index t (0 : Fin 1) = 0
  s3 : win1_3.index t (0 : Fin 1) = 0
  s4 : win1_4.index t (0 : Fin 1) = 0
  s5 : win1_5.index t (0 : Fin 1) = 0
  r60 : win1_6.index t (0 : Fin 2) = t.val
  r61 : win1_6.index t (1 : Fin 2) = 0

theorem idx_facts1_raw : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 1) = 0 ∧ win1_3.index t (0 : Fin 1) = 0 ∧ win1_4.index t (0 : Fin 1) = 0 ∧ win1_5.index t (0 : Fin 1) = 0
    ∧ win1_6.index t (0 : Fin 2) = t.val ∧ win1_6.index t (1 : Fin 2) = 0 :=
  (by decide +kernel : ∀ t : Fin grid1.N, _)

theorem idx_facts1 (t : Fin cfg1.N) : IdxFacts1 t := by
  obtain ⟨a0, a1, a2, a3, a4, a5, a6, a7, a8, a9⟩ := idx_facts1_raw t
  exact ⟨a0, a1, a2, a3, a4, a5, a6, a7, a8, a9⟩

/-- The printed index maps, decided over the grid: the row-blocked windows are at block `t` of the rows and block 0 of the
    columns, the small whole windows at block 0. -/
structure IdxFacts3 (t : Fin cfg3.N) : Prop where
  r00 : win3_0.index t (0 : Fin 2) = t.val
  r01 : win3_0.index t (1 : Fin 2) = 0
  r10 : win3_1.index t (0 : Fin 2) = t.val
  r11 : win3_1.index t (1 : Fin 2) = 0
  s2 : win3_2.index t (0 : Fin 1) = 0
  s3 : win3_3.index t (0 : Fin 1) = 0
  s4 : win3_4.index t (0 : Fin 1) = 0
  s5 : win3_5.index t (0 : Fin 1) = 0
  r60 : win3_6.index t (0 : Fin 2) = t.val
  r61 : win3_6.index t (1 : Fin 2) = 0

theorem idx_facts3_raw : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 1) = 0 ∧ win3_3.index t (0 : Fin 1) = 0 ∧ win3_4.index t (0 : Fin 1) = 0 ∧ win3_5.index t (0 : Fin 1) = 0
    ∧ win3_6.index t (0 : Fin 2) = t.val ∧ win3_6.index t (1 : Fin 2) = 0 :=
  (by decide +kernel : ∀ t : Fin grid3.N, _)

theorem idx_facts3 (t : Fin cfg3.N) : IdxFacts3 t := by
  obtain ⟨a0, a1, a2, a3, a4, a5, a6, a7, a8, a9⟩ := idx_facts3_raw t
  exact ⟨a0, a1, a2, a3, a4, a5, a6, a7, a8, a9⟩

variable [Cert.KernelIdeal.Facts] [Cert.ReferenceIdeal.Facts]
variable (V : (c : Dev nD) → (b : Ref sig .tc) → Buf (Elt Ideal) ((c : Thread nD τ).loc b))

/-! # Region 1: the result array after the last point -/

/-- Input window 0's block at point `t` is rows `2000 t …` of its array. -/
theorem iblk1_0_apply (c : Dev nD) (t : Fin cfg1.N) (p : Fin 2000) (k : Fin 128) :
    (iblk1 V c 0 t : Vec Ideal S2000x128 .f32) (ix2 p k) = (V c main_v17 : Arr Ideal S100000x128 .f32) (ix2 (row ⟨t.val, lt_of_lt_of_eq t.isLt N_1⟩ p) k) := by
  have e0 := (idx_facts1 t).r00
  have e1 := (idx_facts1 t).r01
  unfold iblk1
  rw [View.read_apply]
  show V c main_v17 _ = V c main_v17 _
  congr 1
  funext a
  apply Fin.ext
  match a with
  | ⟨0, _⟩ => show win1_0.index t (0 : Fin 2) * 2000 + 1 * p.val = 2000 * t.val + p.val; rw [e0]; omega
  | ⟨1, _⟩ => show win1_0.index t (1 : Fin 2) * 128 + 1 * k.val = k.val; rw [e1]; omega

/-- Input window 1's block at point `t` is rows `2000 t …` of its array. -/
theorem iblk1_1_apply (c : Dev nD) (t : Fin cfg1.N) (p : Fin 2000) (k : Fin 128) :
    (iblk1 V c 1 t : Vec Ideal S2000x128 .f32) (ix2 p k) = (V c main_v17 : Arr Ideal S100000x128 .f32) (ix2 (row ⟨t.val, lt_of_lt_of_eq t.isLt N_1⟩ p) k) := by
  have e0 := (idx_facts1 t).r10
  have e1 := (idx_facts1 t).r11
  unfold iblk1
  rw [View.read_apply]
  show V c main_v17 _ = V c main_v17 _
  congr 1
  funext a
  apply Fin.ext
  match a with
  | ⟨0, _⟩ => show win1_1.index t (0 : Fin 2) * 2000 + 1 * p.val = 2000 * t.val + p.val; rw [e0]; omega
  | ⟨1, _⟩ => show win1_1.index t (1 : Fin 2) * 128 + 1 * k.val = k.val; rw [e1]; omega

/-- Input window 2's block at every point is its whole array. -/
theorem iblk1_2_eq (c : Dev nD) (t : Fin cfg1.N) : (iblk1 V c 2 t : Vec Ideal S128 .f32) = (V c main_v1 : Arr Ideal S128 .f32) := by
  have e0 := (idx_facts1 t).s2
  funext j
  unfold iblk1
  rw [View.read_apply]
  show V c main_v1 _ = V c main_v1 _
  congr 1
  funext a
  apply Fin.ext
  match a with
  | ⟨0, _⟩ => show win1_2.index t (0 : Fin 1) * 128 + 1 * (j 0).val = (j 0).val; rw [e0]; omega

/-- Input window 3's block at every point is its whole array. -/
theorem iblk1_3_eq (c : Dev nD) (t : Fin cfg1.N) : (iblk1 V c 3 t : Vec Ideal S128 .f32) = (V c main_v3 : Arr Ideal S128 .f32) := by
  have e0 := (idx_facts1 t).s3
  funext j
  unfold iblk1
  rw [View.read_apply]
  show V c main_v3 _ = V c main_v3 _
  congr 1
  funext a
  apply Fin.ext
  match a with
  | ⟨0, _⟩ => show win1_3.index t (0 : Fin 1) * 128 + 1 * (j 0).val = (j 0).val; rw [e0]; omega

/-- Input window 4's block at every point is its whole array. -/
theorem iblk1_4_eq (c : Dev nD) (t : Fin cfg1.N) : (iblk1 V c 4 t : Vec Ideal S1 .f32) = (V c main_arg7 : Arr Ideal S1 .f32) := by
  have e0 := (idx_facts1 t).s4
  funext j
  unfold iblk1
  rw [View.read_apply]
  show V c main_arg7 _ = V c main_arg7 _
  congr 1
  funext a
  apply Fin.ext
  match a with
  | ⟨0, _⟩ => show win1_4.index t (0 : Fin 1) * 1 + 1 * (j 0).val = (j 0).val; rw [e0]; omega

/-- Input window 5's block at every point is its whole array. -/
theorem iblk1_5_eq (c : Dev nD) (t : Fin cfg1.N) : (iblk1 V c 5 t : Vec Ideal S1 .f32) = (V c main_arg10 : Arr Ideal S1 .f32) := by
  have e0 := (idx_facts1 t).s5
  funext j
  unfold iblk1
  rw [View.read_apply]
  show V c main_arg10 _ = V c main_arg10 _
  congr 1
  funext a
  apply Fin.ext
  match a with
  | ⟨0, _⟩ => show win1_5.index t (0 : Fin 1) * 1 + 1 * (j 0).val = (j 0).val; rw [e0]; omega

/-- A block whose entry `(p, k)` is entry `(2000 t + p, k)` of a whole array is that array read through the output
    window's block at point `t`. -/
theorem cut1_6 (t : Fin cfg1.N) (P : Vec Ideal S2000x128 .f32) (G : Arr Ideal S100000x128 .f32)
    (h : ∀ (p : Fin 2000) (k : Fin 128), P (ix2 p k) = G (ix2 (row ⟨t.val, lt_of_lt_of_eq t.isLt N_1⟩ p) k)) :
    (cfg1.win 6).cut (grid1.coords t) P = ((cfg1.win 6).blk t).view.read (Elt Ideal) G := by
  have e0 := (idx_facts1 t).r60
  have e1 := (idx_facts1 t).r61
  funext j
  show P j = G (((cfg1.win 6).blk t).view.emb j)
  refine (congrArg P (eq_ix2 (n0 := 2000) (n1 := 128) j)).trans ((h (j (0 : Fin 2)) (j (1 : Fin 2))).trans (congrArg G ?_))
  funext a
  apply Fin.ext
  match a with
  | ⟨0, _⟩ => show 2000 * t.val + (j (0 : Fin 2)).val = win1_6.index t (0 : Fin 2) * 2000 + 1 * (j (0 : Fin 2)).val; rw [e0]; omega
  | ⟨1, _⟩ => show (j (1 : Fin 2)).val = win1_6.index t (1 : Fin 2) * 128 + 1 * (j (1 : Fin 2)).val; rw [e1]; omega

/-- What point `t` writes back is block `t` of the gated layer of the arrays the region was entered with. -/
theorem flushed1_eq (q : Fin cfg1.W → PosShare TreeShare) (c : Dev nD) (aw : Arr Ideal Cert.ReferenceIdeal.S256x1 .f32)
    (hw1 : ∀ k : Fin 128, V c main_v1 (ix1 k) = aw (ix2 (⟨k.val, by omega⟩ : Fin 256) (0 : Fin 1)))
    (hw3 : ∀ k : Fin 128, V c main_v3 (ix1 k) = aw (ix2 (⟨128 + k.val, by omega⟩ : Fin 256) (0 : Fin 1)))
    (htile : ∀ (x xin : Arr Ideal Cert.ReferenceIdeal.S100000x128 .f32) (aw : Arr Ideal Cert.ReferenceIdeal.S256x1 .f32) (b pw : Arr Ideal Cert.ReferenceIdeal.S1 .f32) (t : Fin 50)
        (x0 x1 : Vec Ideal S2000x128 .f32) (w1 w3 : Vec Ideal S128 .f32),
        (∀ (p : Fin 2000) (k : Fin 128), x0 (ix2 p k) = x (ix2 (row t p) k)) → (∀ (p : Fin 2000) (k : Fin 128), x1 (ix2 p k) = xin (ix2 (row t p) k)) →
        (∀ k : Fin 128, w1 (ix1 k) = aw (ix2 (⟨k.val, by omega⟩ : Fin 256) (0 : Fin 1))) → (∀ k : Fin 128, w3 (ix1 k) = aw (ix2 (⟨128 + k.val, by omega⟩ : Fin 256) (0 : Fin 1))) →
        ∀ (p : Fin 2000) (q : Fin 128), k1_pay1 (F := Ideal) x0 x1 w1 w3 b pw (ix2 p q) = gate x xin aw b pw (ix2 (row t p) q))
    (t : Fin cfg1.N) :
    (dat1 (F := Ideal) V q c).flushed 6 t = ((cfg1.win 6).blk t).view.read (Elt Ideal) (gate (V c main_v17) (V c main_v17) aw (V c main_arg7) (V c main_arg10)) := by
  show (cfg1.win 6).cut (grid1.coords t) ((dat1 V q c).after 6 t) = _
  rw [after1_6]
  unfold out1_6
  rw [View.canon_unit_zero gate_hz2]
  simp only [View.ld_unit_zero (S := S2000x128) gate_hz2, View.ld_unit_zero (S := S128) gate_hz1, View.ld_unit_zero (S := S1) gate_hz1]
  rw [iblk1_4_eq V c t, iblk1_5_eq V c t]
  exact cut1_6 t _ _ (htile (V c main_v17) (V c main_v17) aw (V c main_arg7) (V c main_arg10) ⟨t.val, lt_of_lt_of_eq t.isLt N_1⟩
    (iblk1 V c 0 t) (iblk1 V c 1 t) (iblk1 V c 2 t) (iblk1 V c 3 t) (iblk1_0_apply V c t) (iblk1_1_apply V c t)
    (fun k => (congrFun (iblk1_2_eq V c t) _).trans (hw1 k)) (fun k => (congrFun (iblk1_3_eq V c t) _).trans (hw3 k)))

/-- An index of the result array is in point `t`'s block iff each coordinate is in the block's range on its axis. -/
theorem mem_blk1 (t : Fin cfg1.N) (i : S100000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v18).slice (win1_6.rect t)).set ↔ _
  rw [View.set_slice_whole, Rect.mem_set_unit]
  exact Iff.rfl

/-- Every row is in the block of the point numbered by the row's tile. -/
theorem cover1 (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  have ht : (i 0).val / 2000 < cfg1.N := by rw [show cfg1.N = 50 from N_1]; omega
  have e0 := (idx_facts1 ⟨(i 0).val / 2000, ht⟩).r60
  have e1 := (idx_facts1 ⟨(i 0).val / 2000, ht⟩).r61
  refine ⟨⟨(i 0).val / 2000, ht⟩, flush1_6 _, ?_⟩
  rw [mem_blk1]
  intro a
  match a with
  | ⟨0, _⟩ =>
    show win1_6.index ⟨(i 0).val / 2000, ht⟩ (0 : Fin 2) * 2000 ≤ (i 0).val ∧ (i 0).val < win1_6.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_6.index ⟨(i 0).val / 2000, ht⟩ (1 : Fin 2) * 128 ≤ (i 1).val ∧ (i 1).val < win1_6.index ⟨(i 0).val / 2000, ht⟩ (1 : Fin 2) * 128 + 128
    rw [e1]; omega

/-- The result array after all 50 points is the gated layer of the arrays the region was entered with. -/
theorem arr1 (q : Fin cfg1.W → PosShare TreeShare) (c : Dev nD) (aw : Arr Ideal Cert.ReferenceIdeal.S256x1 .f32)
    (hw1 : ∀ k : Fin 128, V c main_v1 (ix1 k) = aw (ix2 (⟨k.val, by omega⟩ : Fin 256) (0 : Fin 1)))
    (hw3 : ∀ k : Fin 128, V c main_v3 (ix1 k) = aw (ix2 (⟨128 + k.val, by omega⟩ : Fin 256) (0 : Fin 1)))
    (htile : ∀ (x xin : Arr Ideal Cert.ReferenceIdeal.S100000x128 .f32) (aw : Arr Ideal Cert.ReferenceIdeal.S256x1 .f32) (b pw : Arr Ideal Cert.ReferenceIdeal.S1 .f32) (t : Fin 50)
        (x0 x1 : Vec Ideal S2000x128 .f32) (w1 w3 : Vec Ideal S128 .f32),
        (∀ (p : Fin 2000) (k : Fin 128), x0 (ix2 p k) = x (ix2 (row t p) k)) → (∀ (p : Fin 2000) (k : Fin 128), x1 (ix2 p k) = xin (ix2 (row t p) k)) →
        (∀ k : Fin 128, w1 (ix1 k) = aw (ix2 (⟨k.val, by omega⟩ : Fin 256) (0 : Fin 1))) → (∀ k : Fin 128, w3 (ix1 k) = aw (ix2 (⟨128 + k.val, by omega⟩ : Fin 256) (0 : Fin 1))) →
        ∀ (p : Fin 2000) (q : Fin 128), k1_pay1 (F := Ideal) x0 x1 w1 w3 b pw (ix2 p q) = gate x xin aw b pw (ix2 (row t p) q)) :
    (dat1 (F := Ideal) V q c).arrAt 6 cfg1.N = gate (V c main_v17) (V c main_v17) aw (V c main_arg7) (V c main_arg10) :=
  (dat1 (F := Ideal) V q c).arrAt_eq_of_cover 6 (gate (V c main_v17) (V c main_v17) aw (V c main_arg7) (V c main_arg10))
    (fun t _ => flushed1_eq V q c aw hw1 hw3 htile t) cover1

/-! # Region 3: the result array after the last point -/

/-- Input window 0's block at point `t` is rows `2000 t …` of its array. -/
theorem iblk3_0_apply (c : Dev nD) (t : Fin cfg3.N) (p : Fin 2000) (k : Fin 128) :
    (iblk3 V c 0 t : Vec Ideal S2000x128 .f32) (ix2 p k) = (V c main_v34 : Arr Ideal S100000x128 .f32) (ix2 (row ⟨t.val, lt_of_lt_of_eq t.isLt N_3⟩ p) k) := by
  have e0 := (idx_facts3 t).r00
  have e1 := (idx_facts3 t).r01
  unfold iblk3
  rw [View.read_apply]
  show V c main_v34 _ = V c main_v34 _
  congr 1
  funext a
  apply Fin.ext
  match a with
  | ⟨0, _⟩ => show win3_0.index t (0 : Fin 2) * 2000 + 1 * p.val = 2000 * t.val + p.val; rw [e0]; omega
  | ⟨1, _⟩ => show win3_0.index t (1 : Fin 2) * 128 + 1 * k.val = k.val; rw [e1]; omega

/-- Input window 1's block at point `t` is rows `2000 t …` of its array. -/
theorem iblk3_1_apply (c : Dev nD) (t : Fin cfg3.N) (p : Fin 2000) (k : Fin 128) :
    (iblk3 V c 1 t : Vec Ideal S2000x128 .f32) (ix2 p k) = (V c main_v17 : Arr Ideal S100000x128 .f32) (ix2 (row ⟨t.val, lt_of_lt_of_eq t.isLt N_3⟩ p) k) := by
  have e0 := (idx_facts3 t).r10
  have e1 := (idx_facts3 t).r11
  unfold iblk3
  rw [View.read_apply]
  show V c main_v17 _ = V c main_v17 _
  congr 1
  funext a
  apply Fin.ext
  match a with
  | ⟨0, _⟩ => show win3_1.index t (0 : Fin 2) * 2000 + 1 * p.val = 2000 * t.val + p.val; rw [e0]; omega
  | ⟨1, _⟩ => show win3_1.index t (1 : Fin 2) * 128 + 1 * k.val = k.val; rw [e1]; omega

/-- Input window 2's block at every point is its whole array. -/
theorem iblk3_2_eq (c : Dev nD) (t : Fin cfg3.N) : (iblk3 V c 2 t : Vec Ideal S128 .f32) = (V c main_v1 : Arr Ideal S128 .f32) := by
  have e0 := (idx_facts3 t).s2
  funext j
  unfold iblk3
  rw [View.read_apply]
  show V c main_v1 _ = V c main_v1 _
  congr 1
  funext a
  apply Fin.ext
  match a with
  | ⟨0, _⟩ => show win3_2.index t (0 : Fin 1) * 128 + 1 * (j 0).val = (j 0).val; rw [e0]; omega

/-- Input window 3's block at every point is its whole array. -/
theorem iblk3_3_eq (c : Dev nD) (t : Fin cfg3.N) : (iblk3 V c 3 t : Vec Ideal S128 .f32) = (V c main_v3 : Arr Ideal S128 .f32) := by
  have e0 := (idx_facts3 t).s3
  funext j
  unfold iblk3
  rw [View.read_apply]
  show V c main_v3 _ = V c main_v3 _
  congr 1
  funext a
  apply Fin.ext
  match a with
  | ⟨0, _⟩ => show win3_3.index t (0 : Fin 1) * 128 + 1 * (j 0).val = (j 0).val; rw [e0]; omega

/-- Input window 4's block at every point is its whole array. -/
theorem iblk3_4_eq (c : Dev nD) (t : Fin cfg3.N) : (iblk3 V c 4 t : Vec Ideal S1 .f32) = (V c main_arg7 : Arr Ideal S1 .f32) := by
  have e0 := (idx_facts3 t).s4
  funext j
  unfold iblk3
  rw [View.read_apply]
  show V c main_arg7 _ = V c main_arg7 _
  congr 1
  funext a
  apply Fin.ext
  match a with
  | ⟨0, _⟩ => show win3_4.index t (0 : Fin 1) * 1 + 1 * (j 0).val = (j 0).val; rw [e0]; omega

/-- Input window 5's block at every point is its whole array. -/
theorem iblk3_5_eq (c : Dev nD) (t : Fin cfg3.N) : (iblk3 V c 5 t : Vec Ideal S1 .f32) = (V c main_arg10 : Arr Ideal S1 .f32) := by
  have e0 := (idx_facts3 t).s5
  funext j
  unfold iblk3
  rw [View.read_apply]
  show V c main_arg10 _ = V c main_arg10 _
  congr 1
  funext a
  apply Fin.ext
  match a with
  | ⟨0, _⟩ => show win3_5.index t (0 : Fin 1) * 1 + 1 * (j 0).val = (j 0).val; rw [e0]; omega

/-- A block whose entry `(p, k)` is entry `(2000 t + p, k)` of a whole array is that array read through the output
    window's block at point `t`. -/
theorem cut3_6 (t : Fin cfg3.N) (P : Vec Ideal S2000x128 .f32) (G : Arr Ideal S100000x128 .f32)
    (h : ∀ (p : Fin 2000) (k : Fin 128), P (ix2 p k) = G (ix2 (row ⟨t.val, lt_of_lt_of_eq t.isLt N_3⟩ p) k)) :
    (cfg3.win 6).cut (grid3.coords t) P = ((cfg3.win 6).blk t).view.read (Elt Ideal) G := by
  have e0 := (idx_facts3 t).r60
  have e1 := (idx_facts3 t).r61
  funext j
  show P j = G (((cfg3.win 6).blk t).view.emb j)
  refine (congrArg P (eq_ix2 (n0 := 2000) (n1 := 128) j)).trans ((h (j (0 : Fin 2)) (j (1 : Fin 2))).trans (congrArg G ?_))
  funext a
  apply Fin.ext
  match a with
  | ⟨0, _⟩ => show 2000 * t.val + (j (0 : Fin 2)).val = win3_6.index t (0 : Fin 2) * 2000 + 1 * (j (0 : Fin 2)).val; rw [e0]; omega
  | ⟨1, _⟩ => show (j (1 : Fin 2)).val = win3_6.index t (1 : Fin 2) * 128 + 1 * (j (1 : Fin 2)).val; rw [e1]; omega

/-- What point `t` writes back is block `t` of the gated layer of the arrays the region was entered with. -/
theorem flushed3_eq (q : Fin cfg3.W → PosShare TreeShare) (c : Dev nD) (aw : Arr Ideal Cert.ReferenceIdeal.S256x1 .f32)
    (hw1 : ∀ k : Fin 128, V c main_v1 (ix1 k) = aw (ix2 (⟨k.val, by omega⟩ : Fin 256) (0 : Fin 1)))
    (hw3 : ∀ k : Fin 128, V c main_v3 (ix1 k) = aw (ix2 (⟨128 + k.val, by omega⟩ : Fin 256) (0 : Fin 1)))
    (htile : ∀ (x xin : Arr Ideal Cert.ReferenceIdeal.S100000x128 .f32) (aw : Arr Ideal Cert.ReferenceIdeal.S256x1 .f32) (b pw : Arr Ideal Cert.ReferenceIdeal.S1 .f32) (t : Fin 50)
        (x0 x1 : Vec Ideal S2000x128 .f32) (w1 w3 : Vec Ideal S128 .f32),
        (∀ (p : Fin 2000) (k : Fin 128), x0 (ix2 p k) = x (ix2 (row t p) k)) → (∀ (p : Fin 2000) (k : Fin 128), x1 (ix2 p k) = xin (ix2 (row t p) k)) →
        (∀ k : Fin 128, w1 (ix1 k) = aw (ix2 (⟨k.val, by omega⟩ : Fin 256) (0 : Fin 1))) → (∀ k : Fin 128, w3 (ix1 k) = aw (ix2 (⟨128 + k.val, by omega⟩ : Fin 256) (0 : Fin 1))) →
        ∀ (p : Fin 2000) (q : Fin 128), k3_pay1 (F := Ideal) x0 x1 w1 w3 b pw (ix2 p q) = gate x xin aw b pw (ix2 (row t p) q))
    (t : Fin cfg3.N) :
    (dat3 (F := Ideal) V q c).flushed 6 t = ((cfg3.win 6).blk t).view.read (Elt Ideal) (gate (V c main_v34) (V c main_v17) aw (V c main_arg7) (V c main_arg10)) := by
  show (cfg3.win 6).cut (grid3.coords t) ((dat3 V q c).after 6 t) = _
  rw [after3_6]
  unfold out3_6
  rw [View.canon_unit_zero gate_hz2]
  simp only [View.ld_unit_zero (S := S2000x128) gate_hz2, View.ld_unit_zero (S := S128) gate_hz1, View.ld_unit_zero (S := S1) gate_hz1]
  rw [iblk3_4_eq V c t, iblk3_5_eq V c t]
  exact cut3_6 t _ _ (htile (V c main_v34) (V c main_v17) aw (V c main_arg7) (V c main_arg10) ⟨t.val, lt_of_lt_of_eq t.isLt N_3⟩
    (iblk3 V c 0 t) (iblk3 V c 1 t) (iblk3 V c 2 t) (iblk3 V c 3 t) (iblk3_0_apply V c t) (iblk3_1_apply V c t)
    (fun k => (congrFun (iblk3_2_eq V c t) _).trans (hw1 k)) (fun k => (congrFun (iblk3_3_eq V c t) _).trans (hw3 k)))

/-- An index of the result array is in point `t`'s block iff each coordinate is in the block's range on its axis. -/
theorem mem_blk3 (t : Fin cfg3.N) (i : S100000x128.Idx) :
    i ∈ ((cfg3.win 6).blk t).view.set ↔ ∀ a : Fin 2, win3_6.index t a * S2000x128.size a ≤ (i a).val ∧ (i a).val < win3_6.index t a * S2000x128.size a + S2000x128.size a := by
  show i ∈ ((View.whole main_v35).slice (win3_6.rect t)).set ↔ _
  rw [View.set_slice_whole, Rect.mem_set_unit]
  exact Iff.rfl

/-- Every row is in the block of the point numbered by the row's tile. -/
theorem cover3 (i : S100000x128.Idx) : ∃ t : Fin cfg3.N, (cfg3.win 6).flush t = true ∧ i ∈ ((cfg3.win 6).blk t).view.set := by
  have hi0 : (i 0).val < 100000 := (i 0).isLt
  have hi1 : (i 1).val < 128 := (i 1).isLt
  have ht : (i 0).val / 2000 < cfg3.N := by rw [show cfg3.N = 50 from N_3]; omega
  have e0 := (idx_facts3 ⟨(i 0).val / 2000, ht⟩).r60
  have e1 := (idx_facts3 ⟨(i 0).val / 2000, ht⟩).r61
  refine ⟨⟨(i 0).val / 2000, ht⟩, flush3_6 _, ?_⟩
  rw [mem_blk3]
  intro a
  match a with
  | ⟨0, _⟩ =>
    show win3_6.index ⟨(i 0).val / 2000, ht⟩ (0 : Fin 2) * 2000 ≤ (i 0).val ∧ (i 0).val < win3_6.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win3_6.index ⟨(i 0).val / 2000, ht⟩ (1 : Fin 2) * 128 ≤ (i 1).val ∧ (i 1).val < win3_6.index ⟨(i 0).val / 2000, ht⟩ (1 : Fin 2) * 128 + 128
    rw [e1]; omega

/-- The result array after all 50 points is the gated layer of the arrays the region was entered with. -/
theorem arr3 (q : Fin cfg3.W → PosShare TreeShare) (c : Dev nD) (aw : Arr Ideal Cert.ReferenceIdeal.S256x1 .f32)
    (hw1 : ∀ k : Fin 128, V c main_v1 (ix1 k) = aw (ix2 (⟨k.val, by omega⟩ : Fin 256) (0 : Fin 1)))
    (hw3 : ∀ k : Fin 128, V c main_v3 (ix1 k) = aw (ix2 (⟨128 + k.val, by omega⟩ : Fin 256) (0 : Fin 1)))
    (htile : ∀ (x xin : Arr Ideal Cert.ReferenceIdeal.S100000x128 .f32) (aw : Arr Ideal Cert.ReferenceIdeal.S256x1 .f32) (b pw : Arr Ideal Cert.ReferenceIdeal.S1 .f32) (t : Fin 50)
        (x0 x1 : Vec Ideal S2000x128 .f32) (w1 w3 : Vec Ideal S128 .f32),
        (∀ (p : Fin 2000) (k : Fin 128), x0 (ix2 p k) = x (ix2 (row t p) k)) → (∀ (p : Fin 2000) (k : Fin 128), x1 (ix2 p k) = xin (ix2 (row t p) k)) →
        (∀ k : Fin 128, w1 (ix1 k) = aw (ix2 (⟨k.val, by omega⟩ : Fin 256) (0 : Fin 1))) → (∀ k : Fin 128, w3 (ix1 k) = aw (ix2 (⟨128 + k.val, by omega⟩ : Fin 256) (0 : Fin 1))) →
        ∀ (p : Fin 2000) (q : Fin 128), k3_pay1 (F := Ideal) x0 x1 w1 w3 b pw (ix2 p q) = gate x xin aw b pw (ix2 (row t p) q)) :
    (dat3 (F := Ideal) V q c).arrAt 6 cfg3.N = gate (V c main_v34) (V c main_v17) aw (V c main_arg7) (V c main_arg10) :=
  (dat3 (F := Ideal) V q c).arrAt_eq_of_cover 6 (gate (V c main_v34) (V c main_v17) aw (V c main_arg7) (V c main_arg10))
    (fun t _ => flushed3_eq V q c aw hw1 hw3 htile t) cover3

end Cert.Val

end
-- ==== Proof.Val.A4.lean ====
/- The value of region 4 at the exact instance: after the write-backs of all fifty grid points, the region's result
   array is the output layer of the reference applied to the arrays the region was entered with — given that the
   body's payload on tile `t` is that layer on the tile's rows. Each input block is read where the output's block
   says (row block `t` of the features, the small arrays whole), every point writes back block `t` of that one
   whole-array function, and the fifty row blocks cover the array. -/
import proofs.«133321_j75213467287803_1_alg».proof.Proof.KI.R4
import proofs.«133321_j75213467287803_1_alg».proof.Proof.Val.RefOps
import Idealize.ShloMosaic.Lib.Pipeline.Value
import Idealize.ShloMosaic.Lib.ValueIdx

set_option maxRecDepth 16384

noncomputable section

namespace Cert.Val

open Idealize.ShloMosaic Idealize.ShloMosaic.ValueIdx Cert.KernelIdeal Cert.KernelIdeal.Gen Cert.KernelIdeal.Hand
open Idealize.ShloMosaic.TcCoe Idealize.SL.Sem
open Idealize.ShloMosaic.Pipeline (Dat)

/-- The block indices at every grid point, decided once over the fifty points (before any instance of the program's
    facts is assumed): the feature window and the result window are at row block `t`, column block zero; every small
    array's window is at block zero. -/
theorem index_conj4 : ∀ t : Fin cfg4.N, win4_0.index t (0 : Fin 2) = t.val ∧ win4_0.index t (1 : Fin 2) = 0
      ∧ win4_1.index t (0 : Fin 2) = 0 ∧ win4_1.index t (1 : Fin 2) = 0
      ∧ win4_2.index t (0 : Fin 1) = 0
      ∧ win4_3.index t (0 : Fin 2) = 0 ∧ win4_3.index t (1 : Fin 2) = 0
      ∧ win4_4.index t (0 : Fin 1) = 0
      ∧ win4_5.index t (0 : Fin 2) = t.val ∧ win4_5.index t (1 : Fin 2) = 0 :=
  (by decide +kernel : ∀ t : Fin grid4.N, _)

variable [Cert.KernelIdeal.Facts] [Cert.ReferenceIdeal.Facts]
variable (V : (c : Dev nD) → (b : Ref sig .tc) → Buf (Elt Ideal) ((c : Thread nD τ).loc b))

/-- The zero offsets of a rank-2 and of a rank-1 whole-block rectangle. -/
theorem zeros2 : (![0, 0] : Fin 2 → Nat) = fun _ => 0 := funext fun a => by fin_cases a <;> rfl
theorem zeros1 : (![0] : Fin 1 → Nat) = fun _ => 0 := funext fun a => by fin_cases a <;> rfl

/-- The block indices at grid point `t`, decided once over the fifty points: the feature window and the result window
    are at row block `t`, column block zero; every small array's window is at block zero. -/
structure IndexFacts4 (t : Fin cfg4.N) : Prop where
  w0_0 : win4_0.index t (0 : Fin 2) = t.val
  w0_1 : win4_0.index t (1 : Fin 2) = 0
  w1_0 : win4_1.index t (0 : Fin 2) = 0
  w1_1 : win4_1.index t (1 : Fin 2) = 0
  w2_0 : win4_2.index t (0 : Fin 1) = 0
  w3_0 : win4_3.index t (0 : Fin 2) = 0
  w3_1 : win4_3.index t (1 : Fin 2) = 0
  w4_0 : win4_4.index t (0 : Fin 1) = 0
  w5_0 : win4_5.index t (0 : Fin 2) = t.val
  w5_1 : win4_5.index t (1 : Fin 2) = 0

theorem index_facts4 (t : Fin cfg4.N) : IndexFacts4 t :=
  have h := index_conj4 t
  ⟨h.1, h.2.1, h.2.2.1, h.2.2.2.1, h.2.2.2.2.1, h.2.2.2.2.2.1, h.2.2.2.2.2.2.1, h.2.2.2.2.2.2.2.1, h.2.2.2.2.2.2.2.2.1, h.2.2.2.2.2.2.2.2.2⟩

/-! ## The input blocks, read off the arrays -/

/-- Window 1's block is its whole array at every point: its block index is zero on every axis. -/
theorem iblk4_1_eq (c : Dev nD) (t : Fin cfg4.N) :
    (iblk4 V c 1 t : Vec Ideal S128x128 .f32) = (V c main_v50 : S128x128.Idx → Elt Ideal .f32) := by
  have hi := index_facts4 t
  funext y
  show V c main_v50 (((cfg4.win 1).blk t).view.emb y) = V c main_v50 y
  congr 1
  funext a; apply Fin.ext
  match a with
  | ⟨0, _⟩ => show win4_1.index t (0 : Fin 2) * 128 + 1 * (y 0).val = (y 0).val; have := hi.w1_0; omega
  | ⟨1, _⟩ => show win4_1.index t (1 : Fin 2) * 128 + 1 * (y 1).val = (y 1).val; have := hi.w1_1; omega

/-- Window 2's block is its whole array at every point: its block index is zero on every axis. -/
theorem iblk4_2_eq (c : Dev nD) (t : Fin cfg4.N) :
    (iblk4 V c 2 t : Vec Ideal S1 .f32) = (V c main_arg10 : S1.Idx → Elt Ideal .f32) := by
  have hi := index_facts4 t
  funext y
  show V c main_arg10 (((cfg4.win 2).blk t).view.emb y) = V c main_arg10 y
  congr 1
  funext a; apply Fin.ext
  match a with
  | ⟨0, _⟩ => show win4_2.index t (0 : Fin 1) * 1 + 1 * (y 0).val = (y 0).val; have := hi.w2_0; omega

/-- Window 3's block is its whole array at every point: its block index is zero on every axis. -/
theorem iblk4_3_eq (c : Dev nD) (t : Fin cfg4.N) :
    (iblk4 V c 3 t : Vec Ideal S128x64 .f32) = (V c main_arg8 : S128x64.Idx → Elt Ideal .f32) := by
  have hi := index_facts4 t
  funext y
  show V c main_arg8 (((cfg4.win 3).blk t).view.emb y) = V c main_arg8 y
  congr 1
  funext a; apply Fin.ext
  match a with
  | ⟨0, _⟩ => show win4_3.index t (0 : Fin 2) * 128 + 1 * (y 0).val = (y 0).val; have := hi.w3_0; omega
  | ⟨1, _⟩ => show win4_3.index t (1 : Fin 2) * 64 + 1 * (y 1).val = (y 1).val; have := hi.w3_1; omega

/-- Window 4's block is its whole array at every point: its block index is zero on every axis. -/
theorem iblk4_4_eq (c : Dev nD) (t : Fin cfg4.N) :
    (iblk4 V c 4 t : Vec Ideal S64 .f32) = (V c main_arg9 : S64.Idx → Elt Ideal .f32) := by
  have hi := index_facts4 t
  funext y
  show V c main_arg9 (((cfg4.win 4).blk t).view.emb y) = V c main_arg9 y
  congr 1
  funext a; apply Fin.ext
  match a with
  | ⟨0, _⟩ => show win4_4.index t (0 : Fin 1) * 64 + 1 * (y 0).val = (y 0).val; have := hi.w4_0; omega

/-- The feature window's block at point `t` is rows `2000 t …` of its array. -/
theorem iblk4_0_apply (c : Dev nD) (t : Fin cfg4.N) (p : Fin 2000) (k : Fin 128) :
    (iblk4 V c 0 t : Vec Ideal S2000x128 .f32) (ix2 p k) = (V c main_v48 : S100000x128.Idx → Elt Ideal .f32) (ix2 (row (Fin.cast N_4 t) p) k) := by
  have hi := index_facts4 t
  show V c main_v48 (((cfg4.win 0).blk t).view.emb (ix2 p k)) = V c main_v48 (ix2 (row (Fin.cast N_4 t) p) k)
  congr 1
  funext a; apply Fin.ext
  match a with
  | ⟨0, _⟩ => show win4_0.index t (0 : Fin 2) * 2000 + 1 * p.val = 2000 * t.val + p.val; have := hi.w0_0; omega
  | ⟨1, _⟩ => show win4_0.index t (1 : Fin 2) * 128 + 1 * k.val = k.val; have := hi.w0_1; omega

/-! ## What a point writes back -/

/-- An element of the result window's block at point `t` sits at row `2000 t + p`, column `q`. -/
theorem emb4_5 (t : Fin cfg4.N) (p : Fin 2000) (q : Fin 64) :
    (((cfg4.win 5).blk t).view.emb (ix2 p q) : S100000x64.Idx) = ix2 (row (Fin.cast N_4 t) p) q := by
  have hi := index_facts4 t
  funext a; apply Fin.ext
  match a with
  | ⟨0, _⟩ => show win4_5.index t (0 : Fin 2) * 2000 + 1 * p.val = 2000 * t.val + p.val; have := hi.w5_0; omega
  | ⟨1, _⟩ => show win4_5.index t (1 : Fin 2) * 64 + 1 * q.val = q.val; have := hi.w5_1; omega

/-- What point `t` writes back is block `t` of the output layer of the arrays as the region finds them. -/
theorem flushed4_eq (c : Dev nD)
    (htile : ∀ (msg : Arr Ideal Cert.ReferenceIdeal.S100000x128 .f32) (w : Arr Ideal Cert.ReferenceIdeal.S128x128 .f32) (pw : Arr Ideal Cert.ReferenceIdeal.S1 .f32) (ow : Arr Ideal Cert.ReferenceIdeal.S128x64 .f32) (ob : Arr Ideal Cert.ReferenceIdeal.S64 .f32) (t : Fin 50)
        (x0 : Vec Ideal S2000x128 .f32), (∀ (p : Fin 2000) (k : Fin 128), x0 (ix2 p k) = msg (ix2 (row t p) k)) →
        ∀ (p : Fin 2000) (q : Fin 64), k4_pay1 (F := Ideal) x0 w pw ow ob (ix2 p q) = final msg w pw ow ob (ix2 (row t p) q))
    (t : Fin cfg4.N) :
    (dat4 (F := Ideal) V c).flushed 5 t = ((cfg4.win 5).blk t).view.read (Elt Ideal) (final (F := Ideal) (V c main_v48) (V c main_v50) (V c main_arg10) (V c main_arg8) (V c main_arg9)) := by
  show (cfg4.win 5).cut (grid4.coords t) ((dat4 (F := Ideal) V c).after 5 t) = _
  rw [after4_5]
  unfold out4_5
  rw [View.canon_unit_zero zeros2]
  simp only [View.ld_unit_zero (S := S2000x128) zeros2, View.ld_unit_zero (S := S128x128) zeros2, View.ld_unit_zero (S := S1) zeros1,
    View.ld_unit_zero (S := S128x64) zeros2, View.ld_unit_zero (S := S64) zeros1]
  rw [iblk4_1_eq, iblk4_2_eq, iblk4_3_eq, iblk4_4_eq]
  refine funext fun (j : S2000x64.Idx) => ?_
  obtain ⟨p, q, rfl⟩ : ∃ (p : Fin 2000) (q : Fin 64), j = ix2 p q := ⟨j 0, j 1, eq_ix2 j⟩
  show k4_pay1 (F := Ideal) (iblk4 V c 0 t) (V c main_v50) (V c main_arg10) (V c main_arg8) (V c main_arg9) (ix2 p q)
    = final (F := Ideal) (V c main_v48) (V c main_v50) (V c main_arg10) (V c main_arg8) (V c main_arg9) (((cfg4.win 5).blk t).view.emb (ix2 p q))
  rw [emb4_5]
  exact htile _ _ _ _ _ (Fin.cast N_4 t) (iblk4 V c 0 t) (fun p k => iblk4_0_apply V c t p k) p q

/-! ## The cover -/

/-- An index of the result array is in point `t`'s block iff each coordinate is in the block's range on its axis. -/
theorem mem_blk4 (t : Fin cfg4.N) (i : S100000x64.Idx) :
    i ∈ ((cfg4.win 5).blk t).view.set ↔ ∀ a : Fin 2, win4_5.index t a * S2000x64.size a ≤ (i a).val ∧ (i a).val < win4_5.index t a * S2000x64.size a + S2000x64.size a := by
  show i ∈ ((View.whole main_v51).slice (win4_5.rect t)).set ↔ _
  rw [View.set_slice_whole, Rect.mem_set_unit]
  exact Iff.rfl

/-- Row `r` is in the block of point `r / 2000`. -/
theorem cover4 (i : S100000x64.Idx) : ∃ t : Fin cfg4.N, (cfg4.win 5).flush t = true ∧ i ∈ ((cfg4.win 5).blk t).view.set := by
  have hi0 : (i 0).val < 100000 := (i 0).isLt
  have hi1 : (i 1).val < 64 := (i 1).isLt
  have hN : cfg4.N = 50 := N_4
  obtain ⟨t, ht⟩ : ∃ t : Fin cfg4.N, t.val = (i 0).val / 2000 := ⟨⟨(i 0).val / 2000, by rw [hN]; omega⟩, rfl⟩
  have hi := index_facts4 t
  refine ⟨t, flush4_5 t, ?_⟩
  rw [mem_blk4]
  intro a
  match a with
  | ⟨0, _⟩ => show win4_5.index t (0 : Fin 2) * 2000 ≤ (i 0).val ∧ (i 0).val < win4_5.index t (0 : Fin 2) * 2000 + 2000; have := hi.w5_0; omega
  | ⟨1, _⟩ => show win4_5.index t (1 : Fin 2) * 64 ≤ (i 1).val ∧ (i 1).val < win4_5.index t (1 : Fin 2) * 64 + 64; have := hi.w5_1; omega

/-! ## The array -/

/-- The region's result array after all fifty points is the output layer of the arrays the region was entered with. -/
theorem arr4 (c : Dev nD)
    (htile : ∀ (msg : Arr Ideal Cert.ReferenceIdeal.S100000x128 .f32) (w : Arr Ideal Cert.ReferenceIdeal.S128x128 .f32) (pw : Arr Ideal Cert.ReferenceIdeal.S1 .f32) (ow : Arr Ideal Cert.ReferenceIdeal.S128x64 .f32) (ob : Arr Ideal Cert.ReferenceIdeal.S64 .f32) (t : Fin 50)
        (x0 : Vec Ideal S2000x128 .f32), (∀ (p : Fin 2000) (k : Fin 128), x0 (ix2 p k) = msg (ix2 (row t p) k)) →
        ∀ (p : Fin 2000) (q : Fin 64), k4_pay1 (F := Ideal) x0 w pw ow ob (ix2 p q) = final msg w pw ow ob (ix2 (row t p) q)) :
    (dat4 (F := Ideal) V c).arrAt 5 cfg4.N = final (V c main_v48) (V c main_v50) (V c main_arg10) (V c main_arg8) (V c main_arg9) :=
  (dat4 (F := Ideal) V c).arrAt_eq_of_cover 5 _ (fun t _ => flushed4_eq V c htile t) cover4

end Cert.Val

end
-- ==== Proof.LibPlainDot.lean ====
/-
  A matrix product's contraction sum, re-indexed.

  For a contraction of a [R, K] array with a [K, C] array (no batch axis; the left operand contracts its
  axis 1, the right operand its axis 0), the sum over the contraction's own index type of the operands' products at
  the result index (p, q) is the plain sum over k < K of l(p, k) * r(k, q).  Stated at abstract extents and for
  any such dimension record, so that one lemma serves every matrix product of a program, whatever its sizes.

  The operand indices are read one axis at a time.  The left operand's axis 0 is its only non-contracting axis and
  there is no batch axis, so it reads the result index at position 0 + 0; its axis 1 is the only contracting axis and
  reads the contraction index's one coordinate.  The right operand's axis 0 is its only contracting axis; its axis 1
  is its only non-contracting axis and reads the result index at position 0 + 1 + 0, after the left operand's one
  non-contracting axis.  The contraction index type has one axis of extent K, so it is in bijection with the numbers
  below K, and the sum is carried along that bijection.
-/
import Idealize.ShloMosaic.PureOps.Dims
import Idealize.ShloMosaic.Lib.ValueIdx

namespace PlainDot

open Idealize.ShloMosaic Idealize.ShloMosaic.ValueIdx

variable {R K C : Nat}

/-- A coordinate of an index depends only on the axis' number, not on how the number is written. -/
private theorem coord_val_congr {s : Shape} (j : s.Idx) (a b : Nat) (ha : a < s.rank) (hb : b < s.rank) (h : a = b) :
    (j ⟨a, ha⟩).val = (j ⟨b, hb⟩).val := by
  subst h; rfl

/-- The left operand's axis 0, the only non-contracting axis with no batch axis before it, reads the result
    index's coordinate 0. -/
theorem lhs_val_0 (d : DotDims ⟨2, ![R, K]⟩ ⟨2, ![K, C]⟩ ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's axis 1, the only contracting axis, reads the contraction index's one coordinate. -/
theorem lhs_val_1 (d : DotDims ⟨2, ![R, K]⟩ ⟨2, ![K, C]⟩ ⟨2, ![R, C]⟩)
    (hlc : d.lhsContracting = [1]) (hr : d.contr.rank = 1)
    (j : (⟨2, ![R, C]⟩ : Shape).Idx) (k : d.contr.Idx) :
    (d.lhsIdx j k (1 : Fin 2)).val = (k ⟨0, by omega⟩).val :=
  d.lhsIdx_val_of_single hlc j k

/-- The right operand's axis 0, the only contracting axis, reads the contraction index's one coordinate. -/
theorem rhs_val_0 (d : DotDims ⟨2, ![R, K]⟩ ⟨2, ![K, C]⟩ ⟨2, ![R, C]⟩)
    (hrc : d.rhsContracting = [0]) (hr : d.contr.rank = 1)
    (j : (⟨2, ![R, C]⟩ : Shape).Idx) (k : d.contr.Idx) :
    (d.rhsIdx j k (0 : Fin 2)).val = (k ⟨0, by omega⟩).val :=
  d.rhsIdx_val_of_single hrc j k

/-- The right operand's axis 1, its only non-contracting axis, reads the result index's coordinate 1: the position
    after no batch axis and the left operand's one non-contracting axis. -/
theorem rhs_val_1 (d : DotDims ⟨2, ![R, K]⟩ ⟨2, ![K, C]⟩ ⟨2, ![R, C]⟩)
    (hrb : d.rhsBatch = []) (hrn : d.rhsNonContracting = [1])
    (hlb : d.lhsBatch = []) (hln : d.lhsNonContracting = [0])
    (j : (⟨2, ![R, C]⟩ : Shape).Idx) (k : d.contr.Idx) :
    (d.rhsIdx j k (1 : Fin 2)).val = (j (1 : Fin 2)).val := by
  have hb : ¬ (1 : Fin 2) ∈ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The left operand's index at result index `(p, q)` and contraction position `k` is `(p, k)`. -/
theorem lhsIdx_eq (d : DotDims ⟨2, ![R, K]⟩ ⟨2, ![K, C]⟩ ⟨2, ![R, C]⟩)
    (hlb : d.lhsBatch = []) (hln : d.lhsNonContracting = [0]) (hlc : d.lhsContracting = [1])
    (hr : d.contr.rank = 1) (hs : d.contr.size ⟨0, by omega⟩ = K)
    (p : Fin R) (q : Fin C) (k : Fin K) :
    d.lhsIdx (ix2 p q) ((contrEquiv1 d K hr hs).symm k) = ix2 p k := by
  funext a
  apply Fin.ext
  match a with
  | ⟨0, _⟩ => exact lhs_val_0 d hlb hln (ix2 p q) _
  | ⟨1, _⟩ => exact (lhs_val_1 d hlc hr (ix2 p q) _).trans (contrEquiv1_symm_val d K hr hs k)

/-- The right operand's index at result index `(p, q)` and contraction position `k` is `(k, q)`. -/
theorem rhsIdx_eq (d : DotDims ⟨2, ![R, K]⟩ ⟨2, ![K, C]⟩ ⟨2, ![R, C]⟩)
    (hrb : d.rhsBatch = []) (hrn : d.rhsNonContracting = [1]) (hrc : d.rhsContracting = [0])
    (hlb : d.lhsBatch = []) (hln : d.lhsNonContracting = [0])
    (hr : d.contr.rank = 1) (hs : d.contr.size ⟨0, by omega⟩ = K)
    (p : Fin R) (q : Fin C) (k : Fin K) :
    d.rhsIdx (ix2 p q) ((contrEquiv1 d K hr hs).symm k) = ix2 k q := by
  funext a
  apply Fin.ext
  match a with
  | ⟨0, _⟩ => exact (rhs_val_0 d hrc hr (ix2 p q) _).trans (contrEquiv1_symm_val d K hr hs k)
  | ⟨1, _⟩ => exact rhs_val_1 d hrb hrn hlb hln (ix2 p q) _

/-- The contraction sum at `(p, q)` is `∑ k < K, l (p, k) * r (k, q)`. -/
theorem sum_eq {M : Type} [AddCommMonoid M] [Mul M] (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : (⟨2, ![R, K]⟩ : Shape).Idx → M) (r : (⟨2, ![K, C]⟩ : Shape).Idx → M) (p : Fin R) (q : Fin C) :
    ∑ k : d.contr.Idx, l (d.lhsIdx (ix2 p q) k) * r (d.rhsIdx (ix2 p q) k) = ∑ k : Fin K, l (ix2 p k) * r (ix2 k q) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, rhsIdx_eq d hrb hrn hrc hlb hln hr hs p q k]

end PlainDot
-- ==== Proof.Val.MM.lean ====
/- The dense projection, tile by tile.

   One row tile of the kernel's matrix product — the tile's 2000 rows of the left operand against the whole 128 x 128
   weight, accumulated onto zero — read at entry (p, q) is the sum over k < 128 of (left at (p, k)) * (weight at (k, q)).
   The reference's whole-array product read at entry (row t p, q) is the sum over k < 128 of
   (left at (row t p, k)) * (weight at (k, q)).  The tile's rows are the rows `row t p` of the whole array, so the two
   sums agree term by term.  Narrowing the operands to the shorter float format is the identity at exact arithmetic, and
   a reshape to the same shape is the identity. -/
import proofs.«133321_j75213467287803_1_alg».proof.Proof.Val.RefOps
import proofs.«133321_j75213467287803_1_alg».proof.Proof.Gen.KernelIdeal.Skeleton
import proofs.«133321_j75213467287803_1_alg».proof.Proof.LibPlainDot
import Idealize.ShloMosaic.PureOps.Ideal.Laws
import Idealize.ShloMosaic.Lib.ValueIdx
import Idealize.ShloMosaic.Lib.Pipeline.Value

noncomputable section

namespace Cert.Val

open Cert.ReferenceIdeal Idealize.ShloMosaic Idealize.ShloMosaic.ValueIdx

variable [Cert.KernelIdeal.Facts] [Cert.ReferenceIdeal.Facts]

/-- The reference's projection at entry (i, q): the sum over k < 128 of a(i, k) * w(k, q). -/
theorem mm_apply (a : Arr Ideal S100000x128 .f32) (w : Arr Ideal S128x128 .f32) (i : Fin 100000) (q : Fin 128) :
    mm (F := Ideal) a w (ix2 i q) = ∑ k : Fin 128, a (ix2 i k) * w (ix2 k q) := by
  unfold mm
  simp only [Host.dotGeneral]
  refine (Ideal.dotGeneral_apply _ _ _ _ _ _).trans ?_
  exact PlainDot.sum_eq dot_S100000x128_S128x128_S100000x128_1_0_0_1_n_n rfl rfl rfl rfl rfl rfl
    (fun j => a j) (fun j => w j) i q

/-- The first product kernel's tile at entry (p, q): the sum over k < 128 of x0(p, k) * w(k, q). -/
theorem k0_apply (x0 : Vec Ideal Cert.KernelIdeal.S2000x128 .f32) (w : Vec Ideal Cert.KernelIdeal.S128x128 .f32)
    (p : Fin 2000) (q : Fin 128) :
    Cert.KernelIdeal.Gen.k0_pay1 (F := Ideal) x0 w (ix2 p q) = ∑ k : Fin 128, x0 (ix2 p k) * w (ix2 k q) := by
  unfold Cert.KernelIdeal.Gen.k0_pay1
  refine (Ideal.matmul_constant_zero_apply _ none _ _ _).trans ?_
  refine (PlainDot.sum_eq Cert.KernelIdeal.dot_S2000x128_S128x128_S2000x128_1_0_0_1_n_n rfl rfl rfl rfl rfl rfl
    (fun j => shapeCast Cert.KernelIdeal.S2000x128 x0 Cert.KernelIdeal.Facts₀.shapeCasts_S2000x128_S2000x128 j)
    (fun j => w j) p q).trans ?_
  rw [shapeCast_self]

/-- The second product kernel's tile at entry (p, q): the same sum. -/
theorem k2_apply (x0 : Vec Ideal Cert.KernelIdeal.S2000x128 .f32) (w : Vec Ideal Cert.KernelIdeal.S128x128 .f32)
    (p : Fin 2000) (q : Fin 128) :
    Cert.KernelIdeal.Gen.k2_pay1 (F := Ideal) x0 w (ix2 p q) = ∑ k : Fin 128, x0 (ix2 p k) * w (ix2 k q) := by
  unfold Cert.KernelIdeal.Gen.k2_pay1
  refine (Ideal.matmul_constant_zero_apply _ none _ _ _).trans ?_
  refine (PlainDot.sum_eq Cert.KernelIdeal.dot_S2000x128_S128x128_S2000x128_1_0_0_1_n_n rfl rfl rfl rfl rfl rfl
    (fun j => shapeCast Cert.KernelIdeal.S2000x128 x0 Cert.KernelIdeal.Facts₀.shapeCasts_S2000x128_S2000x128 j)
    (fun j => shapeCast Cert.KernelIdeal.S128x128 w Cert.KernelIdeal.Facts₀.shapeCasts_S128x128_S128x128 j) p q).trans ?_
  rw [shapeCast_self, shapeCast_self]

/-- A tile of the first product kernel is the reference's projection on the tile's rows. -/
theorem mm_tile0 (a : Arr Ideal S100000x128 .f32) (w : Arr Ideal S128x128 .f32) (t : Fin 50)
    (x0 : Vec Ideal Cert.KernelIdeal.S2000x128 .f32) (hx : ∀ (p : Fin 2000) (k : Fin 128), x0 (ix2 p k) = a (ix2 (row t p) k))
    (p : Fin 2000) (q : Fin 128) :
    Cert.KernelIdeal.Gen.k0_pay1 (F := Ideal) x0 w (ix2 p q) = mm a w (ix2 (row t p) q) := by
  refine (k0_apply x0 w p q).trans ((Finset.sum_congr rfl fun k _ => ?_).trans (mm_apply a w (row t p) q).symm)
  rw [hx p k]

/-- A tile of the second product kernel is the reference's projection on the tile's rows. -/
theorem mm_tile2 (a : Arr Ideal S100000x128 .f32) (w : Arr Ideal S128x128 .f32) (t : Fin 50)
    (x0 : Vec Ideal Cert.KernelIdeal.S2000x128 .f32) (hx : ∀ (p : Fin 2000) (k : Fin 128), x0 (ix2 p k) = a (ix2 (row t p) k))
    (p : Fin 2000) (q : Fin 128) :
    Cert.KernelIdeal.Gen.k2_pay1 (F := Ideal) x0 w (ix2 p q) = mm a w (ix2 (row t p) q) := by
  refine (k2_apply x0 w p q).trans ((Finset.sum_congr rfl fun k _ => ?_).trans (mm_apply a w (row t p) q).symm)
  rw [hx p k]

end Cert.Val

end
-- ==== Proof.Val.Gate.lean ====
/- The gated layer, tile by tile: the value one row tile of the gate kernel stores at entry (p, q) is the reference's
   gated layer at entry (row t p, q) of the whole array.  The kernel takes the attention logit of a row as two
   128-term sums (the row of `x` against the first half of the attention weights, the row of `xin` against the second
   half) plus the bias; the reference takes it as one 256-term sum of the two rows laid side by side against the whole
   weight column, plus the bias.  Splitting the long sum at 128 identifies the two; the logistic function, the convex
   blend and the leaky rectifier are then the same expression of the same numbers on both sides. -/
import proofs.«133321_j75213467287803_1_alg».proof.Proof.Val.RefOps
import proofs.«133321_j75213467287803_1_alg».proof.Proof.Gen.KernelIdeal.Skeleton
import proofs.«133321_j75213467287803_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.Val

open Cert.ReferenceIdeal Cert.ReferenceIdeal.Facts₀ Cert.ReferenceIdeal.Facts Idealize.ShloMosaic Idealize.ShloMosaic.ValueIdx

variable [Cert.KernelIdeal.Facts] [Cert.ReferenceIdeal.Facts]

/-! ## Layout operations on columns, read at an index -/

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- A `[1, 1]` array broadcast to `[a, b]` reads its one entry everywhere. -/
theorem broadcastTo_11_ab_apply {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ =>
    show 0 = if (1 : ℕ) = 1 then 0 else p.val
    rw [if_pos rfl]
  | ⟨1, _⟩ =>
    show 0 = if (1 : ℕ) = 1 then 0 else c.val
    rw [if_pos rfl]

end Layout

/-- A sum along the rows of an `[a, b]` array, read at row `p`: the sum over the row's `b` entries. -/
theorem rowsum_apply {a b : ℕ} (src : FVec Ideal ⟨2, ![a, b]⟩ .f32) (h : (⟨2, ![a, b]⟩ : Shape).Reduces [1] ⟨1, ![a]⟩)
    (hφ : FTy.f32 = FTy.f32 ∨ FTy.f32 = FTy.bf16) (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src _ h hφ hacc (ix1 p)).trans ?_
  refine Finset.sum_congr rfl fun k _ => congrArg src ?_
  funext ax
  apply Fin.ext
  match ax with
  | ⟨0, _⟩ => rfl
  | ⟨1, _⟩ => rfl

/-! ## Pointwise host operations and the logistic function, read at an index -/

theorem logistic_apply {s : Shape} (v : FVec Ideal s .f32) (i : s.Idx) : logistic v i = Ideal.logistic (v i) := rfl
theorem hostDivf_apply {s : Shape} (a b : FVec Ideal s .f32) (i : s.Idx) : Host.divf a b i = Ideal.div (a i) (b i) := rfl
theorem hostExp_apply {s : Shape} (a : FVec Ideal s .f32) (i : s.Idx) : Host.exp a i = Ideal.exp (a i) := rfl
theorem hostNegf_apply {s : Shape} (a : FVec Ideal s .f32) (i : s.Idx) : Host.negf a i = -(a i) := rfl
theorem scalarOfBits_eq (w : BitVec 32) : Scalar.ofBits (F := Ideal) .f32 w = Ideal.ofBits .f32 w := rfl
theorem floatOfBits_eq (w : BitVec 32) : FloatOps.ofBits (F := Ideal) .f32 w = Ideal.ofBits .f32 w := rfl

/-- The word of 1.0 denotes the number one. -/
theorem ofBits_one_f32 : Ideal.ofBits .f32 0x3F800000#32 = 1 := IdealRules.sign_bit.ideal_onePat .f32

/-- The gated value of one entry, from the row's logit `L`, the two entries `a` and `c` to blend and the rectifier's slope `s`:
    the gate is the logistic function of the logit, the blend is `(1 - gate) * a + gate * c`, and the result is the blend where it
    is at least zero and the slope times the blend elsewhere. -/
def gateAt (L a c s : EReal) : EReal :=
  Scalar.select (FloatOps.cmpf (F := Ideal) (φ := .f32) .oge ((1 - Ideal.logistic L) * a + Ideal.logistic L * c) (Ideal.ofBits .f32 0x00000000#32))
    ((1 - Ideal.logistic L) * a + Ideal.logistic L * c) (s * ((1 - Ideal.logistic L) * a + Ideal.logistic L * c))

/-! ## The kernel's tile, read at an entry -/

/-- The second kernel's stored value at entry `(p, q)` of its tile. -/
theorem k1_at (x0 x1 : Vec Ideal Cert.KernelIdeal.S2000x128 .f32) (w1 w3 : Vec Ideal Cert.KernelIdeal.S128 .f32)
    (b pw : Vec Ideal Cert.KernelIdeal.S1 .f32) (p : Fin 2000) (q : Fin 128) :
    Cert.KernelIdeal.Gen.k1_pay1 (F := Ideal) x0 x1 w1 w3 b pw (ix2 p q)
      = gateAt ((∑ k : Fin 128, x0 (ix2 p k) * w1 (ix1 k)) + (∑ k : Fin 128, x1 (ix2 p k) * w3 (ix1 k)) + b (ix1 (0 : Fin 1)))
          (x0 (ix2 p q)) (x1 (ix2 p q)) (pw (ix1 (0 : Fin 1))) := by
  unfold Cert.KernelIdeal.Gen.k1_pay1
  simp only [select_apply, cmpf_apply, mulf_apply, addf_apply, subf_apply, broadcast_apply, logistic_apply,
    broadcastTo_a1_ab_apply, broadcastTo_11_ab_apply, broadcastTo_1b_ab_apply, shapeCast_a_1a_apply, shapeCast_a_a1_apply,
    shapeCast_self, scalarOfBits_eq, ofBits_one_f32]
  rw [rowsum_apply, rowsum_apply]
  simp only [mulf_apply, broadcastTo_1b_ab_apply, shapeCast_a_1a_apply]
  rfl

/-- The fourth kernel's stored value (the same body) at entry `(p, q)` of its tile. -/
theorem k3_at (x0 x1 : Vec Ideal Cert.KernelIdeal.S2000x128 .f32) (w1 w3 : Vec Ideal Cert.KernelIdeal.S128 .f32)
    (b pw : Vec Ideal Cert.KernelIdeal.S1 .f32) (p : Fin 2000) (q : Fin 128) :
    Cert.KernelIdeal.Gen.k3_pay1 (F := Ideal) x0 x1 w1 w3 b pw (ix2 p q)
      = gateAt ((∑ k : Fin 128, x0 (ix2 p k) * w1 (ix1 k)) + (∑ k : Fin 128, x1 (ix2 p k) * w3 (ix1 k)) + b (ix1 (0 : Fin 1)))
          (x0 (ix2 p q)) (x1 (ix2 p q)) (pw (ix1 (0 : Fin 1))) := by
  unfold Cert.KernelIdeal.Gen.k3_pay1
  simp only [select_apply, cmpf_apply, mulf_apply, addf_apply, subf_apply, broadcast_apply, logistic_apply,
    broadcastTo_a1_ab_apply, broadcastTo_11_ab_apply, broadcastTo_1b_ab_apply, shapeCast_a_1a_apply, shapeCast_a_a1_apply,
    shapeCast_self, scalarOfBits_eq, ofBits_one_f32]
  rw [rowsum_apply, rowsum_apply]
  simp only [mulf_apply, broadcastTo_1b_ab_apply, shapeCast_a_1a_apply]
  rfl

/-! ## The reference's broadcasts, its concatenation and its long sum, read at an index -/

section RefLayout
variable {α : Type}

/-- A scalar broadcast to any shape reads the scalar everywhere. -/
theorem bid_scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun a => a.elim0

/-- A `[1]` array laid out as `[1, 1]` reads its one entry. -/
theorem bid_1_11_apply (h : (⟨1, ![1]⟩ : Shape).BroadcastsInDim ⟨2, ![1, 1]⟩ ![1]) (x : (⟨1, ![1]⟩ : Shape).Idx → α)
    (u v : Fin 1) : broadcastInDim ⟨2, ![1, 1]⟩ ![1] h x (ix2 u v) = x (ix1 (0 : Fin 1)) :=
  broadcastInDim_apply _ h x _ _ fun ax => match ax with
    | ⟨0, _⟩ => by show 0 = if (1 : ℕ) = 1 then 0 else v.val; rw [if_pos rfl]

/-- A `[1, 1]` array broadcast to `[a, b]` reads its one entry everywhere. -/
theorem bid_11_ab_apply {a b : ℕ} (h : (⟨2, ![1, 1]⟩ : Shape).BroadcastsInDim ⟨2, ![a, b]⟩ ![0, 1])
    (x : (⟨2, ![1, 1]⟩ : Shape).Idx → α) (p : Fin a) (c : Fin b) :
    broadcastInDim ⟨2, ![a, b]⟩ ![0, 1] h x (ix2 p c) = x (ix2 (0 : Fin 1) (0 : Fin 1)) :=
  broadcastInDim_apply _ h x _ _ fun ax => match ax with
    | ⟨0, _⟩ => by show 0 = if (1 : ℕ) = 1 then 0 else p.val; rw [if_pos rfl]
    | ⟨1, _⟩ => by show 0 = if (1 : ℕ) = 1 then 0 else c.val; rw [if_pos rfl]

/-- A column `[a, 1]` broadcast to `[a, b]` reads, at `(p, c)`, the column at row `p`. -/
theorem bid_a1_ab_apply {a b : ℕ} (h : (⟨2, ![a, 1]⟩ : Shape).BroadcastsInDim ⟨2, ![a, b]⟩ ![0, 1])
    (x : (⟨2, ![a, 1]⟩ : Shape).Idx → α) (p : Fin a) (c : Fin b) :
    broadcastInDim ⟨2, ![a, b]⟩ ![0, 1] h x (ix2 p c) = x (ix2 p (0 : Fin 1)) :=
  broadcastInDim_apply _ h x _ _ fun ax => match ax with
    | ⟨0, _⟩ => by
      show p.val = if a = 1 then 0 else p.val
      split
      · have := p.isLt; omega
      · rfl
    | ⟨1, _⟩ => by show 0 = if (1 : ℕ) = 1 then 0 else c.val; rw [if_pos rfl]

/-- Two `[n, 128]` arrays laid side by side read, in the first 128 columns, the first array … -/
theorem concat_left {n : ℕ} (x₁ x₂ : (⟨2, ![n, 128]⟩ : Shape).Idx → α)
    (h : Shape.Concatenates [(⟨2, ![n, 128]⟩ : Shape), ⟨2, ![n, 128]⟩] ⟨2, ![n, 256]⟩ 1) (r : Fin n) (k : Fin 128) :
    concatenate ⟨2, ![n, 256]⟩ 1 [⟨⟨2, ![n, 128]⟩, x₁⟩, ⟨⟨2, ![n, 128]⟩, x₂⟩] h (ix2 r (⟨k.val, by omega⟩ : Fin 256)) = x₁ (ix2 r k) :=
  concatenate_pair_apply_left 1 x₁ x₂ h _ rfl (ix2 r k) fun b => match b with
    | ⟨0, _⟩ => rfl
    | ⟨1, _⟩ => rfl

/-- … and in the last 128 columns the second, 128 columns to the left. -/
theorem concat_right {n : ℕ} (x₁ x₂ : (⟨2, ![n, 128]⟩ : Shape).Idx → α)
    (h : Shape.Concatenates [(⟨2, ![n, 128]⟩ : Shape), ⟨2, ![n, 128]⟩] ⟨2, ![n, 256]⟩ 1) (r : Fin n) (k : Fin 128) :
    concatenate ⟨2, ![n, 256]⟩ 1 [⟨⟨2, ![n, 128]⟩, x₁⟩, ⟨⟨2, ![n, 128]⟩, x₂⟩] h (ix2 r (⟨128 + k.val, by omega⟩ : Fin 256)) = x₂ (ix2 r k) :=
  concatenate_pair_apply_right 1 x₁ x₂ h _ rfl rfl (ix2 r k)
    (fun b hb => match b, hb with
      | ⟨0, _⟩, _ => rfl
      | ⟨1, _⟩, hb => absurd rfl hb)
    (by show k.val + 128 = 128 + k.val; omega)

end RefLayout

/-- A sum of 256 terms is the sum of its first 128 terms plus the sum of its last 128. -/
theorem sum_split_256 {M : Type} [AddCommMonoid M] (f : Fin 256 → M) :
    ∑ j : Fin 256, f j = (∑ k : Fin 128, f ⟨k.val, by omega⟩) + ∑ k : Fin 128, f ⟨128 + k.val, by omega⟩ :=
  Fin.sum_univ_add (a := 128) (b := 128) f

/-- The reference's long product, read at an entry: the 256-term sum. -/
theorem logit_dot (l : FVec Ideal S100000x256 .f32) (r : FVec Ideal S256x1 .f32) (p : Fin 100000) (q : Fin 1) :
    Host.dotGeneral (F := Ideal) dot_S100000x256_S256x1_S100000x1_1_0_0_1_n_n none l r (ix2 p q)
      = ∑ k : Fin 256, l (ix2 p k) * r (ix2 k q) := by
  simp only [Host.dotGeneral]
  rw [Ideal.dotGeneral_apply]
  exact PlainDot.sum_eq dot_S100000x256_S256x1_S100000x1_1_0_0_1_n_n rfl rfl rfl rfl rfl rfl l r p q

/-- The reference's logit of row `r`: the row of `x` against the first half of the attention weights, plus the row of
    `xin` against the second half, plus the bias. -/
theorem logit_at (x xin : Arr Ideal S100000x128 .f32) (aw : Arr Ideal S256x1 .f32) (b : Arr Ideal S1 .f32) (r : Fin 100000) :
    logit (F := Ideal) x xin aw b (ix2 r (0 : Fin 1))
      = ((∑ k : Fin 128, x (ix2 r k) * aw (ix2 (⟨k.val, by omega⟩ : Fin 256) (0 : Fin 1)))
          + ∑ k : Fin 128, xin (ix2 r k) * aw (ix2 (⟨128 + k.val, by omega⟩ : Fin 256) (0 : Fin 1))) + b (ix1 (0 : Fin 1)) := by
  unfold logit
  rw [addf_apply, logit_dot, sum_split_256, bid_11_ab_apply, bid_1_11_apply]
  simp only [concat_left, concat_right]

/-- The column of ones reads the number the word of 1.0 denotes. -/
theorem ones_at (i : S100000x1.Idx) : ones (F := Ideal) i = Ideal.ofBits .f32 0x3F800000#32 := by
  unfold ones
  rw [bid_scalar_apply]
  rfl

/-- The reference's gated layer at entry `(r, q)`. -/
theorem gate_at (x xin : Arr Ideal S100000x128 .f32) (aw : Arr Ideal S256x1 .f32) (b pw : Arr Ideal S1 .f32)
    (r : Fin 100000) (q : Fin 128) :
    gate (F := Ideal) x xin aw b pw (ix2 r q)
      = gateAt (((∑ k : Fin 128, x (ix2 r k) * aw (ix2 (⟨k.val, by omega⟩ : Fin 256) (0 : Fin 1)))
          + ∑ k : Fin 128, xin (ix2 r k) * aw (ix2 (⟨128 + k.val, by omega⟩ : Fin 256) (0 : Fin 1))) + b (ix1 (0 : Fin 1)))
          (x (ix2 r q)) (xin (ix2 r q)) (pw (ix1 (0 : Fin 1))) := by
  unfold gate prelu blend alpha
  simp only [select_apply, cmpf_apply, mulf_apply, addf_apply, bid_scalar_apply, constant_apply]
  rw [bid_a1_ab_apply, bid_a1_ab_apply, bid_11_ab_apply, bid_1_11_apply]
  simp only [subf_apply, addf_apply, hostDivf_apply, hostExp_apply, hostNegf_apply, ones_at, logit_at, ofBits_one_f32]
  rfl

/-! ## The tile against the whole array -/

/-- The second kernel's tile `t` at entry `(p, q)` is the reference's gated layer at entry `(row t p, q)`. -/
theorem gate_tile1 (x xin : Arr Ideal S100000x128 .f32) (aw : Arr Ideal S256x1 .f32) (b pw : Arr Ideal S1 .f32) (t : Fin 50)
    (x0 x1 : Vec Ideal Cert.KernelIdeal.S2000x128 .f32) (w1 w3 : Vec Ideal Cert.KernelIdeal.S128 .f32)
    (hx0 : ∀ (p : Fin 2000) (k : Fin 128), x0 (ix2 p k) = x (ix2 (row t p) k))
    (hx1 : ∀ (p : Fin 2000) (k : Fin 128), x1 (ix2 p k) = xin (ix2 (row t p) k))
    (hw1 : ∀ k : Fin 128, w1 (ix1 k) = aw (ix2 (⟨k.val, by omega⟩ : Fin 256) (0 : Fin 1)))
    (hw3 : ∀ k : Fin 128, w3 (ix1 k) = aw (ix2 (⟨128 + k.val, by omega⟩ : Fin 256) (0 : Fin 1)))
    (p : Fin 2000) (q : Fin 128) :
    Cert.KernelIdeal.Gen.k1_pay1 (F := Ideal) x0 x1 w1 w3 b pw (ix2 p q) = gate x xin aw b pw (ix2 (row t p) q) := by
  rw [k1_at, gate_at]
  simp only [hx0, hx1, hw1, hw3]

/-- The fourth kernel's tile likewise. -/
theorem gate_tile3 (x xin : Arr Ideal S100000x128 .f32) (aw : Arr Ideal S256x1 .f32) (b pw : Arr Ideal S1 .f32) (t : Fin 50)
    (x0 x1 : Vec Ideal Cert.KernelIdeal.S2000x128 .f32) (w1 w3 : Vec Ideal Cert.KernelIdeal.S128 .f32)
    (hx0 : ∀ (p : Fin 2000) (k : Fin 128), x0 (ix2 p k) = x (ix2 (row t p) k))
    (hx1 : ∀ (p : Fin 2000) (k : Fin 128), x1 (ix2 p k) = xin (ix2 (row t p) k))
    (hw1 : ∀ k : Fin 128, w1 (ix1 k) = aw (ix2 (⟨k.val, by omega⟩ : Fin 256) (0 : Fin 1)))
    (hw3 : ∀ k : Fin 128, w3 (ix1 k) = aw (ix2 (⟨128 + k.val, by omega⟩ : Fin 256) (0 : Fin 1)))
    (p : Fin 2000) (q : Fin 128) :
    Cert.KernelIdeal.Gen.k3_pay1 (F := Ideal) x0 x1 w1 w3 b pw (ix2 p q) = gate x xin aw b pw (ix2 (row t p) q) := by
  rw [k3_at, gate_at]
  simp only [hx0, hx1, hw1, hw3]

end Cert.Val

end
-- ==== Proof.Val.Final.lean ====
/- The output layer, one tile at a time.  The kernel's last body computes, from a tile of 2000 rows of the aggregated
   features, the projection by the 128 x 128 weight, the leaky rectifier, the class scores against the 128 x 64 output
   weight plus the bias, and each row's log-softmax.  Read at entry (p, q) of tile t this is the reference's output
   layer read at entry (2000 t + p, q) of the whole array: the two projections are the same sums over the contracted
   coordinate, the rectifier is the same expression of one element, and a row's log-softmax is one function of the
   row's 64 scores on both sides (the largest score as a fold of max from minus infinity, the sum of exponentials of
   the shifted scores, its logarithm). -/
import proofs.«133321_j75213467287803_1_alg».proof.Proof.Val.RefOps
import proofs.«133321_j75213467287803_1_alg».proof.Proof.Gen.KernelIdeal.Skeleton
import proofs.«133321_j75213467287803_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.Val

open Cert.ReferenceIdeal Cert.ReferenceIdeal.Facts₀ Cert.ReferenceIdeal.Facts Idealize.ShloMosaic Idealize.ShloMosaic.ValueIdx
open scoped BigOperators

variable [Cert.KernelIdeal.Facts] [Cert.ReferenceIdeal.Facts]

namespace FinalAux

/-! ## The layer on one element and on one row -/

/-- The leaky rectifier of one element: the element where it is at least zero, the slope times it elsewhere. -/
def relu1 (s y : EReal) : EReal :=
  Scalar.select (FloatOps.cmpf (F := Ideal) (φ := .f32) .oge y (Ideal.ofBits .f32 0x00000000#32)) y (s * y)

/-- The largest of a row's 64 scores, folded from minus infinity. -/
def rowMaxOf (z : Fin 64 → EReal) : EReal :=
  (Finset.univ : Finset (Fin 64)).fold max (Ideal.ofBits .f32 0xFF800000#32) z

/-- The log-softmax of a row of 64 scores at column q. -/
def lsmRow (z : Fin 64 → EReal) (q : Fin 64) : EReal :=
  (z q - rowMaxOf z) - Ideal.log (∑ c : Fin 64, Ideal.exp (z c - rowMaxOf z))

/-- The fold's starting value is below the fold. -/
theorem max_rowMaxOf (z : Fin 64 → EReal) : max (Ideal.ofBits .f32 0xFF800000#32) (rowMaxOf z) = rowMaxOf z :=
  max_eq_right ((Finset.le_fold_max _).mpr (Or.inl le_rfl))

/-! ## Layout operations on columns, read at an index -/

section Layout
variable {α : Type}

/-- An [a] array cast to a column [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A [1, 1] array broadcast to [a, b] reads its one element everywhere. -/
theorem broadcastTo_11_ab_apply {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

end Layout

/-! ## The kernel's body, stage by stage -/

/-- The tile's projection by the 128 x 128 weight. -/
def kMM (x0 : Vec Ideal Cert.KernelIdeal.S2000x128 .f32) (w : Vec Ideal Cert.KernelIdeal.S128x128 .f32) :
    FVec Ideal Cert.KernelIdeal.S2000x128 .f32 :=
  matmul Cert.KernelIdeal.dot_S2000x128_S128x128_S2000x128_1_0_0_1_n_n none
    (truncf .bf16 (shapeCast Cert.KernelIdeal.S2000x128 x0 Cert.KernelIdeal.Gen.shapeCasts_S2000x128_S2000x128) Cert.KernelIdeal.Gen.bitsLt_bf16_f32)
    (truncf .bf16 (shapeCast Cert.KernelIdeal.S128x128 w Cert.KernelIdeal.Gen.shapeCasts_S128x128_S128x128) Cert.KernelIdeal.Gen.bitsLt_bf16_f32)
    (constant Cert.KernelIdeal.S2000x128 .f32 0x00000000#32)

/-- The leaky rectifier of a tile. -/
def kRelu (y : FVec Ideal Cert.KernelIdeal.S2000x128 .f32) (pw : Vec Ideal Cert.KernelIdeal.S1 .f32) :
    FVec Ideal Cert.KernelIdeal.S2000x128 .f32 :=
  select (cmpf .oge y (broadcast Cert.KernelIdeal.S2000x128 (Scalar.ofBits (F := Ideal) .f32 0x00000000#32))) y
    (mulf (broadcastTo Cert.KernelIdeal.S2000x128 (shapeCast Cert.KernelIdeal.S1x1 pw Cert.KernelIdeal.Gen.shapeCasts_S1_S1x1)
      Cert.KernelIdeal.Gen.broadcasts_S1x1_S2000x128) y)

/-- The tile's class scores. -/
def kZ (r : FVec Ideal Cert.KernelIdeal.S2000x128 .f32) (ow : Vec Ideal Cert.KernelIdeal.S128x64 .f32) (ob : Vec Ideal Cert.KernelIdeal.S64 .f32) :
    FVec Ideal Cert.KernelIdeal.S2000x64 .f32 :=
  addf (matmul Cert.KernelIdeal.dot_S2000x128_S128x64_S2000x64_1_0_0_1_n_n none
      (truncf .bf16 r Cert.KernelIdeal.Gen.bitsLt_bf16_f32) (truncf .bf16 ow Cert.KernelIdeal.Gen.bitsLt_bf16_f32)
      (constant Cert.KernelIdeal.S2000x64 .f32 0x00000000#32))
    (broadcastTo Cert.KernelIdeal.S2000x64 (shapeCast Cert.KernelIdeal.S1x64 ob Cert.KernelIdeal.Gen.shapeCasts_S64_S1x64)
      Cert.KernelIdeal.Gen.broadcasts_S1x64_S2000x64)

/-- The tile's scores shifted by their row's largest. -/
def kSh (z : FVec Ideal Cert.KernelIdeal.S2000x64 .f32) : FVec Ideal Cert.KernelIdeal.S2000x64 .f32 :=
  subf z (broadcastTo Cert.KernelIdeal.S2000x64
    (shapeCast Cert.KernelIdeal.S2000x1
      (multiReduction .maximumf [1] Cert.KernelIdeal.S2000 z 0xFF800000#32 Cert.KernelIdeal.Gen.reduces_S2000x64_S2000 (.inl rfl) rfl)
      Cert.KernelIdeal.Gen.shapeCasts_S2000_S2000x1)
    Cert.KernelIdeal.Gen.broadcasts_S2000x1_S2000x64)

/-- The tile's log-softmax. -/
def kOut (z : FVec Ideal Cert.KernelIdeal.S2000x64 .f32) : FVec Ideal Cert.KernelIdeal.S2000x64 .f32 :=
  subf (kSh z) (broadcastTo Cert.KernelIdeal.S2000x64
    (log (shapeCast Cert.KernelIdeal.S2000x1
      (multiReduction .add [1] Cert.KernelIdeal.S2000 (exp (kSh z)) 0x00000000#32 Cert.KernelIdeal.Gen.reduces_S2000x64_S2000 (.inl rfl) rfl)
      Cert.KernelIdeal.Gen.shapeCasts_S2000_S2000x1))
    Cert.KernelIdeal.Gen.broadcasts_S2000x1_S2000x64)

/-- The body's stored value is the composition of the stages. -/
theorem k4_pay1_eq (x0 : Vec Ideal Cert.KernelIdeal.S2000x128 .f32) (w : Vec Ideal Cert.KernelIdeal.S128x128 .f32)
    (pw : Vec Ideal Cert.KernelIdeal.S1 .f32) (ow : Vec Ideal Cert.KernelIdeal.S128x64 .f32) (ob : Vec Ideal Cert.KernelIdeal.S64 .f32) :
    Cert.KernelIdeal.Gen.k4_pay1 (F := Ideal) x0 w pw ow ob = kOut (kZ (kRelu (kMM x0 w) pw) ow ob) := rfl

/-! ## The kernel's stages read at an index -/

/-- The projection at (p, j): the sum over the contracted coordinate. -/
theorem kMM_apply (x0 : Vec Ideal Cert.KernelIdeal.S2000x128 .f32) (w : Vec Ideal Cert.KernelIdeal.S128x128 .f32)
    (p : Fin 2000) (j : Fin 128) : kMM x0 w (ix2 p j) = ∑ k : Fin 128, x0 (ix2 p k) * w (ix2 k j) := by
  unfold kMM
  refine (Ideal.matmul_constant_zero_apply _ none _ _ (ix2 p j)).trans ?_
  refine (PlainDot.sum_eq Cert.KernelIdeal.dot_S2000x128_S128x128_S2000x128_1_0_0_1_n_n rfl rfl rfl rfl rfl rfl _ _ p j).trans ?_
  refine Finset.sum_congr rfl fun k _ => ?_
  exact congrArg₂ (· * ·) (congrFun (shapeCast_self x0 _) _) (congrFun (shapeCast_self w _) _)

/-- The rectifier at (p, j). -/
theorem kRelu_apply (y : FVec Ideal Cert.KernelIdeal.S2000x128 .f32) (pw : Vec Ideal Cert.KernelIdeal.S1 .f32)
    (p : Fin 2000) (j : Fin 128) : kRelu y pw (ix2 p j) = relu1 (pw (ix1 (0 : Fin 1))) (y (ix2 p j)) := by
  have hb : broadcastTo Cert.KernelIdeal.S2000x128 (shapeCast Cert.KernelIdeal.S1x1 pw Cert.KernelIdeal.Gen.shapeCasts_S1_S1x1)
      Cert.KernelIdeal.Gen.broadcasts_S1x1_S2000x128 (ix2 p j) = pw (ix1 (0 : Fin 1)) :=
    (broadcastTo_11_ab_apply _ _ p j).trans (shapeCast_a_1a_apply pw _ (0 : Fin 1) (0 : Fin 1))
  unfold kRelu relu1
  exact congrArg (fun s => Scalar.select (FloatOps.cmpf (F := Ideal) (φ := .f32) .oge (y (ix2 p j)) (Ideal.ofBits .f32 0x00000000#32))
    (y (ix2 p j)) (s * y (ix2 p j))) hb

/-- The scores at (p, c). -/
theorem kZ_apply (r : FVec Ideal Cert.KernelIdeal.S2000x128 .f32) (ow : Vec Ideal Cert.KernelIdeal.S128x64 .f32)
    (ob : Vec Ideal Cert.KernelIdeal.S64 .f32) (p : Fin 2000) (c : Fin 64) :
    kZ r ow ob (ix2 p c) = ∑ j : Fin 128, r (ix2 p j) * ow (ix2 j c) + ob (ix1 c) := by
  unfold kZ
  refine (addf_apply _ _ _).trans (congrArg₂ (· + ·) ?_ ?_)
  · refine (Ideal.matmul_constant_zero_apply _ none _ _ (ix2 p c)).trans ?_
    exact PlainDot.sum_eq Cert.KernelIdeal.dot_S2000x128_S128x64_S2000x64_1_0_0_1_n_n rfl rfl rfl rfl rfl rfl _ _ p c
  · exact (broadcastTo_1b_ab_apply _ _ p c).trans (shapeCast_a_1a_apply ob _ (0 : Fin 1) c)

/-- The reduced index p with column k put back is (p, k). -/
theorem klift (p : Fin 2000) (k : Fin 64) :
    Cert.KernelIdeal.Gen.reduces_S2000x64_S2000.lift (ix1 p) k = ix2 p k :=
  funext fun a => Fin.ext (by match a with | ⟨0, _⟩ => rfl | ⟨1, _⟩ => rfl)

/-- The shifted scores at (p, c). -/
theorem kSh_apply (z : FVec Ideal Cert.KernelIdeal.S2000x64 .f32) (p : Fin 2000) (c : Fin 64) :
    kSh z (ix2 p c) = z (ix2 p c) - rowMaxOf (fun c => z (ix2 p c)) := by
  unfold kSh
  refine (subf_apply _ _ _).trans (congrArg (z (ix2 p c) - ·) ?_)
  refine (broadcastTo_a1_ab_apply _ _ p c).trans ?_
  refine (shapeCast_a_a1_apply _ _ p (0 : Fin 1)).trans ?_
  refine (Ideal.multiReduction_maximumf_single z _ Cert.KernelIdeal.Gen.reduces_S2000x64_S2000 (.inl rfl) rfl (ix1 p)).trans ?_
  unfold rowMaxOf
  exact congrArg (fun f => Finset.fold max (Ideal.ofBits .f32 0xFF800000#32) f (Finset.univ : Finset (Fin 64)))
    (funext fun k => congrArg z (klift p k))

/-- The log-softmax at (p, q): the row's, as a function of the row's 64 scores. -/
theorem kOut_apply (z : FVec Ideal Cert.KernelIdeal.S2000x64 .f32) (p : Fin 2000) (q : Fin 64) :
    kOut z (ix2 p q) = lsmRow (fun c => z (ix2 p c)) q := by
  unfold kOut lsmRow
  refine (subf_apply _ _ _).trans (congrArg₂ (· - ·) (kSh_apply z p q) ?_)
  refine (broadcastTo_a1_ab_apply _ _ p q).trans ?_
  refine congrArg Ideal.log ?_
  refine (shapeCast_a_a1_apply _ _ p (0 : Fin 1)).trans ?_
  refine (Ideal.multiReduction_add_single _ _ Cert.KernelIdeal.Gen.reduces_S2000x64_S2000 (.inl rfl) rfl (ix1 p)).trans ?_
  refine Finset.sum_congr rfl fun k _ => ?_
  refine congrArg Ideal.exp ?_
  exact (congrArg (kSh z) (klift p k)).trans (kSh_apply z p k)

/-! ## The reference's layers read at an index -/

/-- The reference's projection at (r, j): the same sum. -/
theorem mm_apply (a : Arr Ideal S100000x128 .f32) (w : Arr Ideal S128x128 .f32) (r : Fin 100000) (j : Fin 128) :
    mm a w (ix2 r j) = ∑ k : Fin 128, a (ix2 r k) * w (ix2 k j) := by
  unfold mm
  simp only [Host.dotGeneral]
  refine (Ideal.dotGeneral_apply _ none _ a w (ix2 r j)).trans ?_
  exact PlainDot.sum_eq dot_S100000x128_S128x128_S100000x128_1_0_0_1_n_n rfl rfl rfl rfl rfl rfl a w r j

/-- The reference's rectifier at (r, j). -/
theorem prelu_apply (v : Arr Ideal S100000x128 .f32) (pw : Arr Ideal S1 .f32) (r : Fin 100000) (j : Fin 128) :
    prelu v pw (ix2 r j) = relu1 (pw (ix1 (0 : Fin 1))) (v (ix2 r j)) := by
  have h0 : broadcastInDim S100000x128 ![] bcast_S_S100000x128 (constant (F := Ideal) S_ .f32 0x00000000#32) (ix2 r j)
      = Ideal.ofBits .f32 0x00000000#32 :=
    broadcastInDim_apply _ bcast_S_S100000x128 _ (ix2 r j) (fun a => a.elim0) (fun a => a.elim0)
  have h1 : broadcastInDim S100000x128 ![0, 1] bcast_S1x1_S100000x128_0_1 (broadcastInDim S1x1 ![1] bcast_S1_S1x1_1 pw) (ix2 r j)
      = pw (ix1 (0 : Fin 1)) :=
    (broadcastInDim_apply _ bcast_S1x1_S100000x128_0_1 _ (ix2 r j) (ix2 (0 : Fin 1) (0 : Fin 1))
      (fun a => match a with | ⟨0, _⟩ => rfl | ⟨1, _⟩ => rfl)).trans
    (broadcastInDim_apply _ bcast_S1_S1x1_1 pw (ix2 (0 : Fin 1) (0 : Fin 1)) (ix1 (0 : Fin 1))
      (fun a => match a with | ⟨0, _⟩ => rfl))
  unfold prelu relu1
  exact congrArg₂ (fun c s => Scalar.select (FloatOps.cmpf (F := Ideal) (φ := .f32) .oge (v (ix2 r j)) c) (v (ix2 r j)) (s * v (ix2 r j))) h0 h1

/-- The reference's scores at (r, c). -/
theorem scores_apply (y : Arr Ideal S100000x128 .f32) (pw : Arr Ideal S1 .f32) (ow : Arr Ideal S128x64 .f32) (ob : Arr Ideal S64 .f32)
    (r : Fin 100000) (c : Fin 64) :
    scores y pw ow ob (ix2 r c) = ∑ j : Fin 128, relu1 (pw (ix1 (0 : Fin 1))) (y (ix2 r j)) * ow (ix2 j c) + ob (ix1 c) := by
  unfold scores
  refine (addf_apply _ _ _).trans (congrArg₂ (· + ·) ?_ ?_)
  · simp only [Host.dotGeneral]
    refine (Ideal.dotGeneral_apply _ none _ (prelu y pw) ow (ix2 r c)).trans ?_
    refine (PlainDot.sum_eq dot_S100000x128_S128x64_S100000x64_1_0_0_1_n_n rfl rfl rfl rfl rfl rfl (prelu y pw) ow r c).trans ?_
    exact Finset.sum_congr rfl fun j _ => congrArg (· * ow (ix2 j c)) (prelu_apply y pw r j)
  · exact (broadcastInDim_apply _ bcast_S1x64_S100000x64_0_1 _ (ix2 r c) (ix2 (0 : Fin 1) c)
      (fun a => match a with | ⟨0, _⟩ => rfl | ⟨1, _⟩ => rfl)).trans
      (broadcastInDim_apply _ bcast_S64_S1x64_1 ob (ix2 (0 : Fin 1) c) (ix1 c) (fun a => match a with | ⟨0, _⟩ => rfl))

/-- The whole array's rows reduce along axis 1. -/
theorem hRed : S100000x64.Reduces [1] S100000 := by decide

/-- The reduced index r with column k put back is (r, k). -/
theorem rlift (r : Fin 100000) (k : Fin 64) : hRed.lift (ix1 r) k = ix2 r k :=
  funext fun a => Fin.ext (by match a with | ⟨0, _⟩ => rfl | ⟨1, _⟩ => rfl)

/-- A column of the whole array spread over 64 columns reads, at (r, c), the column at r. -/
theorem colBcast_apply (v : Arr Ideal S100000 .f32) (r : Fin 100000) (c : Fin 64) :
    broadcastInDim S100000x64 ![0, 1] bcast_S100000x1_S100000x64_0_1 (broadcastInDim S100000x1 ![0] bcast_S100000_S100000x1_0 v) (ix2 r c)
      = v (ix1 r) :=
  (broadcastInDim_apply _ bcast_S100000x1_S100000x64_0_1 _ (ix2 r c) (ix2 r (0 : Fin 1))
    (fun a => match a with | ⟨0, _⟩ => rfl | ⟨1, _⟩ => rfl)).trans
  (broadcastInDim_apply _ bcast_S100000_S100000x1_0 v (ix2 r (0 : Fin 1)) (ix1 r) (fun a => match a with | ⟨0, _⟩ => rfl))

/-- The reference's row maximum at r. -/
theorem rowmax_apply (z : Arr Ideal S100000x64 .f32) (r : Fin 100000) :
    rowmax z (ix1 r) = rowMaxOf (fun c => z (ix2 r c)) := by
  have hb : broadcastInDim S100000 ![] bcast_S_S100000 (constant (F := Ideal) S_ .f32 0xFF800000#32) (ix1 r)
      = Ideal.ofBits .f32 0xFF800000#32 :=
    broadcastInDim_apply _ bcast_S_S100000 _ (ix1 r) (fun a => a.elim0) (fun a => a.elim0)
  have hr : Host.reduce (FloatOps.maximumf (F := Ideal) (φ := .f32)) z (constant (F := Ideal) S_ .f32 0xFF800000#32) reducesTo_S100000x64_S100000_d1 h_S_ (ix1 r)
      = rowMaxOf (fun c => z (ix2 r c)) := by
    refine (Host.reduce_eq_fold_single (FloatOps.maximumf (F := Ideal) (φ := .f32)) z _ reducesTo_S100000x64_S100000_d1 hRed h_S_ (ix1 r)).trans ?_
    unfold rowMaxOf
    exact congrArg (fun f => Finset.fold max (Ideal.ofBits .f32 0xFF800000#32) f (Finset.univ : Finset (Fin 64)))
      (funext fun k => congrArg z (rlift r k))
  unfold rowmax
  refine (maximumf_apply _ _ _).trans ?_
  rw [hb, hr]
  exact max_rowMaxOf _

/-- The reference's shifted scores at (r, c). -/
theorem shifted_apply (z : Arr Ideal S100000x64 .f32) (r : Fin 100000) (c : Fin 64) :
    shifted z (ix2 r c) = z (ix2 r c) - rowMaxOf (fun c => z (ix2 r c)) := by
  unfold shifted
  refine (subf_apply _ _ _).trans (congrArg (z (ix2 r c) - ·) ?_)
  exact (colBcast_apply (rowmax z) r c).trans (rowmax_apply z r)

/-- The reference's row sum at r. -/
theorem rowsum_apply (y : Arr Ideal S100000x64 .f32) (r : Fin 100000) :
    Host.reduceAdd (F := Ideal) y (constant (F := Ideal) S_ .f32 0x00000000#32) reducesTo_S100000x64_S100000_d1 h_S_ (ix1 r)
      = ∑ c : Fin 64, y (ix2 r c) := by
  simp only [Host.reduceAdd, Ideal.hostReduceAdd_def]
  refine (Ideal.hostReduceAdd_single reducesTo_S100000x64_S100000_d1 hRed y _ (ix1 r)).trans ?_
  refine (congrArg₂ (· + ·) Ideal.ofBits_zero_f32 (Finset.sum_congr rfl fun k _ => congrArg y (rlift r k))).trans (zero_add _)

/-- The host's logarithm and exponential at an index are the extended reals'. -/
theorem hostLog_apply {s : Shape} (x : FVec Ideal s .f32) (i : s.Idx) : Host.log x i = Ideal.log (x i) := rfl
theorem hostExp_apply {s : Shape} (x : FVec Ideal s .f32) (i : s.Idx) : Host.exp x i = Ideal.exp (x i) := rfl

/-- The reference's log-softmax at (r, q): the row's, as a function of the row's 64 scores. -/
theorem lsm_apply (z : Arr Ideal S100000x64 .f32) (r : Fin 100000) (q : Fin 64) :
    lsm z (ix2 r q) = lsmRow (fun c => z (ix2 r c)) q := by
  unfold lsm lsmRow
  refine (subf_apply _ _ _).trans (congrArg₂ (· - ·) (shifted_apply z r q) ?_)
  refine (broadcastInDim_apply _ bcast_S100000x1_S100000x64_0_1 _ (ix2 r q) (ix2 r (0 : Fin 1))
    (fun a => match a with | ⟨0, _⟩ => rfl | ⟨1, _⟩ => rfl)).trans ?_
  refine (hostLog_apply _ _).trans (congrArg Ideal.log ?_)
  refine (broadcastInDim_apply _ bcast_S100000_S100000x1_0 _ (ix2 r (0 : Fin 1)) (ix1 r) (fun a => match a with | ⟨0, _⟩ => rfl)).trans ?_
  refine (rowsum_apply _ r).trans ?_
  exact Finset.sum_congr rfl fun k _ => (hostExp_apply _ _).trans (congrArg Ideal.exp (shifted_apply z r k))

end FinalAux

open FinalAux

/-- The kernel's last body at entry (p, q) of tile t is the reference's output layer at entry (2000 t + p, q). -/
theorem final_tile (msg : Arr Ideal S100000x128 .f32) (w : Arr Ideal S128x128 .f32) (pw : Arr Ideal S1 .f32) (ow : Arr Ideal S128x64 .f32)
    (ob : Arr Ideal S64 .f32) (t : Fin 50)
    (x0 : Vec Ideal Cert.KernelIdeal.S2000x128 .f32) (hx0 : ∀ (p : Fin 2000) (k : Fin 128), x0 (ix2 p k) = msg (ix2 (row t p) k))
    (p : Fin 2000) (q : Fin 64) :
    Cert.KernelIdeal.Gen.k4_pay1 (F := Ideal) x0 w pw ow ob (ix2 p q) = final msg w pw ow ob (ix2 (row t p) q) := by
  have hz : ∀ c : Fin 64, kZ (kRelu (kMM x0 w) pw) ow ob (ix2 p c) = scores (mm msg w) pw ow ob (ix2 (row t p) c) := by
    intro c
    refine (kZ_apply _ ow ob p c).trans (Eq.trans ?_ (scores_apply (mm msg w) pw ow ob (row t p) c).symm)
    refine congrArg (· + ob (ix1 c)) (Finset.sum_congr rfl fun j _ => congrArg (· * ow (ix2 j c)) ?_)
    refine (kRelu_apply _ pw p j).trans (congrArg (relu1 (pw (ix1 (0 : Fin 1)))) ?_)
    refine (kMM_apply x0 w p j).trans (Eq.trans ?_ (mm_apply msg w (row t p) j).symm)
    exact Finset.sum_congr rfl fun k _ => congrArg (· * w (ix2 k j)) (hx0 p k)
  refine (congrFun (k4_pay1_eq x0 w pw ow ob) (ix2 p q)).trans ?_
  unfold final
  refine (kOut_apply _ p q).trans (Eq.trans ?_ (lsm_apply _ (row t p) q).symm)
  exact congrArg (fun f => lsmRow f q) (funext hz)

end Cert.Val

end
-- ==== Proof.Val.KernelNet.lean ====
/- The kernel program's result, composed.  Between the program's items the buffers hold: the aggregation of the input
   features; its projection by the first weight (region 0); the first gated layer of that projection with itself
   (region 1); the aggregation of that layer, projected by the first hop weight (region 2); the second gated layer of
   that projection with the first projection (region 3); and the output layer of the aggregation of the second gated
   layer (region 4).  Each region's result array is the reference's layer function of the arrays the region was
   entered with, each host stretch leaves the reference's aggregation or a hop weight, and no item changes an argument:
   chained, the result buffer at the end is the reference's whole network of the eleven arguments. -/
import proofs.«133321_j75213467287803_1_alg».proof.Proof.Val.Host
import proofs.«133321_j75213467287803_1_alg».proof.Proof.Val.A0
import proofs.«133321_j75213467287803_1_alg».proof.Proof.Val.A1
import proofs.«133321_j75213467287803_1_alg».proof.Proof.Val.A4
import proofs.«133321_j75213467287803_1_alg».proof.Proof.Val.MM
import proofs.«133321_j75213467287803_1_alg».proof.Proof.Val.Gate
import proofs.«133321_j75213467287803_1_alg».proof.Proof.Val.Final

noncomputable section

namespace Cert.Val

open Idealize.ShloMosaic Idealize.ShloMosaic.ValueIdx Cert.KernelIdeal Cert.KernelIdeal.Gen Cert.KernelIdeal.Hand
open Idealize.ShloMosaic.TcCoe Idealize.SL.Sem
open Idealize.ShloMosaic.Pipeline (Dat)

variable [Cert.KernelIdeal.Facts] [Cert.ReferenceIdeal.Facts]

variable (m : (ℓ : Loc nD τ sig) → Buf (Elt Ideal) ℓ) (c : Dev nD)

/-- The two halves of the attention weight column, as regions 1 and 3 find them: entry k of the first half is row k of
    the column argument, entry k of the second half is row 128 + k. -/
theorem half1_at2 (k : Fin 128) :
    U2 (F := Ideal) m c main_v1 (ix1 k) = (m ((c : Thread nD τ).loc main_arg6)) (ix2 (⟨k.val, by omega⟩ : Fin 256) (0 : Fin 1)) := by
  show W2 (F := Ideal) m c main_v1 (ix1 k) = _
  rw [W2_v1 (F := Ideal) m c]
  exact W1_v1 (F := Ideal) m c k
theorem half3_at2 (k : Fin 128) :
    U2 (F := Ideal) m c main_v3 (ix1 k) = (m ((c : Thread nD τ).loc main_arg6)) (ix2 (⟨128 + k.val, by omega⟩ : Fin 256) (0 : Fin 1)) := by
  show W2 (F := Ideal) m c main_v3 (ix1 k) = _
  rw [W2_v3 (F := Ideal) m c]
  exact W1_v3 (F := Ideal) m c k
theorem half1_at5 (k : Fin 128) :
    U5 (F := Ideal) m c main_v1 (ix1 k) = (m ((c : Thread nD τ).loc main_arg6)) (ix2 (⟨k.val, by omega⟩ : Fin 256) (0 : Fin 1)) := by
  show W5 (F := Ideal) m c main_v1 (ix1 k) = _
  rw [W5_v1 (F := Ideal) m c]
  exact W1_v1 (F := Ideal) m c k
theorem half3_at5 (k : Fin 128) :
    U5 (F := Ideal) m c main_v3 (ix1 k) = (m ((c : Thread nD τ).loc main_arg6)) (ix2 (⟨128 + k.val, by omega⟩ : Fin 256) (0 : Fin 1)) := by
  show W5 (F := Ideal) m c main_v3 (ix1 k) = _
  rw [W5_v3 (F := Ideal) m c]
  exact W1_v3 (F := Ideal) m c k

/-- After region 0: the projection of the aggregated input features by the first weight. -/
theorem x17_eq : W2 (F := Ideal) m c main_v17 = (mm (spmm (m ((c : Thread nD τ).loc main_arg1)) (m ((c : Thread nD τ).loc main_arg2)) (m ((c : Thread nD τ).loc main_arg3)) (m ((c : Thread nD τ).loc main_arg0))) (m ((c : Thread nD τ).loc main_arg4))) := by
  refine (W2_v17 (F := Ideal) m c).trans ((arr0 (U1 (F := Ideal) m) c mm_tile0).trans ?_)
  show mm (W1 (F := Ideal) m c main_v16) (W1 (F := Ideal) m c main_arg4) = _
  rw [W1_v16 (F := Ideal) m c, W1_arg (F := Ideal) m c main_arg4 (by decide)]

/-- After region 1: the first gated layer, of that projection with itself. -/
theorem x18_eq : W3 (F := Ideal) m c main_v18 = (gate (mm (spmm (m ((c : Thread nD τ).loc main_arg1)) (m ((c : Thread nD τ).loc main_arg2)) (m ((c : Thread nD τ).loc main_arg3)) (m ((c : Thread nD τ).loc main_arg0))) (m ((c : Thread nD τ).loc main_arg4))) (mm (spmm (m ((c : Thread nD τ).loc main_arg1)) (m ((c : Thread nD τ).loc main_arg2)) (m ((c : Thread nD τ).loc main_arg3)) (m ((c : Thread nD τ).loc main_arg0))) (m ((c : Thread nD τ).loc main_arg4))) (m ((c : Thread nD τ).loc main_arg6)) (m ((c : Thread nD τ).loc main_arg7)) (m ((c : Thread nD τ).loc main_arg10))) := by
  refine (W3_v18 (F := Ideal) m c).trans
    ((arr1 (U2 (F := Ideal) m) q1 c (m ((c : Thread nD τ).loc main_arg6)) (half1_at2 m c) (half3_at2 m c) gate_tile1).trans ?_)
  show gate (W2 (F := Ideal) m c main_v17) (W2 (F := Ideal) m c main_v17) (m ((c : Thread nD τ).loc main_arg6)) (W2 (F := Ideal) m c main_arg7) (W2 (F := Ideal) m c main_arg10) = _
  rw [x17_eq m c, W2_arg (F := Ideal) m c main_arg7 (by decide), W2_arg (F := Ideal) m c main_arg10 (by decide)]

/-- After region 2: the aggregation of the first gated layer, projected by the first hop weight. -/
theorem x34_eq : W5 (F := Ideal) m c main_v34 = (mm (spmm (m ((c : Thread nD τ).loc main_arg1)) (m ((c : Thread nD τ).loc main_arg2)) (m ((c : Thread nD τ).loc main_arg3)) (gate (mm (spmm (m ((c : Thread nD τ).loc main_arg1)) (m ((c : Thread nD τ).loc main_arg2)) (m ((c : Thread nD τ).loc main_arg3)) (m ((c : Thread nD τ).loc main_arg0))) (m ((c : Thread nD τ).loc main_arg4))) (mm (spmm (m ((c : Thread nD τ).loc main_arg1)) (m ((c : Thread nD τ).loc main_arg2)) (m ((c : Thread nD τ).loc main_arg3)) (m ((c : Thread nD τ).loc main_arg0))) (m ((c : Thread nD τ).loc main_arg4))) (m ((c : Thread nD τ).loc main_arg6)) (m ((c : Thread nD τ).loc main_arg7)) (m ((c : Thread nD τ).loc main_arg10)))) (wh0 (m ((c : Thread nD τ).loc main_arg5)))) := by
  refine (W5_v34 (F := Ideal) m c).trans ((arr2 (U4 (F := Ideal) m) c mm_tile2).trans ?_)
  show mm (W4 (F := Ideal) m c main_v31) (W4 (F := Ideal) m c main_v33) = _
  rw [W4_v31 (F := Ideal) m c, W4_v33 (F := Ideal) m c, x18_eq m c]

/-- After region 3: the second gated layer, of that projection with the first projection. -/
theorem x35_eq : W6 (F := Ideal) m c main_v35 = (gate (mm (spmm (m ((c : Thread nD τ).loc main_arg1)) (m ((c : Thread nD τ).loc main_arg2)) (m ((c : Thread nD τ).loc main_arg3)) (gate (mm (spmm (m ((c : Thread nD τ).loc main_arg1)) (m ((c : Thread nD τ).loc main_arg2)) (m ((c : Thread nD τ).loc main_arg3)) (m ((c : Thread nD τ).loc main_arg0))) (m ((c : Thread nD τ).loc main_arg4))) (mm (spmm (m ((c : Thread nD τ).loc main_arg1)) (m ((c : Thread nD τ).loc main_arg2)) (m ((c : Thread nD τ).loc main_arg3)) (m ((c : Thread nD τ).loc main_arg0))) (m ((c : Thread nD τ).loc main_arg4))) (m ((c : Thread nD τ).loc main_arg6)) (m ((c : Thread nD τ).loc main_arg7)) (m ((c : Thread nD τ).loc main_arg10)))) (wh0 (m ((c : Thread nD τ).loc main_arg5)))) (mm (spmm (m ((c : Thread nD τ).loc main_arg1)) (m ((c : Thread nD τ).loc main_arg2)) (m ((c : Thread nD τ).loc main_arg3)) (m ((c : Thread nD τ).loc main_arg0))) (m ((c : Thread nD τ).loc main_arg4))) (m ((c : Thread nD τ).loc main_arg6)) (m ((c : Thread nD τ).loc main_arg7)) (m ((c : Thread nD τ).loc main_arg10))) := by
  refine (W6_v35 (F := Ideal) m c).trans
    ((arr3 (U5 (F := Ideal) m) q3 c (m ((c : Thread nD τ).loc main_arg6)) (half1_at5 m c) (half3_at5 m c) gate_tile3).trans ?_)
  show gate (W5 (F := Ideal) m c main_v34) (W5 (F := Ideal) m c main_v17) (m ((c : Thread nD τ).loc main_arg6)) (W5 (F := Ideal) m c main_arg7) (W5 (F := Ideal) m c main_arg10) = _
  rw [x34_eq m c, W5_v17 (F := Ideal) m c, x17_eq m c, W5_arg (F := Ideal) m c main_arg7 (by decide), W5_arg (F := Ideal) m c main_arg10 (by decide)]

/-- At the end the result buffer holds the reference's whole network of the eleven arguments. -/
theorem kernel_net (m : (ℓ : Loc nD τ sig) → Buf (Elt Ideal) ℓ) (c : Dev nD) :
    W8 (F := Ideal) m c main_v51 = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W8_v51 (F := Ideal) m c).trans ((arr4 (U7 (F := Ideal) m) c final_tile).trans ?_)
  show final (W7 (F := Ideal) m c main_v48) (W7 (F := Ideal) m c main_v50) (W7 (F := Ideal) m c main_arg10) (W7 (F := Ideal) m c main_arg8) (W7 (F := Ideal) m c main_arg9) = _
  rw [W7_v48 (F := Ideal) m c, W7_v50 (F := Ideal) m c, x35_eq m c, W7_arg (F := Ideal) m c main_arg10 (by decide),
    W7_arg (F := Ideal) m c main_arg8 (by decide), W7_arg (F := Ideal) m c main_arg9 (by decide)]
  unfold net
  rfl

end Cert.Val

end
-- ==== Proof.Val.RefStretch.lean ====
/- The reference's 137 host operations read stretch by stretch: seven stretches (aggregation and projection, gate, aggregation and
   projection, gate, aggregation and projection, class scores, log-softmax). Each stretch, run from any contents
   of the buffers, leaves one layer applied to the buffers it reads and keeps the arguments; composed, the last buffer holds the
   whole network of the arguments. -/
import proofs.«133321_j75213467287803_1_alg».proof.Proof.Val.RefOpsList

noncomputable section

namespace Cert.ReferenceIdeal.ValueH

open Cert.ReferenceIdeal Cert.ReferenceIdeal.Gen Idealize.ShloMosaic Idealize.ShloMosaic.TcCoe Idealize.SL.Sem Idealize.ShloMosaic.StableHlo

variable {F : FTy → Type} [FloatOps F]

/-! ## The operations in seven stretches

The value of the last buffer is read stretch by stretch: each stretch, run from ANY contents `V` of the buffers, leaves in its
last buffer one layer of the network applied to the buffers it reads, and leaves the arguments (and the first projection, which
two later stretches read again) as they were. -/

abbrev opsA : List (HloOp τ sig (Elt F)) :=
  [ unary main_arg3 main_v0 (broadcastInDim S1600000x1 ![0] bcast_S1600000_S1600000x1_0 : (⟨S1600000, .f32⟩ : BufTy).Contents (Elt F) → (⟨S1600000x1, .f32⟩ : BufTy).Contents (Elt F)),
    nullary main_c (constantI S_ 32 0#32),
    unary main_c main_v1 (broadcastInDim S1600000 ![] bcast_S_S1600000 : (⟨S_, .i32⟩ : BufTy).Contents (Elt F) → (⟨S1600000, .i32⟩ : BufTy).Contents (Elt F)),
    binary main_arg2 main_v1 main_v2 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v3 (broadcastInDim S1600000 ![] bcast_S_S1600000 : (⟨S_, .i32⟩ : BufTy).Contents (Elt F) → (⟨S1600000, .i32⟩ : BufTy).Contents (Elt F)),
    binary main_arg2 main_v3 main_v4 (addi : (⟨S1600000, .i32⟩ : BufTy).Contents (Elt F) → (⟨S1600000, .i32⟩ : BufTy).Contents (Elt F) → (⟨S1600000, .i32⟩ : BufTy).Contents (Elt F)),
    ternary main_v2 main_v4 main_arg2 main_v5 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v5 main_v6 (broadcastInDim S1600000x1 ![0] bcast_S1600000_S1600000x1_0 : (⟨S1600000, .i32⟩ : BufTy).Contents (Elt F) → (⟨S1600000x1, .i32⟩ : BufTy).Contents (Elt F)),
    binary main_arg0 main_v6 main_v7 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v0 main_v8 (broadcastInDim S1600000x128 ![0, 1] bcast_S1600000x1_S1600000x128_0_1 : (⟨S1600000x1, .f32⟩ : BufTy).Contents (Elt F) → (⟨S1600000x128, .f32⟩ : BufTy).Contents (Elt F)),
    binary main_v8 main_v7 main_v9 (mulf : (⟨S1600000x128, .f32⟩ : BufTy).Contents (Elt F) → (⟨S1600000x128, .f32⟩ : BufTy).Contents (Elt F) → (⟨S1600000x128, .f32⟩ : BufTy).Contents (Elt F)),
    nullary main_cst (constant S_ .f32 0x00000000#32),
    unary main_cst main_v10 (broadcastInDim S100000x128 ![] bcast_S_S100000x128 : (⟨S_, .f32⟩ : BufTy).Contents (Elt F) → (⟨S100000x128, .f32⟩ : BufTy).Contents (Elt F)),
    unary main_arg1 main_v11 (broadcastInDim S1600000x1 ![0] bcast_S1600000_S1600000x1_0 : (⟨S1600000, .i32⟩ : BufTy).Contents (Elt F) → (⟨S1600000x1, .i32⟩ : BufTy).Contents (Elt F)),
    ternary main_v10 main_v11 main_v9 main_v12 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_v12 main_arg4 main_v13 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]
abbrev opsB : List (HloOp τ sig (Elt F)) :=
  [ binary main_v13 main_v13 main_v14 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)),
    binary main_v14 main_arg6 main_v15 ((fun l r => Host.dotGeneral dot_S100000x256_S256x1_S100000x1_1_0_0_1_n_n none l r) : (⟨S100000x256, .f32⟩ : BufTy).Contents (Elt F) → (⟨S256x1, .f32⟩ : BufTy).Contents (Elt F) → (⟨S100000x1, .f32⟩ : BufTy).Contents (Elt F)),
    unary main_arg7 main_v16 (broadcastInDim S1x1 ![1] bcast_S1_S1x1_1 : (⟨S1, .f32⟩ : BufTy).Contents (Elt F) → (⟨S1x1, .f32⟩ : BufTy).Contents (Elt F)),
    unary main_v16 main_v17 (broadcastInDim S100000x1 ![0, 1] bcast_S1x1_S100000x1_0_1 : (⟨S1x1, .f32⟩ : BufTy).Contents (Elt F) → (⟨S100000x1, .f32⟩ : BufTy).Contents (Elt F)),
    binary main_v15 main_v17 main_v18 (addf : (⟨S100000x1, .f32⟩ : BufTy).Contents (Elt F) → (⟨S100000x1, .f32⟩ : BufTy).Contents (Elt F) → (⟨S100000x1, .f32⟩ : BufTy).Contents (Elt F)),
    unary main_v18 main_v19 (Host.negf : (⟨S100000x1, .f32⟩ : BufTy).Contents (Elt F) → (⟨S100000x1, .f32⟩ : BufTy).Contents (Elt F)),
    unary main_v19 main_v20 (Host.exp : (⟨S100000x1, .f32⟩ : BufTy).Contents (Elt F) → (⟨S100000x1, .f32⟩ : BufTy).Contents (Elt F)),
    nullary main_cst_1 (constant S_ .f32 0x3F800000#32),
    unary main_cst_1 main_v21 (broadcastInDim S100000x1 ![] bcast_S_S100000x1 : (⟨S_, .f32⟩ : BufTy).Contents (Elt F) → (⟨S100000x1, .f32⟩ : BufTy).Contents (Elt F)),
    binary main_v21 main_v20 main_v22 (addf : (⟨S100000x1, .f32⟩ : BufTy).Contents (Elt F) → (⟨S100000x1, .f32⟩ : BufTy).Contents (Elt F) → (⟨S100000x1, .f32⟩ : BufTy).Contents (Elt F)),
    nullary main_cst_2 (constant S_ .f32 0x3F800000#32),
    unary main_cst_2 main_v23 (broadcastInDim S100000x1 ![] bcast_S_S100000x1 : (⟨S_, .f32⟩ : BufTy).Contents (Elt F) → (⟨S100000x1, .f32⟩ : BufTy).Contents (Elt F)),
    binary main_v23 main_v22 main_v24 (Host.divf : (⟨S100000x1, .f32⟩ : BufTy).Contents (Elt F) → (⟨S100000x1, .f32⟩ : BufTy).Contents (Elt F) → (⟨S100000x1, .f32⟩ : BufTy).Contents (Elt F)),
    nullary main_cst_3 (constant S_ .f32 0x3F800000#32),
    unary main_cst_3 main_v25 (broadcastInDim S100000x1 ![] bcast_S_S100000x1 : (⟨S_, .f32⟩ : BufTy).Contents (Elt F) → (⟨S100000x1, .f32⟩ : BufTy).Contents (Elt F)),
    binary main_v25 main_v24 main_v26 (subf : (⟨S100000x1, .f32⟩ : BufTy).Contents (Elt F) → (⟨S100000x1, .f32⟩ : BufTy).Contents (Elt F) → (⟨S100000x1, .f32⟩ : BufTy).Contents (Elt F)),
    unary main_v26 main_v27 (broadcastInDim S100000x128 ![0, 1] bcast_S100000x1_S100000x128_0_1 : (⟨S100000x1, .f32⟩ : BufTy).Contents (Elt F) → (⟨S100000x128, .f32⟩ : BufTy).Contents (Elt F)),
    binary main_v27 main_v13 main_v28 (mulf : (⟨S100000x128, .f32⟩ : BufTy).Contents (Elt F) → (⟨S100000x128, .f32⟩ : BufTy).Contents (Elt F) → (⟨S100000x128, .f32⟩ : BufTy).Contents (Elt F)),
    unary main_v24 main_v29 (broadcastInDim S100000x128 ![0, 1] bcast_S100000x1_S100000x128_0_1 : (⟨S100000x1, .f32⟩ : BufTy).Contents (Elt F) → (⟨S100000x128, .f32⟩ : BufTy).Contents (Elt F)),
    binary main_v29 main_v13 main_v30 (mulf : (⟨S100000x128, .f32⟩ : BufTy).Contents (Elt F) → (⟨S100000x128, .f32⟩ : BufTy).Contents (Elt F) → (⟨S100000x128, .f32⟩ : BufTy).Contents (Elt F)),
    binary main_v28 main_v30 main_v31 (addf : (⟨S100000x128, .f32⟩ : BufTy).Contents (Elt F) → (⟨S100000x128, .f32⟩ : BufTy).Contents (Elt F) → (⟨S100000x128, .f32⟩ : BufTy).Contents (Elt F)),
    nullary main_cst_4 (constant S_ .f32 0x00000000#32),
    unary main_cst_4 main_v32 (broadcastInDim S100000x128 ![] bcast_S_S100000x128 : (⟨S_, .f32⟩ : BufTy).Contents (Elt F) → (⟨S100000x128, .f32⟩ : BufTy).Contents (Elt F)),
    binary main_v31 main_v32 main_v33 (cmpf .oge : (⟨S100000x128, .f32⟩ : BufTy).Contents (Elt F) → (⟨S100000x128, .f32⟩ : BufTy).Contents (Elt F) → (⟨S100000x128, .i1⟩ : BufTy).Contents (Elt F)),
    unary main_arg10 main_v34 (broadcastInDim S1x1 ![1] bcast_S1_S1x1_1 : (⟨S1, .f32⟩ : BufTy).Contents (Elt F) → (⟨S1x1, .f32⟩ : BufTy).Contents (Elt F)),
    unary main_v34 main_v35 (broadcastInDim S100000x128 ![0, 1] bcast_S1x1_S100000x128_0_1 : (⟨S1x1, .f32⟩ : BufTy).Contents (Elt F) → (⟨S100000x128, .f32⟩ : BufTy).Contents (Elt F)),
    binary main_v35 main_v31 main_v36 (mulf : (⟨S100000x128, .f32⟩ : BufTy).Contents (Elt F) → (⟨S100000x128, .f32⟩ : BufTy).Contents (Elt F) → (⟨S100000x128, .f32⟩ : BufTy).Contents (Elt F)),
    TRef.ternary (TRef.of (T := ⟨S100000x128, .i1⟩) main_v33) (TRef.of (T := ⟨S100000x128, .f32⟩) main_v31) (TRef.of (T := ⟨S100000x128, .f32⟩) main_v36) (TRef.of (T := ⟨S100000x128, .f32⟩) main_v37) select ]
abbrev opsC : List (HloOp τ sig (Elt F)) :=
  [ unary main_arg3 main_v38 (broadcastInDim S1600000x1 ![0] bcast_S1600000_S1600000x1_0 : (⟨S1600000, .f32⟩ : BufTy).Contents (Elt F) → (⟨S1600000x1, .f32⟩ : BufTy).Contents (Elt F)),
    nullary main_c_5 (constantI S_ 32 0#32),
    unary main_c_5 main_v39 (broadcastInDim S1600000 ![] bcast_S_S1600000 : (⟨S_, .i32⟩ : BufTy).Contents (Elt F) → (⟨S1600000, .i32⟩ : BufTy).Contents (Elt F)),
    binary main_arg2 main_v39 main_v40 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v41 (broadcastInDim S1600000 ![] bcast_S_S1600000 : (⟨S_, .i32⟩ : BufTy).Contents (Elt F) → (⟨S1600000, .i32⟩ : BufTy).Contents (Elt F)),
    binary main_arg2 main_v41 main_v42 (addi : (⟨S1600000, .i32⟩ : BufTy).Contents (Elt F) → (⟨S1600000, .i32⟩ : BufTy).Contents (Elt F) → (⟨S1600000, .i32⟩ : BufTy).Contents (Elt F)),
    ternary main_v40 main_v42 main_arg2 main_v43 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v43 main_v44 (broadcastInDim S1600000x1 ![0] bcast_S1600000_S1600000x1_0 : (⟨S1600000, .i32⟩ : BufTy).Contents (Elt F) → (⟨S1600000x1, .i32⟩ : BufTy).Contents (Elt F)),
    binary main_v37 main_v44 main_v45 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v38 main_v46 (broadcastInDim S1600000x128 ![0, 1] bcast_S1600000x1_S1600000x128_0_1 : (⟨S1600000x1, .f32⟩ : BufTy).Contents (Elt F) → (⟨S1600000x128, .f32⟩ : BufTy).Contents (Elt F)),
    binary main_v46 main_v45 main_v47 (mulf : (⟨S1600000x128, .f32⟩ : BufTy).Contents (Elt F) → (⟨S1600000x128, .f32⟩ : BufTy).Contents (Elt F) → (⟨S1600000x128, .f32⟩ : BufTy).Contents (Elt F)),
    nullary main_cst_7 (constant S_ .f32 0x00000000#32),
    unary main_cst_7 main_v48 (broadcastInDim S100000x128 ![] bcast_S_S100000x128 : (⟨S_, .f32⟩ : BufTy).Contents (Elt F) → (⟨S100000x128, .f32⟩ : BufTy).Contents (Elt F)),
    unary main_arg1 main_v49 (broadcastInDim S1600000x1 ![0] bcast_S1600000_S1600000x1_0 : (⟨S1600000, .i32⟩ : BufTy).Contents (Elt F) → (⟨S1600000x1, .i32⟩ : BufTy).Contents (Elt F)),
    ternary main_v48 main_v49 main_v47 main_v50 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_arg5 main_v51 ((extractStridedSlice S1x128x128 ![0, 0, 0] · slices_S2x128x128_S1x128x128_0_0_0) : (⟨S2x128x128, .f32⟩ : BufTy).Contents (Elt F) → (⟨S1x128x128, .f32⟩ : BufTy).Contents (Elt F)),
    reshape main_v51 main_v52 rfl shapeCasts_S1x128x128_S128x128,
    binary main_v50 main_v52 main_v53 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]
abbrev opsD : List (HloOp τ sig (Elt F)) :=
  [ binary main_v53 main_v13 main_v54 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)),
    binary main_v54 main_arg6 main_v55 ((fun l r => Host.dotGeneral dot_S100000x256_S256x1_S100000x1_1_0_0_1_n_n none l r) : (⟨S100000x256, .f32⟩ : BufTy).Contents (Elt F) → (⟨S256x1, .f32⟩ : BufTy).Contents (Elt F) → (⟨S100000x1, .f32⟩ : BufTy).Contents (Elt F)),
    unary main_arg7 main_v56 (broadcastInDim S1x1 ![1] bcast_S1_S1x1_1 : (⟨S1, .f32⟩ : BufTy).Contents (Elt F) → (⟨S1x1, .f32⟩ : BufTy).Contents (Elt F)),
    unary main_v56 main_v57 (broadcastInDim S100000x1 ![0, 1] bcast_S1x1_S100000x1_0_1 : (⟨S1x1, .f32⟩ : BufTy).Contents (Elt F) → (⟨S100000x1, .f32⟩ : BufTy).Contents (Elt F)),
    binary main_v55 main_v57 main_v58 (addf : (⟨S100000x1, .f32⟩ : BufTy).Contents (Elt F) → (⟨S100000x1, .f32⟩ : BufTy).Contents (Elt F) → (⟨S100000x1, .f32⟩ : BufTy).Contents (Elt F)),
    unary main_v58 main_v59 (Host.negf : (⟨S100000x1, .f32⟩ : BufTy).Contents (Elt F) → (⟨S100000x1, .f32⟩ : BufTy).Contents (Elt F)),
    unary main_v59 main_v60 (Host.exp : (⟨S100000x1, .f32⟩ : BufTy).Contents (Elt F) → (⟨S100000x1, .f32⟩ : BufTy).Contents (Elt F)),
    nullary main_cst_8 (constant S_ .f32 0x3F800000#32),
    unary main_cst_8 main_v61 (broadcastInDim S100000x1 ![] bcast_S_S100000x1 : (⟨S_, .f32⟩ : BufTy).Contents (Elt F) → (⟨S100000x1, .f32⟩ : BufTy).Contents (Elt F)),
    binary main_v61 main_v60 main_v62 (addf : (⟨S100000x1, .f32⟩ : BufTy).Contents (Elt F) → (⟨S100000x1, .f32⟩ : BufTy).Contents (Elt F) → (⟨S100000x1, .f32⟩ : BufTy).Contents (Elt F)),
    nullary main_cst_9 (constant S_ .f32 0x3F800000#32),
    unary main_cst_9 main_v63 (broadcastInDim S100000x1 ![] bcast_S_S100000x1 : (⟨S_, .f32⟩ : BufTy).Contents (Elt F) → (⟨S100000x1, .f32⟩ : BufTy).Contents (Elt F)),
    binary main_v63 main_v62 main_v64 (Host.divf : (⟨S100000x1, .f32⟩ : BufTy).Contents (Elt F) → (⟨S100000x1, .f32⟩ : BufTy).Contents (Elt F) → (⟨S100000x1, .f32⟩ : BufTy).Contents (Elt F)),
    nullary main_cst_10 (constant S_ .f32 0x3F800000#32),
    unary main_cst_10 main_v65 (broadcastInDim S100000x1 ![] bcast_S_S100000x1 : (⟨S_, .f32⟩ : BufTy).Contents (Elt F) → (⟨S100000x1, .f32⟩ : BufTy).Contents (Elt F)),
    binary main_v65 main_v64 main_v66 (subf : (⟨S100000x1, .f32⟩ : BufTy).Contents (Elt F) → (⟨S100000x1, .f32⟩ : BufTy).Contents (Elt F) → (⟨S100000x1, .f32⟩ : BufTy).Contents (Elt F)),
    unary main_v66 main_v67 (broadcastInDim S100000x128 ![0, 1] bcast_S100000x1_S100000x128_0_1 : (⟨S100000x1, .f32⟩ : BufTy).Contents (Elt F) → (⟨S100000x128, .f32⟩ : BufTy).Contents (Elt F)),
    binary main_v67 main_v53 main_v68 (mulf : (⟨S100000x128, .f32⟩ : BufTy).Contents (Elt F) → (⟨S100000x128, .f32⟩ : BufTy).Contents (Elt F) → (⟨S100000x128, .f32⟩ : BufTy).Contents (Elt F)),
    unary main_v64 main_v69 (broadcastInDim S100000x128 ![0, 1] bcast_S100000x1_S100000x128_0_1 : (⟨S100000x1, .f32⟩ : BufTy).Contents (Elt F) → (⟨S100000x128, .f32⟩ : BufTy).Contents (Elt F)),
    binary main_v69 main_v13 main_v70 (mulf : (⟨S100000x128, .f32⟩ : BufTy).Contents (Elt F) → (⟨S100000x128, .f32⟩ : BufTy).Contents (Elt F) → (⟨S100000x128, .f32⟩ : BufTy).Contents (Elt F)),
    binary main_v68 main_v70 main_v71 (addf : (⟨S100000x128, .f32⟩ : BufTy).Contents (Elt F) → (⟨S100000x128, .f32⟩ : BufTy).Contents (Elt F) → (⟨S100000x128, .f32⟩ : BufTy).Contents (Elt F)),
    nullary main_cst_11 (constant S_ .f32 0x00000000#32),
    unary main_cst_11 main_v72 (broadcastInDim S100000x128 ![] bcast_S_S100000x128 : (⟨S_, .f32⟩ : BufTy).Contents (Elt F) → (⟨S100000x128, .f32⟩ : BufTy).Contents (Elt F)),
    binary main_v71 main_v72 main_v73 (cmpf .oge : (⟨S100000x128, .f32⟩ : BufTy).Contents (Elt F) → (⟨S100000x128, .f32⟩ : BufTy).Contents (Elt F) → (⟨S100000x128, .i1⟩ : BufTy).Contents (Elt F)),
    unary main_arg10 main_v74 (broadcastInDim S1x1 ![1] bcast_S1_S1x1_1 : (⟨S1, .f32⟩ : BufTy).Contents (Elt F) → (⟨S1x1, .f32⟩ : BufTy).Contents (Elt F)),
    unary main_v74 main_v75 (broadcastInDim S100000x128 ![0, 1] bcast_S1x1_S100000x128_0_1 : (⟨S1x1, .f32⟩ : BufTy).Contents (Elt F) → (⟨S100000x128, .f32⟩ : BufTy).Contents (Elt F)),
    binary main_v75 main_v71 main_v76 (mulf : (⟨S100000x128, .f32⟩ : BufTy).Contents (Elt F) → (⟨S100000x128, .f32⟩ : BufTy).Contents (Elt F) → (⟨S100000x128, .f32⟩ : BufTy).Contents (Elt F)),
    TRef.ternary (TRef.of (T := ⟨S100000x128, .i1⟩) main_v73) (TRef.of (T := ⟨S100000x128, .f32⟩) main_v71) (TRef.of (T := ⟨S100000x128, .f32⟩) main_v76) (TRef.of (T := ⟨S100000x128, .f32⟩) main_v77) select ]
abbrev opsE : List (HloOp τ sig (Elt F)) :=
  [ unary main_arg3 main_v78 (broadcastInDim S1600000x1 ![0] bcast_S1600000_S1600000x1_0 : (⟨S1600000, .f32⟩ : BufTy).Contents (Elt F) → (⟨S1600000x1, .f32⟩ : BufTy).Contents (Elt F)),
    nullary main_c_12 (constantI S_ 32 0#32),
    unary main_c_12 main_v79 (broadcastInDim S1600000 ![] bcast_S_S1600000 : (⟨S_, .i32⟩ : BufTy).Contents (Elt F) → (⟨S1600000, .i32⟩ : BufTy).Contents (Elt F)),
    binary main_arg2 main_v79 main_v80 (cmpi .slt : (⟨S1600000, .i32⟩ : BufTy).Contents (Elt F) → (⟨S1600000, .i32⟩ : BufTy).Contents (Elt F) → (⟨S1600000, .i1⟩ : BufTy).Contents (Elt F)),
    nullary main_c_13 (constantI S_ 32 100000#32),
    unary main_c_13 main_v81 (broadcastInDim S1600000 ![] bcast_S_S1600000 : (⟨S_, .i32⟩ : BufTy).Contents (Elt F) → (⟨S1600000, .i32⟩ : BufTy).Contents (Elt F)),
    binary main_arg2 main_v81 main_v82 (addi : (⟨S1600000, .i32⟩ : BufTy).Contents (Elt F) → (⟨S1600000, .i32⟩ : BufTy).Contents (Elt F) → (⟨S1600000, .i32⟩ : BufTy).Contents (Elt F)),
    ternary main_v80 main_v82 main_arg2 main_v83 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v83 main_v84 (broadcastInDim S1600000x1 ![0] bcast_S1600000_S1600000x1_0 : (⟨S1600000, .i32⟩ : BufTy).Contents (Elt F) → (⟨S1600000x1, .i32⟩ : BufTy).Contents (Elt F)),
    binary main_v77 main_v84 main_v85 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v78 main_v86 (broadcastInDim S1600000x128 ![0, 1] bcast_S1600000x1_S1600000x128_0_1 : (⟨S1600000x1, .f32⟩ : BufTy).Contents (Elt F) → (⟨S1600000x128, .f32⟩ : BufTy).Contents (Elt F)),
    binary main_v86 main_v85 main_v87 (mulf : (⟨S1600000x128, .f32⟩ : BufTy).Contents (Elt F) → (⟨S1600000x128, .f32⟩ : BufTy).Contents (Elt F) → (⟨S1600000x128, .f32⟩ : BufTy).Contents (Elt F)),
    nullary main_cst_14 (constant S_ .f32 0x00000000#32),
    unary main_cst_14 main_v88 (broadcastInDim S100000x128 ![] bcast_S_S100000x128 : (⟨S_, .f32⟩ : BufTy).Contents (Elt F) → (⟨S100000x128, .f32⟩ : BufTy).Contents (Elt F)),
    unary main_arg1 main_v89 (broadcastInDim S1600000x1 ![0] bcast_S1600000_S1600000x1_0 : (⟨S1600000, .i32⟩ : BufTy).Contents (Elt F) → (⟨S1600000x1, .i32⟩ : BufTy).Contents (Elt F)),
    ternary main_v88 main_v89 main_v87 main_v90 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_arg5 main_v91 ((extractStridedSlice S1x128x128 ![1, 0, 0] · slices_S2x128x128_S1x128x128_1_0_0) : (⟨S2x128x128, .f32⟩ : BufTy).Contents (Elt F) → (⟨S1x128x128, .f32⟩ : BufTy).Contents (Elt F)),
    reshape main_v91 main_v92 rfl shapeCasts_S1x128x128_S128x128,
    binary main_v90 main_v92 main_v93 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]
abbrev opsF : List (HloOp τ sig (Elt F)) :=
  [ nullary main_cst_15 (constant S_ .f32 0x00000000#32),
    unary main_cst_15 main_v94 (broadcastInDim S100000x128 ![] bcast_S_S100000x128 : (⟨S_, .f32⟩ : BufTy).Contents (Elt F) → (⟨S100000x128, .f32⟩ : BufTy).Contents (Elt F)),
    binary main_v93 main_v94 main_v95 (cmpf .oge : (⟨S100000x128, .f32⟩ : BufTy).Contents (Elt F) → (⟨S100000x128, .f32⟩ : BufTy).Contents (Elt F) → (⟨S100000x128, .i1⟩ : BufTy).Contents (Elt F)),
    unary main_arg10 main_v96 (broadcastInDim S1x1 ![1] bcast_S1_S1x1_1 : (⟨S1, .f32⟩ : BufTy).Contents (Elt F) → (⟨S1x1, .f32⟩ : BufTy).Contents (Elt F)),
    unary main_v96 main_v97 (broadcastInDim S100000x128 ![0, 1] bcast_S1x1_S100000x128_0_1 : (⟨S1x1, .f32⟩ : BufTy).Contents (Elt F) → (⟨S100000x128, .f32⟩ : BufTy).Contents (Elt F)),
    binary main_v97 main_v93 main_v98 (mulf : (⟨S100000x128, .f32⟩ : BufTy).Contents (Elt F) → (⟨S100000x128, .f32⟩ : BufTy).Contents (Elt F) → (⟨S100000x128, .f32⟩ : BufTy).Contents (Elt F)),
    TRef.ternary (TRef.of (T := ⟨S100000x128, .i1⟩) main_v95) (TRef.of (T := ⟨S100000x128, .f32⟩) main_v93) (TRef.of (T := ⟨S100000x128, .f32⟩) main_v98) (TRef.of (T := ⟨S100000x128, .f32⟩) main_v99) select,
    binary main_v99 main_arg8 main_v100 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg9 main_v101 (broadcastInDim S1x64 ![1] bcast_S64_S1x64_1 : (⟨S64, .f32⟩ : BufTy).Contents (Elt F) → (⟨S1x64, .f32⟩ : BufTy).Contents (Elt F)),
    unary main_v101 main_v102 (broadcastInDim S100000x64 ![0, 1] bcast_S1x64_S100000x64_0_1 : (⟨S1x64, .f32⟩ : BufTy).Contents (Elt F) → (⟨S100000x64, .f32⟩ : BufTy).Contents (Elt F)),
    binary main_v100 main_v102 main_v103 (addf : (⟨S100000x64, .f32⟩ : BufTy).Contents (Elt F) → (⟨S100000x64, .f32⟩ : BufTy).Contents (Elt F) → (⟨S100000x64, .f32⟩ : BufTy).Contents (Elt F)) ]
abbrev opsG0 : List (HloOp τ sig (Elt F)) :=
  [ TRef.nullary (TRef.of (T := ⟨S_, .f32⟩) main_call3_cst) (constant S_ .f32 0xFF800000#32),
    TRef.binary (TRef.of (T := ⟨S100000x64, .f32⟩) main_v103) (TRef.of (T := ⟨S_, .f32⟩) main_call3_cst) (TRef.of (T := ⟨S100000, .f32⟩) main_call3_v0) (fun x v => Host.reduce FloatOps.maximumf x v reducesTo_S100000x64_S100000_d1 h_S_) ]
abbrev opsG1 : List (HloOp τ sig (Elt F)) :=
  [ TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x64, .f32⟩) main_call3_v4) (broadcastInDim S100000x64 ![0, 1] bcast_S100000x1_S100000x64_0_1),
    TRef.binary (TRef.of (T := ⟨S100000x64, .f32⟩) main_v103) (TRef.of (T := ⟨S100000x64, .f32⟩) main_call3_v4) (TRef.of (T := ⟨S100000x64, .f32⟩) main_call3_v5) subf ]
abbrev opsG2 : List (HloOp τ sig (Elt F)) :=
  [ TRef.unary (TRef.of (T := ⟨S100000x64, .f32⟩) main_call3_v5) (TRef.of (T := ⟨S100000x64, .f32⟩) main_call3_v6) Host.exp,
    TRef.nullary (TRef.of (T := ⟨S_, .f32⟩) main_call3_cst_1) (constant S_ .f32 0x00000000#32),
    TRef.binary (TRef.of (T := ⟨S100000x64, .f32⟩) main_call3_v6) (TRef.of (T := ⟨S_, .f32⟩) main_call3_cst_1) (TRef.of (T := ⟨S100000, .f32⟩) main_call3_v7) (fun x v => Host.reduceAdd x v reducesTo_S100000x64_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x64, .f32⟩) main_call3_v10) (broadcastInDim S100000x64 ![0, 1] bcast_S100000x1_S100000x64_0_1),
    TRef.binary (TRef.of (T := ⟨S100000x64, .f32⟩) main_call3_v5) (TRef.of (T := ⟨S100000x64, .f32⟩) main_call3_v10) (TRef.of (T := ⟨S100000x64, .f32⟩) main_v104) subf ]

/-- The operations are the seven stretches in order. -/
theorem ops_split : (ops : List (HloOp τ sig (Elt F))) = opsA ++ (opsB ++ (opsC ++ (opsD ++ (opsE ++ (opsF ++ (opsG0 ++ (opsG1 ++ opsG2))))))) := rfl

/-- The buffers after two lists in a row are those after the second, from those after the first. -/
theorem after_app : ∀ (l₁ l₂ : List (HloOp τ sig (Elt F))) (V : Valuation τ sig (Elt F)), after (l₁ ++ l₂) V = after l₂ (after l₁ V)
  | [], _, _ => rfl
  | op :: l, l₂, V => by rw [List.cons_append, after_cons, after_cons, after_app l l₂]

section Stretches

variable [Cert.ReferenceIdeal.Facts] (V : Valuation τ sig (Elt F))

/-- The arguments the later stretches read hold the same in `V'` as in `V`. -/
def Same (V V' : Valuation τ sig (Elt F)) : Prop := V' main_arg1 = V main_arg1 ∧ V' main_arg2 = V main_arg2 ∧ V' main_arg3 = V main_arg3 ∧ V' main_arg5 = V main_arg5 ∧ V' main_arg6 = V main_arg6 ∧ V' main_arg7 = V main_arg7 ∧ V' main_arg8 = V main_arg8 ∧ V' main_arg9 = V main_arg9 ∧ V' main_arg10 = V main_arg10

theorem Same.trans {V₁ V₂ V₃ : Valuation τ sig (Elt F)} (h₁ : Same V₁ V₂) (h₂ : Same V₂ V₃) : Same V₁ V₃ :=
  ⟨h₂.1.trans h₁.1, h₂.2.1.trans h₁.2.1, h₂.2.2.1.trans h₁.2.2.1, h₂.2.2.2.1.trans h₁.2.2.2.1, h₂.2.2.2.2.1.trans h₁.2.2.2.2.1, h₂.2.2.2.2.2.1.trans h₁.2.2.2.2.2.1, h₂.2.2.2.2.2.2.1.trans h₁.2.2.2.2.2.2.1, h₂.2.2.2.2.2.2.2.1.trans h₁.2.2.2.2.2.2.2.1, h₂.2.2.2.2.2.2.2.2.trans h₁.2.2.2.2.2.2.2.2⟩

theorem keepA : Same V (after opsA V) := by
  refine ⟨?_, ?_, ?_, ?_, ?_, ?_, ?_, ?_, ?_⟩ <;> (after_results_simp <;> rfl)
theorem keepB : Same V (after opsB V) := by
  refine ⟨?_, ?_, ?_, ?_, ?_, ?_, ?_, ?_, ?_⟩ <;> (after_results_simp <;> rfl)
theorem keepC : Same V (after opsC V) := by
  refine ⟨?_, ?_, ?_, ?_, ?_, ?_, ?_, ?_, ?_⟩ <;> (after_results_simp <;> rfl)
theorem keepD : Same V (after opsD V) := by
  refine ⟨?_, ?_, ?_, ?_, ?_, ?_, ?_, ?_, ?_⟩ <;> (after_results_simp <;> rfl)
theorem keepE : Same V (after opsE V) := by
  refine ⟨?_, ?_, ?_, ?_, ?_, ?_, ?_, ?_, ?_⟩ <;> (after_results_simp <;> rfl)
/-- The first projection is read again by the second gate: the stretches between leave it. -/
theorem keepB_v13 : after opsB V main_v13 = V main_v13 := by after_results_simp <;> rfl
theorem keepC_v13 : after opsC V main_v13 = V main_v13 := by after_results_simp <;> rfl

/-- The first aggregation and projection. -/
theorem stA : after opsA V main_v13 = Cert.Val.mm (Cert.Val.spmm (V main_arg1) (V main_arg2) (V main_arg3) (V main_arg0)) (V main_arg4) := by
  after_results_simp <;> rfl
/-- The first gate. -/
theorem stB : after opsB V main_v37 = Cert.Val.gate (V main_v13) (V main_v13) (V main_arg6) (V main_arg7) (V main_arg10) := by
  after_results_simp <;> rfl
/-- The second aggregation and projection. -/
theorem stC : after opsC V main_v53 = Cert.Val.mm (Cert.Val.spmm (V main_arg1) (V main_arg2) (V main_arg3) (V main_v37)) (Cert.Val.wh0 (V main_arg5)) := by
  after_results_simp <;> rfl
/-- The second gate. -/
theorem stD : after opsD V main_v77 = Cert.Val.gate (V main_v53) (V main_v13) (V main_arg6) (V main_arg7) (V main_arg10) := by
  after_results_simp <;> rfl
/-- The third aggregation and projection. -/
theorem stE : after opsE V main_v93 = Cert.Val.mm (Cert.Val.spmm (V main_arg1) (V main_arg2) (V main_arg3) (V main_v77)) (Cert.Val.wh1 (V main_arg5)) := by
  after_results_simp <;> rfl
/-- The class scores. -/
theorem stF : after opsF V main_v103 = Cert.Val.scores (V main_v93) (V main_arg10) (V main_arg8) (V main_arg9) := by
  after_results_simp <;> rfl
/-- Reading a buffer at its own type is the identity (the buffer's type is that type). -/
theorem ofBuf_main_v103 (x : (main_v103 : Ref sig .tc).ty.Contents (Elt F)) : (TRef.of (T := ⟨S100000x64, .f32⟩) main_v103).ofBuf x = x := rfl
theorem ofBuf_main_call3_cst (x : (main_call3_cst : Ref sig .tc).ty.Contents (Elt F)) : (TRef.of (T := ⟨S_, .f32⟩) main_call3_cst).ofBuf x = x := rfl
theorem toBuf_main_call3_cst (x : (⟨S_, .f32⟩ : BufTy).Contents (Elt F)) : (TRef.of (T := ⟨S_, .f32⟩) main_call3_cst).toBuf x = x := rfl
theorem toBuf_main_call3_v0 (x : (⟨S100000, .f32⟩ : BufTy).Contents (Elt F)) : (TRef.of (T := ⟨S100000, .f32⟩) main_call3_v0).toBuf x = x := rfl

/-- The row maximum, a fold over the whole array: the type transports are removed so that the two sides are the same text. -/
theorem stG0 : after opsG0 V main_call3_v0 = Host.reduce FloatOps.maximumf (V main_v103) (constant S_ .f32 0xFF800000#32) reducesTo_S100000x64_S100000_d1 h_S_ := by
  after_results_simp
  all_goals (simp only [ofBuf_main_v103, ofBuf_main_call3_cst, toBuf_main_call3_cst, toBuf_main_call3_v0])
theorem keepG0_v103 : after opsG0 V main_v103 = V main_v103 := by after_results_simp <;> rfl
/-- The scores shifted by their row's largest. -/
theorem stG1 : after opsG1 V main_call3_v5 = subf (V main_v103) (broadcastInDim S100000x64 ![0, 1] bcast_S100000x1_S100000x64_0_1
    (broadcastInDim S100000x1 ![0] bcast_S100000_S100000x1_0 (maximumf (broadcastInDim S100000 ![] bcast_S_S100000 (constant S_ .f32 0xFF800000#32)) (V main_call3_v0)))) := by
  after_results_simp <;> rfl
/-- The shifted scores less the logarithm of their exponentials' row sum. -/
theorem stG2 : after opsG2 V main_v104 = subf (V main_call3_v5) (broadcastInDim S100000x64 ![0, 1] bcast_S100000x1_S100000x64_0_1
    (Host.log (broadcastInDim S100000x1 ![0] bcast_S100000_S100000x1_0
      (Host.reduceAdd (Host.exp (V main_call3_v5)) (constant S_ .f32 0x00000000#32) reducesTo_S100000x64_S100000_d1 h_S_)))) := by
  after_results_simp <;> rfl
/-- The log-softmax of the scores: the three stretches composed are the layer's own text, the shape facts named alike. -/
theorem stG : after (opsG0 ++ (opsG1 ++ opsG2)) V main_v104 = Cert.Val.lsm (V main_v103) := by
  rw [after_app, after_app, stG2, stG1, stG0, keepG0_v103]
  unfold Cert.Val.lsm Cert.Val.shifted Cert.Val.rowmax
  rw [show (bcast_S_S100000 : S_.BroadcastsInDim S100000 ![]) = Cert.ReferenceIdeal.Facts₀.bcast_S_S100000 from rfl,
    show (bcast_S100000_S100000x1_0 : S100000.BroadcastsInDim S100000x1 ![0]) = Cert.ReferenceIdeal.Facts₀.bcast_S100000_S100000x1_0 from rfl,
    show (bcast_S100000x1_S100000x64_0_1 : S100000x1.BroadcastsInDim S100000x64 ![0, 1]) = Cert.ReferenceIdeal.Facts₀.bcast_S100000x1_S100000x64_0_1 from rfl,
    show (reducesTo_S100000x64_S100000_d1 : S100000x64.ReducesTo [1] S100000) = Cert.ReferenceIdeal.Facts₀.reducesTo_S100000x64_S100000_d1 from rfl,
    show (h_S_ : 0 < S_.numel) = Cert.ReferenceIdeal.Facts₀.h_S_ from rfl]

/-- The whole list from `V`: the network of `V`'s arguments. -/
theorem after_ops_v104 : after ops V main_v104
    = Cert.Val.net (V main_arg0) (V main_arg1) (V main_arg2) (V main_arg3) (V main_arg4) (V main_arg5) (V main_arg6) (V main_arg7) (V main_arg8) (V main_arg9) (V main_arg10) := by
  have s1 := keepA V
  have s2 := s1.trans (keepB (after opsA V))
  have s3 := s2.trans (keepC (after opsB (after opsA V)))
  have s4 := s3.trans (keepD (after opsC (after opsB (after opsA V))))
  have s5 := s4.trans (keepE (after opsD (after opsC (after opsB (after opsA V)))))
  have h13₂ : after opsB (after opsA V) main_v13 = after opsA V main_v13 := keepB_v13 _
  have h13₃ : after opsC (after opsB (after opsA V)) main_v13 = after opsA V main_v13 := (keepC_v13 _).trans h13₂
  rw [ops_split, after_app, after_app, after_app, after_app, after_app, after_app,
    stG, stF, stE, stD, stC, stB, h13₃, stA]
  unfold Same at s1 s2 s3 s4 s5
  rw [s5.2.2.2.2.2.2.2.2, s5.2.2.2.2.2.2.1, s5.2.2.2.2.2.2.2.1,
    s4.1, s4.2.1, s4.2.2.1, s4.2.2.2.1,
    s3.2.2.2.2.1, s3.2.2.2.2.2.1, s3.2.2.2.2.2.2.2.2,
    s2.1, s2.2.1, s2.2.2.1, s2.2.2.2.1,
    s1.2.2.2.2.1, s1.2.2.2.2.2.1, s1.2.2.2.2.2.2.2.2]
  unfold Cert.Val.net Cert.Val.final
  rfl

end Stretches

/-- From the launch contents: the network of the arguments as launched. -/
theorem result_eq [Cert.ReferenceIdeal.Facts] (m : (ℓ : Loc nD τ sig) → Buf (Elt F) ℓ) (c : Dev nD) :
    after ops (launchContents m c) (Proc.devRef .tc main_v104)
      = Cert.Val.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  after_ops_v104 (launchContents m c)

end Cert.ReferenceIdeal.ValueH

end
-- ==== Proof.lean ====
/- The certificate's proof. The three frames: the kernel program, at the word-level instance and at the exact one, runs as
   eight segments — three stretches of host operations and five kernel regions, each region's arrays split out of the core's
   unscoped buffers and put back with the region's result — and ends with every argument buffer as launched; the reference is
   a sequence of host operations. The value claim: at the exact instance the kernel program's result is the same layered
   function of the arguments as the reference's — the sparse aggregation (the same host operations on both sides), the dense
   projection (each row tile's matrix product is the rows of the whole product), the attention gate (the sum over the joined
   256 columns splits into the two sums over 128; the logistic function is one over one plus the exponential of the negated
   logit on both sides), and the output layer with its log-softmax (row maximum, shift, exponential, row sum, logarithm). -/
import proofs.«133321_j75213467287803_1_alg».proof.Defs
import proofs.«133321_j75213467287803_1_alg».proof.Proof.Gen.Kernel
import proofs.«133321_j75213467287803_1_alg».proof.Proof.Gen.KernelIdeal
import proofs.«133321_j75213467287803_1_alg».proof.Proof.Gen.ReferenceIdeal
import proofs.«133321_j75213467287803_1_alg».proof.Proof.Gen.Pre_finite_inputs
import proofs.«133321_j75213467287803_1_alg».proof.Proof.KI.Run
import proofs.«133321_j75213467287803_1_alg».proof.Proof.KI.Args
import proofs.«133321_j75213467287803_1_alg».proof.Proof.K.Run
import proofs.«133321_j75213467287803_1_alg».proof.Proof.K.Args
import proofs.«133321_j75213467287803_1_alg».proof.Proof.Val.KernelNet
import proofs.«133321_j75213467287803_1_alg».proof.Proof.Val.RefRunP
import Idealize.ShloMosaic.Adequacy
import Idealize.ShloMosaic.Init

noncomputable section

namespace Cert.Proof

open Idealize.ShloMosaic Idealize.ShloMosaic.TcCoe Idealize.SL.Sem

/-- The word-level program ends with its arguments as launched. -/
theorem frame_Kernel : @Cert.frame_Kernel Cert.Kernel.Gen.facts Cert.Pre_finite_inputs.Gen.facts :=
  fun m g _ => (θ_run Cert.Kernel.defs _ _).mono (fun r h c =>
    ⟨(h c _ (Cert.Kernel.Hand.mem_uc Cert.Kernel.main_arg0 (by decide))).trans (Cert.Kernel.Hand.W8_args m c).1,
     (h c _ (Cert.Kernel.Hand.mem_uc Cert.Kernel.main_arg1 (by decide))).trans (Cert.Kernel.Hand.W8_args m c).2.1,
     (h c _ (Cert.Kernel.Hand.mem_uc Cert.Kernel.main_arg2 (by decide))).trans (Cert.Kernel.Hand.W8_args m c).2.2.1,
     (h c _ (Cert.Kernel.Hand.mem_uc Cert.Kernel.main_arg3 (by decide))).trans (Cert.Kernel.Hand.W8_args m c).2.2.2.1,
     (h c _ (Cert.Kernel.Hand.mem_uc Cert.Kernel.main_arg4 (by decide))).trans (Cert.Kernel.Hand.W8_args m c).2.2.2.2.1,
     (h c _ (Cert.Kernel.Hand.mem_uc Cert.Kernel.main_arg5 (by decide))).trans (Cert.Kernel.Hand.W8_args m c).2.2.2.2.2.1,
     (h c _ (Cert.Kernel.Hand.mem_uc Cert.Kernel.main_arg6 (by decide))).trans (Cert.Kernel.Hand.W8_args m c).2.2.2.2.2.2.1,
     (h c _ (Cert.Kernel.Hand.mem_uc Cert.Kernel.main_arg7 (by decide))).trans (Cert.Kernel.Hand.W8_args m c).2.2.2.2.2.2.2.1,
     (h c _ (Cert.Kernel.Hand.mem_uc Cert.Kernel.main_arg8 (by decide))).trans (Cert.Kernel.Hand.W8_args m c).2.2.2.2.2.2.2.2.1,
     (h c _ (Cert.Kernel.Hand.mem_uc Cert.Kernel.main_arg9 (by decide))).trans (Cert.Kernel.Hand.W8_args m c).2.2.2.2.2.2.2.2.2.1,
     (h c _ (Cert.Kernel.Hand.mem_uc Cert.Kernel.main_arg10 (by decide))).trans (Cert.Kernel.Hand.W8_args m c).2.2.2.2.2.2.2.2.2.2⟩)
    (Cert.Kernel.Hand.run_all m g)

/-- The idealized program ends with its arguments as launched. -/
theorem frame_KernelIdeal : @Cert.frame_KernelIdeal Cert.KernelIdeal.Gen.facts Cert.Pre_finite_inputs.Gen.facts :=
  fun m g _ => (θ_run Cert.KernelIdeal.defs _ _).mono (fun r h c =>
    ⟨(h c _ (Cert.KernelIdeal.Hand.mem_uc Cert.KernelIdeal.main_arg0 (by decide))).trans (Cert.KernelIdeal.Hand.W8_args m c).1,
     (h c _ (Cert.KernelIdeal.Hand.mem_uc Cert.KernelIdeal.main_arg1 (by decide))).trans (Cert.KernelIdeal.Hand.W8_args m c).2.1,
     (h c _ (Cert.KernelIdeal.Hand.mem_uc Cert.KernelIdeal.main_arg2 (by decide))).trans (Cert.KernelIdeal.Hand.W8_args m c).2.2.1,
     (h c _ (Cert.KernelIdeal.Hand.mem_uc Cert.KernelIdeal.main_arg3 (by decide))).trans (Cert.KernelIdeal.Hand.W8_args m c).2.2.2.1,
     (h c _ (Cert.KernelIdeal.Hand.mem_uc Cert.KernelIdeal.main_arg4 (by decide))).trans (Cert.KernelIdeal.Hand.W8_args m c).2.2.2.2.1,
     (h c _ (Cert.KernelIdeal.Hand.mem_uc Cert.KernelIdeal.main_arg5 (by decide))).trans (Cert.KernelIdeal.Hand.W8_args m c).2.2.2.2.2.1,
     (h c _ (Cert.KernelIdeal.Hand.mem_uc Cert.KernelIdeal.main_arg6 (by decide))).trans (Cert.KernelIdeal.Hand.W8_args m c).2.2.2.2.2.2.1,
     (h c _ (Cert.KernelIdeal.Hand.mem_uc Cert.KernelIdeal.main_arg7 (by decide))).trans (Cert.KernelIdeal.Hand.W8_args m c).2.2.2.2.2.2.2.1,
     (h c _ (Cert.KernelIdeal.Hand.mem_uc Cert.KernelIdeal.main_arg8 (by decide))).trans (Cert.KernelIdeal.Hand.W8_args m c).2.2.2.2.2.2.2.2.1,
     (h c _ (Cert.KernelIdeal.Hand.mem_uc Cert.KernelIdeal.main_arg9 (by decide))).trans (Cert.KernelIdeal.Hand.W8_args m c).2.2.2.2.2.2.2.2.2.1,
     (h c _ (Cert.KernelIdeal.Hand.mem_uc Cert.KernelIdeal.main_arg10 (by decide))).trans (Cert.KernelIdeal.Hand.W8_args m c).2.2.2.2.2.2.2.2.2.2⟩)
    (Cert.KernelIdeal.Hand.run_all m g)

/-- The reference ends with its arguments as launched. -/
theorem frame_ReferenceIdeal : @Cert.frame_ReferenceIdeal Cert.ReferenceIdeal.Gen.facts Cert.Pre_finite_inputs.Gen.facts :=
  fun m g _ => (θ_run Cert.ReferenceIdeal.defs _ _).mono (fun _ h c => (h c).2) (Cert.ReferenceIdeal.ValueH.run (F := Ideal) m g)

/-- Both idealized programs end with the network's value of the arguments in their result buffer. -/
theorem algebraic : @Cert.algebraic_KernelIdeal_ReferenceIdeal Cert.KernelIdeal.Gen.facts Cert.ReferenceIdeal.Gen.facts Cert.Pre_finite_inputs.Gen.facts :=
  fun m g m' g' _ hagree =>
    ⟨fun c => Cert.Val.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
     (θ_run Cert.KernelIdeal.defs _ _).mono (fun r h c =>
       ⟨(h c _ (Cert.KernelIdeal.Hand.mem_uc Cert.KernelIdeal.main_v51 (by decide))).trans (Cert.Val.kernel_net m c),
        (h c _ (Cert.KernelIdeal.Hand.mem_uc Cert.KernelIdeal.main_arg0 (by decide))).trans (Cert.KernelIdeal.Hand.W8_args m c).1,
        (h c _ (Cert.KernelIdeal.Hand.mem_uc Cert.KernelIdeal.main_arg1 (by decide))).trans (Cert.KernelIdeal.Hand.W8_args m c).2.1,
        (h c _ (Cert.KernelIdeal.Hand.mem_uc Cert.KernelIdeal.main_arg2 (by decide))).trans (Cert.KernelIdeal.Hand.W8_args m c).2.2.1,
        (h c _ (Cert.KernelIdeal.Hand.mem_uc Cert.KernelIdeal.main_arg3 (by decide))).trans (Cert.KernelIdeal.Hand.W8_args m c).2.2.2.1,
        (h c _ (Cert.KernelIdeal.Hand.mem_uc Cert.KernelIdeal.main_arg4 (by decide))).trans (Cert.KernelIdeal.Hand.W8_args m c).2.2.2.2.1,
        (h c _ (Cert.KernelIdeal.Hand.mem_uc Cert.KernelIdeal.main_arg5 (by decide))).trans (Cert.KernelIdeal.Hand.W8_args m c).2.2.2.2.2.1,
        (h c _ (Cert.KernelIdeal.Hand.mem_uc Cert.KernelIdeal.main_arg6 (by decide))).trans (Cert.KernelIdeal.Hand.W8_args m c).2.2.2.2.2.2.1,
        (h c _ (Cert.KernelIdeal.Hand.mem_uc Cert.KernelIdeal.main_arg7 (by decide))).trans (Cert.KernelIdeal.Hand.W8_args m c).2.2.2.2.2.2.2.1,
        (h c _ (Cert.KernelIdeal.Hand.mem_uc Cert.KernelIdeal.main_arg8 (by decide))).trans (Cert.KernelIdeal.Hand.W8_args m c).2.2.2.2.2.2.2.2.1,
        (h c _ (Cert.KernelIdeal.Hand.mem_uc Cert.KernelIdeal.main_arg9 (by decide))).trans (Cert.KernelIdeal.Hand.W8_args m c).2.2.2.2.2.2.2.2.2.1,
        (h c _ (Cert.KernelIdeal.Hand.mem_uc Cert.KernelIdeal.main_arg10 (by decide))).trans (Cert.KernelIdeal.Hand.W8_args m c).2.2.2.2.2.2.2.2.2.2⟩)
       (Cert.KernelIdeal.Hand.run_all m g),
     (θ_run Cert.ReferenceIdeal.defs _ _).mono (fun r h c =>
       ⟨by rw [(h c).1, (hagree c).1, (hagree c).2.1, (hagree c).2.2.1, (hagree c).2.2.2.1, (hagree c).2.2.2.2.1, (hagree c).2.2.2.2.2.1, (hagree c).2.2.2.2.2.2.1,
          (hagree c).2.2.2.2.2.2.2.1, (hagree c).2.2.2.2.2.2.2.2.1, (hagree c).2.2.2.2.2.2.2.2.2.1, (hagree c).2.2.2.2.2.2.2.2.2.2], (h c).2⟩)
       (Cert.ReferenceIdeal.ValueH.run (F := Ideal) m' g')⟩

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, trivial, algebraic⟩

end Cert.Proof

end
